-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S_ : Shape := ⟨0, ![]⟩

class Facts : Prop where
  bcast_S_S8192x128x1 : S_.BroadcastsInDim S8192x128x1 (![] : Fin 0 → Fin S8192x128x1.rank)
  reducesTo_S8192x128x1_S_d0_1_2 : S8192x128x1.ReducesTo [0, 1, 2] S_
  h_S_ : 0 < S_.numel
  bcast_S_S8192x64x3 : S_.BroadcastsInDim S8192x64x3 (![] : Fin 0 → Fin S8192x64x3.rank)
  reducesTo_S8192x64x3_S_d0_1_2 : S8192x64x3.ReducesTo [0, 1, 2] S_
  bcast_S_S8192x32x5 : S_.BroadcastsInDim S8192x32x5 (![] : Fin 0 → Fin S8192x32x5.rank)
  reducesTo_S8192x32x5_S_d0_1_2 : S8192x32x5.ReducesTo [0, 1, 2] S_
  bcast_S_S64x21504 : S_.BroadcastsInDim S64x21504 (![] : Fin 0 → Fin S64x21504.rank)
  reducesTo_S64x21504_S_d0_1 : S64x21504.ReducesTo [0, 1] S_

variable [Facts]

def fn_part1 {F : FTy → Type} [FloatOps F] (main_v13 : IVec S_ 1) (main_v16 : IVec S64x21504 1) : IVec S_ 1 :=
  let main_c_5 : IVec S_ 1 := constantI S_ 1 1#1
  let main_v17 : IVec S_ 1 := (fun x v => Host.reduce IntOp.andi x v reducesTo_S64x21504_S_d0_1 h_S_) main_v16 main_c_5
  let main_v18 : IVec S_ 1 := andi main_v13 main_v17
  main_v18

def fn {F : FTy → Type} [FloatOps F] (main_arg0 : FVec F S8192x128x1 .f32) (main_arg1 : FVec F S8192x64x3 .f32) (main_arg2 : FVec F S8192x32x5 .f32) (main_arg3 : FVec F S64x21504 .f32) (main_arg4 : IVec S64 32) : IVec S_ 1 :=
  let main_v0 : FVec F S8192x128x1 .f32 := Host.absf main_arg0
  let main_cst : FVec F S_ .f32 := constant S_ .f32 0x7F800000#32
  let main_v1 : FVec F S8192x128x1 .f32 := broadcastInDim S8192x128x1 ![] bcast_S_S8192x128x1 main_cst
  let main_v2 : IVec S8192x128x1 1 := cmpf .olt main_v0 main_v1
  let main_c : IVec S_ 1 := constantI S_ 1 1#1
  let main_v3 : IVec S_ 1 := (fun x v => Host.reduce IntOp.andi x v reducesTo_S8192x128x1_S_d0_1_2 h_S_) main_v2 main_c
  let main_v4 : FVec F S8192x64x3 .f32 := Host.absf main_arg1
  let main_cst_0 : FVec F S_ .f32 := constant S_ .f32 0x7F800000#32
  let main_v5 : FVec F S8192x64x3 .f32 := broadcastInDim S8192x64x3 ![] bcast_S_S8192x64x3 main_cst_0
  let main_v6 : IVec S8192x64x3 1 := cmpf .olt main_v4 main_v5
  let main_c_1 : IVec S_ 1 := constantI S_ 1 1#1
  let main_v7 : IVec S_ 1 := (fun x v => Host.reduce IntOp.andi x v reducesTo_S8192x64x3_S_d0_1_2 h_S_) main_v6 main_c_1
  let main_v8 : IVec S_ 1 := andi main_v3 main_v7
  let main_v9 : FVec F S8192x32x5 .f32 := Host.absf main_arg2
  let main_cst_2 : FVec F S_ .f32 := constant S_ .f32 0x7F800000#32
  let main_v10 : FVec F S8192x32x5 .f32 := broadcastInDim S8192x32x5 ![] bcast_S_S8192x32x5 main_cst_2
  let main_v11 : IVec S8192x32x5 1 := cmpf .olt main_v9 main_v10
  let main_c_3 : IVec S_ 1 := constantI S_ 1 1#1
  let main_v12 : IVec S_ 1 := (fun x v => Host.reduce IntOp.andi x v reducesTo_S8192x32x5_S_d0_1_2 h_S_) main_v11 main_c_3
  let main_v13 : IVec S_ 1 := andi main_v8 main_v12
  let main_v14 : FVec F S64x21504 .f32 := Host.absf main_arg3
  let main_cst_4 : FVec F S_ .f32 := constant S_ .f32 0x7F800000#32
  let main_v15 : FVec F S64x21504 .f32 := broadcastInDim S64x21504 ![] bcast_S_S64x21504 main_cst_4
  let main_v16 : IVec S64x21504 1 := cmpf .olt main_v14 main_v15
  fn_part1 (F := F) main_v13 main_v16
-- ==== Kernel.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S1 : Shape := ⟨1, ![1]⟩
abbrev S63 : Shape := ⟨1, ![63]⟩
abbrev S_ : Shape := ⟨0, ![]⟩
abbrev S8192 : Shape := ⟨1, ![8192]⟩
abbrev S64x1 : Shape := ⟨2, ![64, 1]⟩
abbrev S8192x1 : Shape := ⟨2, ![8192, 1]⟩
abbrev S1x1 : Shape := ⟨2, ![1, 1]⟩
abbrev S64x16384 : Shape := ⟨2, ![64, 16384]⟩
abbrev S128x128x1 : Shape := ⟨3, ![128, 128, 1]⟩
abbrev S128x1 : Shape := ⟨2, ![128, 1]⟩
abbrev S128x64 : Shape := ⟨2, ![128, 64]⟩
abbrev S128x16384 : Shape := ⟨2, ![128, 16384]⟩
abbrev S128x128x128 : Shape := ⟨3, ![128, 128, 128]⟩
abbrev S64x4096 : Shape := ⟨2, ![64, 4096]⟩
abbrev S256x64x3 : Shape := ⟨3, ![256, 64, 3]⟩
abbrev S256x1 : Shape := ⟨2, ![256, 1]⟩
abbrev S256x64 : Shape := ⟨2, ![256, 64]⟩
abbrev S256x4096 : Shape := ⟨2, ![256, 4096]⟩
abbrev S256x64x64 : Shape := ⟨3, ![256, 64, 64]⟩
abbrev S64x1024 : Shape := ⟨2, ![64, 1024]⟩
abbrev S256x32x5 : Shape := ⟨3, ![256, 32, 5]⟩
abbrev S256x1024 : Shape := ⟨2, ![256, 1024]⟩
abbrev S256x32x32 : Shape := ⟨3, ![256, 32, 32]⟩

abbrev nBuf : Space → Nat
  | .hbm => 70
  | .vmem => 21
  | .smem => 0
  | _ => 0

abbrev bufTy : (tb : Table) → Fin (tcTables nBuf tb) → BufTy
  | .hbm, ⟨0, _⟩ => ⟨S8192x128x1, .f32⟩
  | .hbm, ⟨1, _⟩ => ⟨S8192x64x3, .f32⟩
  | .hbm, ⟨2, _⟩ => ⟨S8192x32x5, .f32⟩
  | .hbm, ⟨3, _⟩ => ⟨S64x21504, .f32⟩
  | .hbm, ⟨4, _⟩ => ⟨S64, .i32⟩
  | .hbm, ⟨5, _⟩ => ⟨S64, .i32⟩
  | .hbm, ⟨6, _⟩ => ⟨S1, .i32⟩
  | .hbm, ⟨7, _⟩ => ⟨S63, .i32⟩
  | .hbm, ⟨8, _⟩ => ⟨S64, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S8192, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S_, .i32⟩
  | .hbm, ⟨27, _⟩ => ⟨S64, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S64x16384, .f32⟩
  | .hbm, ⟨59, _⟩ => ⟨S64x16384, .bf16⟩
  | .hbm, ⟨60, _⟩ => ⟨S8192x128x1, .bf16⟩
  | .hbm, ⟨61, _⟩ => ⟨S8192x128x1, .f32⟩
  | .hbm, ⟨62, _⟩ => ⟨S64x4096, .f32⟩
  | .hbm, ⟨63, _⟩ => ⟨S64x4096, .bf16⟩
  | .hbm, ⟨64, _⟩ => ⟨S8192x64x3, .bf16⟩
  | .hbm, ⟨65, _⟩ => ⟨S8192x64x3, .f32⟩
  | .hbm, ⟨66, _⟩ => ⟨S64x1024, .f32⟩
  | .hbm, ⟨67, _⟩ => ⟨S64x1024, .bf16⟩
  | .hbm, ⟨68, _⟩ => ⟨S8192x32x5, .bf16⟩
  | .hbm, ⟨69, _⟩ => ⟨S8192x32x5, .f32⟩
  | .local _ .vmem, ⟨0, _⟩ => ⟨S128x128x1, .bf16⟩
  | .local _ .vmem, ⟨1, _⟩ => ⟨S128x128x1, .bf16⟩
  | .local _ .vmem, ⟨2, _⟩ => ⟨S128x1, .i32⟩
  | .local _ .vmem, ⟨3, _⟩ => ⟨S128x1, .i32⟩
  | .local _ .vmem, ⟨4, _⟩ => ⟨S64x16384, .bf16⟩
  | .local _ .vmem, ⟨5, _⟩ => ⟨S128x128x1, .f32⟩
  | .local _ .vmem, ⟨6, _⟩ => ⟨S128x128x1, .f32⟩
  | .local _ .vmem, ⟨7, _⟩ => ⟨S256x64x3, .bf16⟩
  | .local _ .vmem, ⟨8, _⟩ => ⟨S256x64x3, .bf16⟩
  | .local _ .vmem, ⟨9, _⟩ => ⟨S256x1, .i32⟩
  | .local _ .vmem, ⟨10, _⟩ => ⟨S256x1, .i32⟩
  | .local _ .vmem, ⟨11, _⟩ => ⟨S64x4096, .bf16⟩
  | .local _ .vmem, ⟨12, _⟩ => ⟨S256x64x3, .f32⟩
  | .local _ .vmem, ⟨13, _⟩ => ⟨S256x64x3, .f32⟩
  | .local _ .vmem, ⟨14, _⟩ => ⟨S256x32x5, .bf16⟩
  | .local _ .vmem, ⟨15, _⟩ => ⟨S256x32x5, .bf16⟩
  | .local _ .vmem, ⟨16, _⟩ => ⟨S256x1, .i32⟩
  | .local _ .vmem, ⟨17, _⟩ => ⟨S256x1, .i32⟩
  | .local _ .vmem, ⟨18, _⟩ => ⟨S64x1024, .bf16⟩
  | .local _ .vmem, ⟨19, _⟩ => ⟨S256x32x5, .f32⟩
  | .local _ .vmem, ⟨20, _⟩ => ⟨S256x32x5, .f32⟩
  | _, _ => ⟨S8192x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x1 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x64x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x32x5 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x32x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  shapeCasts_S8192_S8192x1 : S8192.ShapeCasts S8192x1
  slices_S64x21504_S64x16384_0_0 : S64x21504.Slices ![0, 0] S64x16384
  bitsLt_bf16_f32 : FTy.bits .bf16 < FTy.bits .f32
  iota_S128x64_d1_w32 : S128x64.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  natLt_1_32 : 1 < 32
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  shapeCasts_S128x16384_S128x128x128 : S128x16384.ShapeCasts S128x128x128
  inb_S128x128x1_S128x128x1_0_0_0 : ∀ a, (![0, 0, 0] : Fin 3 → Nat) a + S128x128x1.size a ≤ S128x128x1.size a
  h_S128x128x1 : 0 < S128x128x1.numel
  shapeCasts_S128x128x1_S128x128x1 : S128x128x1.ShapeCasts S128x128x1
  slices_S64x21504_S64x4096_0_16384 : S64x21504.Slices ![0, 16384] S64x4096
  iota_S256x64_d1_w32 : S256x64.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S256x4096_S256x64x64 : S256x4096.ShapeCasts S256x64x64
  inb_S256x64x3_S256x64x3_0_0_0 : ∀ a, (![0, 0, 0] : Fin 3 → Nat) a + S256x64x3.size a ≤ S256x64x3.size a
  h_S256x64x3 : 0 < S256x64x3.numel
  shapeCasts_S256x64x3_S256x64x3 : S256x64x3.ShapeCasts S256x64x3
  slices_S64x21504_S64x1024_0_20480 : S64x21504.Slices ![0, 20480] S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S256x1024_S256x32x32 : S256x1024.ShapeCasts S256x32x32
  inb_S256x32x5_S256x32x5_0_0_0 : ∀ a, (![0, 0, 0] : Fin 3 → Nat) a + S256x32x5.size a ≤ S256x32x5.size a
  h_S256x32x5 : 0 < S256x32x5.numel
  shapeCasts_S256x32x5_S256x32x5 : S256x32x5.ShapeCasts S256x32x5
  scatter_S64_S1_S__n_0_0_0_wf : ScatterDims.WF S64 S1 S_ [] [0] [0] 0
  scatter_S8192_S64x1_S64_n_0_0_1_wf : ScatterDims.WF S8192 S64x1 S64 [] [0] [0] 1
  gather_S64_S8192x1_S8192_n_0_n_n_0_1_1_wf : GatherDims.WF S64 S8192x1 S8192 [] [0] [] [0] [] 1 ![1]
  dot_S128x64_S64x16384_S128x16384_1_0_0_1_n_n_wf : DotDims.WF S128x64 S64x16384 S128x16384 [1] [0] [0] [1] [] []
  dot_S128x128x128_S128x128x1_S128x128x1_1_1_2_2_0_0_wf : DotDims.WF S128x128x128 S128x128x1 S128x128x1 [1] [1] [2] [2] [0] [0]
  dot_S256x64_S64x4096_S256x4096_1_0_0_1_n_n_wf : DotDims.WF S256x64 S64x4096 S256x4096 [1] [0] [0] [1] [] []
  dot_S256x64x64_S256x64x3_S256x64x3_1_1_2_2_0_0_wf : DotDims.WF S256x64x64 S256x64x3 S256x64x3 [1] [1] [2] [2] [0] [0]
  dot_S256x64_S64x1024_S256x1024_1_0_0_1_n_n_wf : DotDims.WF S256x64 S64x1024 S256x1024 [1] [0] [0] [1] [] []
  dot_S256x32x32_S256x32x5_S256x32x5_1_1_2_2_0_0_wf : DotDims.WF S256x32x32 S256x32x5 S256x32x5 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x1.size a ≤ S8192x128x1.size a
  hwx0_0 : ∀ i : grid0.Coords, EltTy.bits .bf16 = 32 ∨ (Rect.block (s := S8192x128x1) S128x128x1.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x16384.size a
  hwx0_2 : ∀ i : grid0.Coords, EltTy.bits .bf16 = 32 ∨ (Rect.block (s := S64x16384) S64x16384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x1.size a ≤ S8192x128x1.size a
  hwx0_3 : ∀ i : grid0.Coords, EltTy.bits .f32 = 32 ∨ (Rect.block (s := S8192x128x1) S128x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64x3.size a ≤ S8192x64x3.size a
  hwx1_0 : ∀ i : grid1.Coords, EltTy.bits .bf16 = 32 ∨ (Rect.block (s := S8192x64x3) S256x64x3.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .i32 = 32 ∨ (Rect.block (s := S8192x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .bf16 = 32 ∨ (Rect.block (s := S64x4096) S64x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64x3.size a ≤ S8192x64x3.size a
  hwx1_3 : ∀ i : grid1.Coords, EltTy.bits .f32 = 32 ∨ (Rect.block (s := S8192x64x3) S256x64x3.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x32x5.size a ≤ S8192x32x5.size a
  hwx2_0 : ∀ i : grid2.Coords, EltTy.bits .bf16 = 32 ∨ (Rect.block (s := S8192x32x5) S256x32x5.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S8192x1.size a
  hwx2_1 : ∀ i : grid2.Coords, EltTy.bits .i32 = 32 ∨ (Rect.block (s := S8192x1) S256x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1024.size a ≤ S64x1024.size a
  hwx2_2 : ∀ i : grid2.Coords, EltTy.bits .bf16 = 32 ∨ (Rect.block (s := S64x1024) S64x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x32x5.size a ≤ S8192x32x5.size a
  hwx2_3 : ∀ i : grid2.Coords, EltTy.bits .f32 = 32 ∨ (Rect.block (s := S8192x32x5) S256x32x5.size (cc2_transform_3 i) (hinb2_3 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S8192_S64x1_S64_n_0_0_1 : ScatterDims S8192 S64x1 S64 where
  updateWindowDims := []
  insertedWindowDims := [0]
  scatterDimsToOperandDims := [0]
  indexVectorDim := 1
  wf := scatter_S8192_S64x1_S64_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def dot_S128x128x128_S128x128x1_S128x128x1_1_1_2_2_0_0 : DotDims S128x128x128 S128x128x1 S128x128x1 where
  lhsContracting := [1]
  rhsContracting := [1]
  lhsNonContracting := [2]
  rhsNonContracting := [2]
  lhsBatch := [0]
  rhsBatch := [0]
  wf := dot_S128x128x128_S128x128x1_S128x128x1_1_1_2_2_0_0_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x64x64_S256x64x3_S256x64x3_1_1_2_2_0_0 : DotDims S256x64x64 S256x64x3 S256x64x3 where
  lhsContracting := [1]
  rhsContracting := [1]
  lhsNonContracting := [2]
  rhsNonContracting := [2]
  lhsBatch := [0]
  rhsBatch := [0]
  wf := dot_S256x64x64_S256x64x3_S256x64x3_1_1_2_2_0_0_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x32x32_S256x32x5_S256x32x5_1_1_2_2_0_0 : DotDims S256x32x32 S256x32x5 S256x32x5 where
  lhsContracting := [1]
  rhsContracting := [1]
  lhsNonContracting := [2]
  rhsNonContracting := [2]
  lhsBatch := [0]
  rhsBatch := [0]
  wf := dot_S256x32x32_S256x32x5_S256x32x5_1_1_2_2_0_0_wf

abbrev win0_0 : Pipeline.Window sig grid0 :=
  Pipeline.Window.ofSpec (Memref.whole main_v21) S128x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S256x64x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S256x64x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S256x32x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S64x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S256x32x5.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x128x1 : Shape := ⟨3, ![8192, 128, 1]⟩
abbrev S8192x64x3 : Shape := ⟨3, ![8192, 64, 3]⟩
abbrev S8192x32x5 : Shape := ⟨3, ![8192, 32, 5]⟩
abbrev S64x21504 : Shape := ⟨2, ![64, 21504]⟩
abbrev S64 : Shape := ⟨1, ![64]⟩
abbrev S1 : Shape := ⟨1, ![1]⟩
abbrev S63 : Shape := ⟨1, ![63]⟩
abbrev S_ : Shape := ⟨0, ![]⟩
abbrev S8192 : Shape := ⟨1, ![8192]⟩
abbrev S64x1 : Shape := ⟨2, ![64, 1]⟩
abbrev S8192x1 : Shape := ⟨2, ![8192, 1]⟩
abbrev S1x1 : Shape := ⟨2, ![1, 1]⟩
abbrev S64x16384 : Shape := ⟨2, ![64, 16384]⟩
abbrev S64x128x128 : Shape := ⟨3, ![64, 128, 128]⟩
abbrev S8192x128x128 : Shape := ⟨3, ![8192, 128, 128]⟩
abbrev S64x4096 : Shape := ⟨2, ![64, 4096]⟩
abbrev S64x64x64 : Shape := ⟨3, ![64, 64, 64]⟩
abbrev S8192x64x64 : Shape := ⟨3, ![8192, 64, 64]⟩
abbrev S64x1024 : Shape := ⟨2, ![64, 1024]⟩
abbrev S64x32x32 : Shape := ⟨3, ![64, 32, 32]⟩
abbrev S8192x32x32 : Shape := ⟨3, ![8192, 32, 32]⟩

abbrev nBuf : Space → Nat
  | .hbm => 102
  | .vmem => 0
  | .smem => 0
  | _ => 0

abbrev bufTy : (tb : Table) → Fin (tcTables nBuf tb) → BufTy
  | .hbm, ⟨0, _⟩ => ⟨S8192x128x1, .f32⟩
  | .hbm, ⟨1, _⟩ => ⟨S8192x64x3, .f32⟩
  | .hbm, ⟨2, _⟩ => ⟨S8192x32x5, .f32⟩
  | .hbm, ⟨3, _⟩ => ⟨S64x21504, .f32⟩
  | .hbm, ⟨4, _⟩ => ⟨S64, .i32⟩
  | .hbm, ⟨5, _⟩ => ⟨S64, .i32⟩
  | .hbm, ⟨6, _⟩ => ⟨S1, .i32⟩
  | .hbm, ⟨7, _⟩ => ⟨S63, .i32⟩
  | .hbm, ⟨8, _⟩ => ⟨S64, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S_, .i32⟩
  | .hbm, ⟨17, _⟩ => ⟨S8192, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S_, .i32⟩
  | .hbm, ⟨27, _⟩ => ⟨S64, .i32⟩
  | .hbm, ⟨28, _⟩ => ⟨S8192, .i32⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S1x1, .i32⟩
  | .hbm, ⟨48, _⟩ => ⟨S8192x1, .i32⟩
  | .hbm, ⟨49, _⟩ => ⟨S8192x1, .i1⟩
  | .hbm, ⟨50, _⟩ => ⟨S8192x1, .i1⟩
  | .hbm, ⟨51, _⟩ => ⟨S_, .i1⟩
  | .hbm, ⟨52, _⟩ => ⟨S8192, .i1⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S64x16384, .f32⟩
  | .hbm, ⟨58, _⟩ => ⟨S64x128x128, .f32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x128x128, .f32⟩
  | .hbm, ⟨68, _⟩ => ⟨S8192x128x1, .f32⟩
  | .hbm, ⟨69, _⟩ => ⟨S_, .f32⟩
  | .hbm, ⟨70, _⟩ => ⟨S8192x128x1, .f32⟩
  | .hbm, ⟨71, _⟩ => ⟨S8192x128x1, .f32⟩
  | .hbm, ⟨72, _⟩ => ⟨S64x4096, .f32⟩
  | .hbm, ⟨73, _⟩ => ⟨S64x64x64, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x64x64, .f32⟩
  | .hbm, ⟨83, _⟩ => ⟨S8192x64x3, .f32⟩
  | .hbm, ⟨84, _⟩ => ⟨S_, .f32⟩
  | .hbm, ⟨85, _⟩ => ⟨S8192x64x3, .f32⟩
  | .hbm, ⟨86, _⟩ => ⟨S8192x64x3, .f32⟩
  | .hbm, ⟨87, _⟩ => ⟨S64x1024, .f32⟩
  | .hbm, ⟨88, _⟩ => ⟨S64x32x32, .f32⟩
  | .hbm, ⟨89, _⟩ => ⟨S_, .i32⟩
  | .hbm, ⟨90, _⟩ => ⟨S8192, .i32⟩
  | .hbm, ⟨91, _⟩ => ⟨S8192, .i1⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S8192, .i32⟩
  | .hbm, ⟨96, _⟩ => ⟨S8192x1, .i32⟩
  | .hbm, ⟨97, _⟩ => ⟨S8192x32x32, .f32⟩
  | .hbm, ⟨98, _⟩ => ⟨S8192x32x5, .f32⟩
  | .hbm, ⟨99, _⟩ => ⟨S_, .f32⟩
  | .hbm, ⟨100, _⟩ => ⟨S8192x32x5, .f32⟩
  | .hbm, ⟨101, _⟩ => ⟨S8192x32x5, .f32⟩
  | _, _ => ⟨S8192x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_6 : Ref sig .tc := ⟨.hbm, 59, rfl⟩
abbrev main_v20 : Ref sig .tc := ⟨.hbm, 60, rfl⟩
abbrev main_v21 : Ref sig .tc := ⟨.hbm, 61, rfl⟩
abbrev main_c_7 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_8 : Ref sig .tc := ⟨.hbm, 74, rfl⟩
abbrev main_v32 : Ref sig .tc := ⟨.hbm, 75, rfl⟩
abbrev main_v33 : Ref sig .tc := ⟨.hbm, 76, rfl⟩
abbrev main_c_9 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_11 : Ref sig .tc := ⟨.hbm, 89, rfl⟩
abbrev main_v44 : Ref sig .tc := ⟨.hbm, 90, rfl⟩
abbrev main_v45 : Ref sig .tc := ⟨.hbm, 91, rfl⟩
abbrev main_c_12 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_13 : Ref sig .tc := ⟨.hbm, 99, rfl⟩
abbrev main_v52 : Ref sig .tc := ⟨.hbm, 100, rfl⟩
abbrev main_v53 : Ref sig .tc := ⟨.hbm, 101, rfl⟩

abbrev nD : Nat := 1
abbrev τ : Topo := Topo.v7x

variable {F : FTy → Type} [FloatOps F]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S8192 : S_.BroadcastsInDim S8192 (![] : Fin 0 → Fin S8192.rank)
  bcast_S_S64 : S_.BroadcastsInDim S64 (![] : Fin 0 → Fin S64.rank)
  bcast_S64_S64x1_0 : S64.BroadcastsInDim S64x1 (![0] : Fin 1 → Fin S64x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  slices_S64x21504_S64x16384_0_0 : S64x21504.Slices ![0, 0] S64x16384
  shapeCasts_S64x16384_S64x128x128 : S64x16384.ShapeCasts S64x128x128
  bcast_S_S8192x128x1 : S_.BroadcastsInDim S8192x128x1 (![] : Fin 0 → Fin S8192x128x1.rank)
  slices_S64x21504_S64x4096_0_16384 : S64x21504.Slices ![0, 16384] S64x4096
  shapeCasts_S64x4096_S64x64x64 : S64x4096.ShapeCasts S64x64x64
  bcast_S_S8192x64x3 : S_.BroadcastsInDim S8192x64x3 (![] : Fin 0 → Fin S8192x64x3.rank)
  slices_S64x21504_S64x1024_0_20480 : S64x21504.Slices ![0, 20480] S64x1024
  shapeCasts_S64x1024_S64x32x32 : S64x1024.ShapeCasts S64x32x32
  bcast_S_S8192x32x5 : S_.BroadcastsInDim S8192x32x5 (![] : Fin 0 → Fin S8192x32x5.rank)
  scatter_S64_S1_S__n_0_0_0_wf : ScatterDims.WF S64 S1 S_ [] [0] [0] 0
  scatter_S8192_S64x1_S64_n_0_0_1_wf : ScatterDims.WF S8192 S64x1 S64 [] [0] [0] 1
  gather_S64_S8192x1_S8192_n_0_n_n_0_1_1_wf : GatherDims.WF S64 S8192x1 S8192 [] [0] [] [0] [] 1 ![1]
  gather_S64x128x128_S8192x1_S8192x128x128_12_0_n_n_0_1_1128128_wf : GatherDims.WF S64x128x128 S8192x1 S8192x128x128 [1, 2] [0] [] [0] [] 1 ![1, 128, 128]
  dot_S8192x128x128_S8192x128x1_S8192x128x1_1_1_2_2_0_0_wf : DotDims.WF S8192x128x128 S8192x128x1 S8192x128x1 [1] [1] [2] [2] [0] [0]
  gather_S64x64x64_S8192x1_S8192x64x64_12_0_n_n_0_1_16464_wf : GatherDims.WF S64x64x64 S8192x1 S8192x64x64 [1, 2] [0] [] [0] [] 1 ![1, 64, 64]
  dot_S8192x64x64_S8192x64x3_S8192x64x3_1_1_2_2_0_0_wf : DotDims.WF S8192x64x64 S8192x64x3 S8192x64x3 [1] [1] [2] [2] [0] [0]
  gather_S64x32x32_S8192x1_S8192x32x32_12_0_n_n_0_1_13232_wf : GatherDims.WF S64x32x32 S8192x1 S8192x32x32 [1, 2] [0] [] [0] [] 1 ![1, 32, 32]
  dot_S8192x32x32_S8192x32x5_S8192x32x5_1_1_2_2_0_0_wf : DotDims.WF S8192x32x32 S8192x32x5 S8192x32x5 [1] [1] [2] [2] [0] [0]

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S8192_S64x1_S64_n_0_0_1 : ScatterDims S8192 S64x1 S64 where
  updateWindowDims := []
  insertedWindowDims := [0]
  scatterDimsToOperandDims := [0]
  indexVectorDim := 1
  wf := scatter_S8192_S64x1_S64_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S64x128x128_S8192x1_S8192x128x128_12_0_n_n_0_1_1128128 : GatherDims S64x128x128 S8192x1 S8192x128x128 where
  offsetDims := [1, 2]
  collapsedSliceDims := [0]
  operandBatchingDims := []
  startIndicesBatchingDims := []
  startIndexMap := [0]
  indexVectorDim := 1
  sliceSizes := ![1, 128, 128]
  wf := gather_S64x128x128_S8192x1_S8192x128x128_12_0_n_n_0_1_1128128_wf
def dot_S8192x128x128_S8192x128x1_S8192x128x1_1_1_2_2_0_0 : DotDims S8192x128x128 S8192x128x1 S8192x128x1 where
  lhsContracting := [1]
  rhsContracting := [1]
  lhsNonContracting := [2]
  rhsNonContracting := [2]
  lhsBatch := [0]
  rhsBatch := [0]
  wf := dot_S8192x128x128_S8192x128x1_S8192x128x1_1_1_2_2_0_0_wf
def gather_S64x64x64_S8192x1_S8192x64x64_12_0_n_n_0_1_16464 : GatherDims S64x64x64 S8192x1 S8192x64x64 where
  offsetDims := [1, 2]
  collapsedSliceDims := [0]
  operandBatchingDims := []
  startIndicesBatchingDims := []
  startIndexMap := [0]
  indexVectorDim := 1
  sliceSizes := ![1, 64, 64]
  wf := gather_S64x64x64_S8192x1_S8192x64x64_12_0_n_n_0_1_16464_wf
def dot_S8192x64x64_S8192x64x3_S8192x64x3_1_1_2_2_0_0 : DotDims S8192x64x64 S8192x64x3 S8192x64x3 where
  lhsContracting := [1]
  rhsContracting := [1]
  lhsNonContracting := [2]
  rhsNonContracting := [2]
  lhsBatch := [0]
  rhsBatch := [0]
  wf := dot_S8192x64x64_S8192x64x3_S8192x64x3_1_1_2_2_0_0_wf
def gather_S64x32x32_S8192x1_S8192x32x32_12_0_n_n_0_1_13232 : GatherDims S64x32x32 S8192x1 S8192x32x32 where
  offsetDims := [1, 2]
  collapsedSliceDims := [0]
  operandBatchingDims := []
  startIndicesBatchingDims := []
  startIndexMap := [0]
  indexVectorDim := 1
  sliceSizes := ![1, 32, 32]
  wf := gather_S64x32x32_S8192x1_S8192x32x32_12_0_n_n_0_1_13232_wf
def dot_S8192x32x32_S8192x32x5_S8192x32x5_1_1_2_2_0_0 : DotDims S8192x32x32 S8192x32x5 S8192x32x5 where
  lhsContracting := [1]
  rhsContracting := [1]
  lhsNonContracting := [2]
  rhsNonContracting := [2]
  lhsBatch := [0]
  rhsBatch := [0]
  wf := dot_S8192x32x32_S8192x32x5_S8192x32x5_1_1_2_2_0_0_wf

class Facts : Prop extends Facts₀ where

variable [Facts]
-- ==== Proof.Seg.lean ====
/-
  The segment id of every row, as the host computes it from the per-segment row counts.

  Rows are grouped contiguously: segment g owns counts[g] consecutive rows.  The host finds the segment of
  row n in four steps.  (1) The exclusive prefix sums of the counts: the counts rotated right by one place,
  the first entry overwritten by zero, then an inclusive running sum; entry g is the first row of segment g.
  (2) A marker array over the rows: one is added at every start (a negative start wraps by the row count,
  a start that is still outside is dropped), so marks[n] counts the segments that start at row n.
  (3) The inclusive running sum of the markers, less one: the number of segments that start at or before
  row n, less one.  (4) A lookup of that rank in the table 0, 1, …, 63: a negative rank wraps by 64, and a
  rank still outside the table yields the most negative word.

  Both programs compute this function by the same sequence of operations; it is stated here once so that both
  results can be written over the same term.
-/
import Idealize.ShloMosaic.PureOps.Ideal

noncomputable section

namespace Cert.IxLin

open Idealize.ShloMosaic

abbrev T_ : Shape := ⟨0, ![]⟩
abbrev T1 : Shape := ⟨1, ![1]⟩
abbrev T63 : Shape := ⟨1, ![63]⟩
abbrev T64 : Shape := ⟨1, ![64]⟩
abbrev T8192 : Shape := ⟨1, ![8192]⟩
abbrev T64x1 : Shape := ⟨2, ![64, 1]⟩
abbrev T8192x1 : Shape := ⟨2, ![8192, 1]⟩
abbrev T1x1 : Shape := ⟨2, ![1, 1]⟩

/-- Overwrite one entry of the 64 counts at one start index. -/
def dSet : ScatterDims T64 T1 T_ where
  updateWindowDims := []
  insertedWindowDims := [0]
  scatterDimsToOperandDims := [0]
  indexVectorDim := 0
  wf := by decide

/-- Add 64 scalar updates into the 8192 rows, one start index per update. -/
def dAdd : ScatterDims T8192 T64x1 T64 where
  updateWindowDims := []
  insertedWindowDims := [0]
  scatterDimsToOperandDims := [0]
  indexVectorDim := 1
  wf := by decide

/-- Look 8192 indices up in a table of 64 entries. -/
def dTake : GatherDims T64 T8192x1 T8192 where
  offsetDims := []
  collapsedSliceDims := [0]
  operandBatchingDims := []
  startIndicesBatchingDims := []
  startIndexMap := [0]
  indexVectorDim := 1
  sliceSizes := ![1]
  wf := by decide

/-- Step (1): the first row of every segment (exclusive prefix sums of the counts). -/
def starts (cnt : IVec T64 32) : IVec T64 32 :=
  Host.reduceWindow IntOp.addi ![64] ![1] ![63] ![0]
    (Host.scatter dSet (fun _ b => b)
      (concatenate T64 0 [⟨T1, extractStridedSlice T1 ![63] cnt (by decide)⟩, ⟨T63, extractStridedSlice T63 ![0] cnt (by decide)⟩] (by decide : Shape.Concatenates [T1, T63] T64 0))
      (broadcastInDim T1 ![] (by decide) (constantI T_ 32 0#32))
      (constantI T_ 32 0#32))
    (broadcastInDim T_ ![] (by decide) (constantI T_ 32 0#32)) (by decide) (by decide)

/-- Step (2): how many segments start at each row. -/
def marks (st : IVec T64 32) : IVec T8192 32 :=
  Host.scatter dAdd IntOp.addi
    (broadcastInDim T8192 ![] (by decide) (constantI T_ 32 0#32))
    (broadcastInDim T64x1 ![0] (by decide)
      (select (cmpi .slt st (broadcastInDim T64 ![] (by decide) (constantI T_ 32 0#32)))
        (addi st (broadcastInDim T64 ![] (by decide) (constantI T_ 32 8192#32))) st))
    (broadcastInDim T64 ![] (by decide) (constantI T_ 32 1#32))

/-- Step (3): the number of segments that start at or before each row, less one. -/
def ranks (mk : IVec T8192 32) : IVec T8192 32 :=
  subi (Host.reduceWindow IntOp.addi ![8192] ![1] ![8191] ![0] mk
      (broadcastInDim T_ ![] (by decide) (constantI T_ 32 0#32)) (by decide) (by decide))
    (broadcastInDim T8192 ![] (by decide) (constantI T_ 32 1#32))

/-- The wrapped lookup index of step (4), as a column. -/
def wrapped (a : IVec T8192 32) : IVec T8192x1 32 :=
  broadcastInDim T8192x1 ![0] (by decide)
    (select (cmpi .slt a (broadcastInDim T8192 ![] (by decide) (constantI T_ 32 0#32)))
      (addi a (broadcastInDim T8192 ![] (by decide) (constantI T_ 32 64#32))) a)

/-- Step (4): the lookup in the table 0 … 63, the most negative word where the index is outside it. -/
def lookup (a : IVec T8192 32) : IVec T8192 32 :=
  select
    (Host.reduce (axes := [1]) IntOp.andi
      (andi (cmpi .sge (wrapped a) (broadcastInDim T8192x1 ![] (by decide) (constantI T_ 32 0#32)))
        (cmpi .sle (wrapped a)
          (broadcastInDim T8192x1 ![0, 1] (by decide) (broadcastInDim T1x1 ![1] (by decide) (constantI T1 32 63#32)))))
      (constantI T_ 1 1#1) (by decide) (by decide))
    (Host.gather dTake (iotaInDim T64 32 0) (wrapped a))
    (broadcastInDim T8192 ![] (by decide) (constantI T_ 32 2147483648#32))

/-- The segment id of every row. -/
def segIds (cnt : IVec T64 32) : IVec T8192 32 := lookup (ranks (marks (starts cnt)))

end Cert.IxLin

end
-- ==== Proof.Spec.lean ====
/-
  What both programs compute, as one function of the arrays, index by index.

  For each of the three blocks of features (multiplicities 128, 64, 32; components 1, 3, 5) the result at row n,
  output channel o and component i is

      coeff · Σ_m  w[ segment(n), offset + m · mul + o ] · x[n, m, i]

  the row n of x mixed over its input channels m by the (mul × mul) block of the weight row that belongs to the
  row's segment.  The weight blocks of the three feature kinds lie side by side in a weight row, at the column
  offsets 0, 16384 = 128², 20480 = 128² + 64².  The coefficient is the same binary word in both programs and is
  never evaluated.

  The kernel selects the weight row by a sum over all 64 rows against an indicator of the segment id
  (`hot_sum`: such a sum is the selected entry, because the indicator is one at one row and zero at the others
  and a zero factor annihilates every extended real); the reference reads the row at the segment id directly.
-/
import Idealize.ShloMosaic.PureOps.Ideal
import Idealize.ShloMosaic.PureOps.Ideal.Laws
import Idealize.ShloMosaic.Lib.ValueIdx
import proofs.«107284_j21672404975706_1_alg».proof.Proof.Seg

noncomputable section

open scoped BigOperators

namespace Cert.IxLin

open Idealize.ShloMosaic Idealize.ShloMosaic.ValueIdx

abbrev TW : Shape := ⟨2, ![64, 21504]⟩
abbrev TX0 : Shape := ⟨3, ![8192, 128, 1]⟩
abbrev TX1 : Shape := ⟨3, ![8192, 64, 3]⟩
abbrev TX2 : Shape := ⟨3, ![8192, 32, 5]⟩

/-- The weight row of row n: its segment id (taken below 64; every segment id is, `segIds_lt`). -/
def row (sid : IVec T8192 32) (n : Fin 8192) : Fin 64 := ⟨(sid (ix1 n)).toNat % 64, Nat.mod_lt _ (by decide)⟩

/-- The weight column of (input channel m, output channel o), per feature kind. -/
def col0 (m o : Fin 128) : Fin 21504 := ⟨m.val * 128 + o.val, by have := m.isLt; have := o.isLt; omega⟩
def col1 (m o : Fin 64) : Fin 21504 := ⟨16384 + (m.val * 64 + o.val), by have := m.isLt; have := o.isLt; omega⟩
def col2 (m o : Fin 32) : Fin 21504 := ⟨20480 + (m.val * 32 + o.val), by have := m.isLt; have := o.isLt; omega⟩

/-- The result for the feature kind of multiplicity 128 and one component. -/
def out0 (x : TX0.Idx → EReal) (w : TW.Idx → EReal) (sid : IVec T8192 32) : TX0.Idx → EReal := fun j =>
  Ideal.ofBits .f32 0x3C3504F3#32 * ∑ m : Fin 128, w (ix2 (row sid (j 0)) (col0 m (j 1))) * x (ix3 (j 0) m (j 2))

/-- The result for the feature kind of multiplicity 64 and three components. -/
def out1 (x : TX1.Idx → EReal) (w : TW.Idx → EReal) (sid : IVec T8192 32) : TX1.Idx → EReal := fun j =>
  Ideal.ofBits .f32 0x3C800000#32 * ∑ m : Fin 64, w (ix2 (row sid (j 0)) (col1 m (j 1))) * x (ix3 (j 0) m (j 2))

/-- The result for the feature kind of multiplicity 32 and five components. -/
def out2 (x : TX2.Idx → EReal) (w : TW.Idx → EReal) (sid : IVec T8192 32) : TX2.Idx → EReal := fun j =>
  Ideal.ofBits .f32 0x3CB504F3#32 * ∑ m : Fin 32, w (ix2 (row sid (j 0)) (col2 m (j 1))) * x (ix3 (j 0) m (j 2))

/-- The indicator the kernel builds: the comparison bit of the segment id against the row number e, widened to a
    word and read as a number: one when they agree, zero otherwise. -/
def hot (a : BitVec 32) (e : Fin 64) : EReal :=
  (((((IntOp.cmpi .eq a (BitVec.ofNat 32 e.val)).setWidth 32 : BitVec 32).toInt : ℝ)) : EReal)

theorem hot_self (a : BitVec 32) (ha : a.toNat < 64) : hot a ⟨a.toNat, ha⟩ = 1 := by
  unfold hot
  have h : IntOp.cmpi .eq a (BitVec.ofNat 32 a.toNat) = 1#1 := by
    simp [IntOp.cmpi]
  rw [h]
  norm_num

theorem hot_ne (a : BitVec 32) (e : Fin 64) (h : a.toNat ≠ e.val) : hot a e = 0 := by
  unfold hot
  have h0 : IntOp.cmpi .eq a (BitVec.ofNat 32 e.val) = 0#1 := by
    have hne : a ≠ BitVec.ofNat 32 e.val := by
      intro he
      apply h
      have := congrArg BitVec.toNat he
      rw [BitVec.toNat_ofNat] at this
      have he64 := e.isLt
      omega
    have hb : (a == BitVec.ofNat 32 e.val) = false := beq_eq_false_iff_ne.mpr hne
    simp [IntOp.cmpi, hb]
  rw [h0]
  norm_num

/-- A sum over the 64 rows against the indicator of a row number below 64 is the entry at that row. -/
theorem hot_sum (a : BitVec 32) (ha : a.toNat < 64) (f : Fin 64 → EReal) :
    ∑ e : Fin 64, hot a e * f e = f ⟨a.toNat, ha⟩ := by
  rw [Finset.sum_eq_single (⟨a.toNat, ha⟩ : Fin 64)]
  · rw [hot_self a ha, one_mul]
  · intro e _ hne
    rw [hot_ne a e (fun h => hne (Fin.ext h.symm)), zero_mul]
  · intro h; exact absurd (Finset.mem_univ _) h

/-- The weight row of a row whose segment id is below 64 is that id. -/
theorem row_eq (sid : IVec T8192 32) (n : Fin 8192) (h : (sid (ix1 n)).toNat < 64) :
    row sid n = ⟨(sid (ix1 n)).toNat, h⟩ := Fin.ext (Nat.mod_eq_of_lt h)

end Cert.IxLin

end
-- ==== Proof.SegRange.lean ====
/-
  Every segment id is one of 0 … 63, whatever the per-segment counts are.

  The bound needs nothing about the starts; it holds for any column of start indices.
  (a) The markers are 8192 zeros into which 64 updates of one are added, each at one row or dropped; adding one
      raises a word's value by at most one, so the markers' values sum to at most 64.
  (b) The running sum at a row is a left fold of word addition from zero over the window positions; each position
      contributes one marker or zero, distinct positions read distinct markers, and the value of a word sum is at
      most the sum of the values; so the running sum at every row is at most the sum of all markers, at most 64.
  (c) One less than a word of value at most 64 is either the all-ones word (from zero) or a word of value at most
      63; wrapping a negative word by 64 sends the former to 63 and leaves the latter: the wrapped rank is at most 63.
  (d) A wrapped rank of value at most 63 passes both comparisons of the in-range test, so the lookup takes the
      table's entry; the table is 0, 1, …, 63 and the read is clamped into it, so the entry is at most 63.
-/
import proofs.«107284_j21672404975706_1_alg».proof.Proof.Seg
import Idealize.ShloMosaic.Lib.ValueIdx
import Idealize.ShloMosaic.Lib.StableHlo.Predicate

noncomputable section

open scoped BigOperators

namespace Cert.IxLin

open Idealize.ShloMosaic Idealize.ShloMosaic.ValueIdx

/-! ## Word addition does not raise values beyond the sum -/

/-- The value of a word sum is at most the sum of the values (it is that sum reduced modulo 2³²). -/
theorem toNat_addi_le (a b : BitVec 32) : (IntOp.addi a b).toNat ≤ a.toNat + b.toNat := by
  show (a + b).toNat ≤ _
  rw [BitVec.toNat_add]; exact Nat.mod_le _ _

/-! ## (a) Adding ones into an array raises the total by at most the number of updates -/

/-- One is added at entry `i` and every other entry is kept: the total of the values rises by at most one. -/
theorem sum_update_add_one_le {ι : Type} [Fintype ι] [DecidableEq ι] (r : ι → BitVec 32) (i : ι) :
    ∑ i', (if i' = i then IntOp.addi (r i) 1#32 else r i').toNat ≤ ∑ i', (r i').toNat + 1 := by
  calc ∑ i', (if i' = i then IntOp.addi (r i) 1#32 else r i').toNat
      ≤ ∑ i', ((r i').toNat + if i' = i then 1 else 0) := by
        apply Finset.sum_le_sum; intro i' _
        by_cases h : i' = i
        · subst h; simp only [if_pos rfl]; exact toNat_addi_le _ _
        · simp only [if_neg h]; omega
    _ = ∑ i', (r i').toNat + 1 := by
        rw [Finset.sum_add_distrib, Finset.sum_ite_eq']; simp

/-- A scatter that adds updates all equal to one: by induction over the updates in their order, each step either
    adds one at one entry or drops the update, so the total of the values rises by at most the number of updates. -/
theorem scatter_sum_le {s si u : Shape} {w : Nat} (d : ScatterDims s si u) (x : IVec s 32) (idx : IVec si w) (upd : IVec u 32)
    (hupd : ∀ j, upd j = 1#32) :
    ∑ i, (Host.scatter d IntOp.addi x idx upd i).toNat ≤ ∑ i, (x i).toNat + u.numel := by
  unfold Host.scatter
  have key : ∀ (l : List (Fin u.numel)) (r : s.Idx → BitVec 32),
      ∑ i, ((l.foldl (fun r n =>
        match d.resultIdx? (u.rowMajor.symm n) idx with
        | some i => fun i' => if i' = i then IntOp.addi (r i) (upd (u.rowMajor.symm n)) else r i'
        | none => r) r) i).toNat ≤ ∑ i, (r i).toNat + l.length := by
    intro l
    induction l with
    | nil => intro r; simp
    | cons a l ih =>
      intro r
      rw [List.foldl_cons]
      refine (ih _).trans ?_
      rw [List.length_cons, ← Nat.add_assoc, Nat.add_right_comm]
      apply Nat.add_le_add_right
      cases hres : d.resultIdx? (u.rowMajor.symm a) idx with
      | none => exact Nat.le_add_right _ _
      | some i => simp only []; rw [hupd]; exact sum_update_add_one_le r i
  have := key (List.finRange u.numel) x
  rwa [List.length_finRange] at this

/-- The markers' values sum to at most 64: 64 ones added into zeros. -/
theorem marks_sum_le (st : IVec T64 32) : ∑ k, (marks st k).toNat ≤ 64 := by
  have hz : ∑ i, ((broadcastInDim T8192 ![] (by decide) (constantI T_ 32 0#32) : IVec T8192 32) i).toNat = 0 :=
    Finset.sum_eq_zero (fun i _ => rfl)
  unfold marks
  refine (scatter_sum_le dAdd _ _ _ (fun j => rfl)).trans ?_
  rw [hz]
  decide

/-! ## (b) A running sum from zero is at most the sum of all entries -/

/-- A left fold of word addition has value at most the start's value plus the sum of the terms' values. -/
theorem foldl_addi_toNat_le {κ : Type} (g : κ → BitVec 32) : ∀ (l : List κ) (v : BitVec 32),
    (l.foldl (fun r n => IntOp.addi r (g n)) v).toNat ≤ v.toNat + (l.map fun n => (g n).toNat).sum
  | [], v => by simp
  | a :: l, v => by
    rw [List.foldl_cons, List.map_cons, List.sum_cons]
    refine (foldl_addi_toNat_le g l _).trans ?_
    have := toNat_addi_le v (g a)
    omega

/-- Terms that each read at most one entry of `g`, distinct terms reading distinct entries, sum to at most the sum
    of `g`: summed entry by entry, each entry is read by at most one term. -/
theorem sum_option_le {ι κ : Type} [Fintype ι] [Fintype κ] [DecidableEq κ] (ψ : ι → Option κ) (g : κ → ℕ)
    (hinj : ∀ n n' k, ψ n = some k → ψ n' = some k → n = n') :
    ∑ n, (ψ n).elim 0 g ≤ ∑ k, g k := by
  classical
  have h1 : ∀ n, (ψ n).elim 0 g = ∑ k, if ψ n = some k then g k else 0 := by
    intro n
    cases hψ : ψ n with
    | none => simp
    | some k => simp [Finset.sum_ite_eq]
  simp_rw [h1]
  rw [Finset.sum_comm]
  apply Finset.sum_le_sum
  intro k _
  rw [← Finset.sum_filter, Finset.sum_const, smul_eq_mul]
  have hc : (Finset.univ.filter fun n => ψ n = some k).card ≤ 1 := by
    apply Finset.card_le_one.2
    intro a ha b hb
    simp only [Finset.mem_filter, Finset.mem_univ, true_and] at ha hb
    exact hinj a b k ha hb
  calc _ ≤ 1 * g k := Nat.mul_le_mul_right _ hc
    _ = g k := Nat.one_mul _

/-- A windowed sum from zero, at any result index: the fold's terms are an operand entry where the window position
    is inside the operand and zero where it is padding; the position determines the entry read (entry = position
    shifted by the result index and the low padding), so distinct positions read distinct entries, and the value is
    at most the sum of all the operand's values. -/
theorem reduceWindow_addi_toNat_le {s t u : Shape} (window strides lo hi : Fin s.rank → Nat) (x : IVec s 32) (init : IVec u 32)
    (h : s.ReduceWindows window strides lo hi t) (hu : 0 < u.numel) (hinit : init (Shape.Idx.first hu) = 0#32) (j : t.Idx) :
    (Host.reduceWindow IntOp.addi window strides lo hi x init h hu j).toNat ≤ ∑ k, (x k).toNat := by
  unfold Host.reduceWindow
  simp only [hinit]
  refine (foldl_addi_toNat_le _ _ _).trans ?_
  rw [show (0#32 : BitVec 32).toNat = 0 from rfl, Nat.zero_add, ← Fin.sum_univ_def]
  let ψ : Fin (Shape.numel ⟨s.rank, window⟩) → Option s.Idx := fun i =>
    if hin : ∀ a : Fin s.rank, lo a ≤ (j (a.cast h.1.symm)).val * strides a + ((⟨s.rank, window⟩ : Shape).rowMajor.symm i a).val ∧
        (j (a.cast h.1.symm)).val * strides a + ((⟨s.rank, window⟩ : Shape).rowMajor.symm i a).val - lo a < s.size a
    then some (fun a => ⟨(j (a.cast h.1.symm)).val * strides a + ((⟨s.rank, window⟩ : Shape).rowMajor.symm i a).val - lo a, (hin a).2⟩)
    else none
  refine le_trans (le_of_eq (Finset.sum_congr rfl fun i _ => ?_)) (sum_option_le ψ (fun k => (x k).toNat) ?_)
  · simp only [ψ]; split <;> rfl
  · intro n n' k hn hn'
    simp only [ψ] at hn hn'
    split at hn
    · split at hn'
      · rename_i h1 h2
        have e1 := Option.some.inj hn
        have e2 := Option.some.inj hn'
        apply (Shape.rowMajor _).symm.injective
        funext a
        apply Fin.ext
        have a1 := congrArg (fun f => (f a).val) e1
        have a2 := congrArg (fun f => (f a).val) e2
        simp only at a1 a2
        have := (h1 a).1
        have := (h2 a).1
        omega
      · exact absurd hn' (by simp)
    · exact absurd hn (by simp)

/-! ## (c) One less than a small count, wrapped by 64, is at most 63 -/

/-- For a word `r` of value at most 64: `r - 1` is negative only when `r` is zero, and then `r - 1 + 64` is 63;
    otherwise `r - 1` has value `r`'s less one and is kept. -/
theorem wrap_rank_le (r : BitVec 32) (hr : r.toNat ≤ 64) :
    (Scalar.select (IntOp.cmpi .slt (IntOp.subi r 1#32) 0#32) (IntOp.addi (IntOp.subi r 1#32) 64#32)
      (IntOp.subi r 1#32)).toNat ≤ 63 := by
  by_cases h0 : r = 0#32
  · subst h0; decide
  · have hpos : 1 ≤ r.toNat := by
      rcases Nat.eq_zero_or_pos r.toNat with h | h
      · exact absurd (BitVec.eq_of_toNat_eq (by simpa using h)) h0
      · exact h
    have hsub : (IntOp.subi r 1#32).toNat = r.toNat - 1 := by
      show (r - 1#32).toNat = _
      rw [BitVec.toNat_sub]
      have : (1#32 : BitVec 32).toNat = 1 := rfl
      omega
    have hc : ¬ IntOp.cmpi .slt (IntOp.subi r 1#32) 0#32 = 1#1 := by
      rw [StableHlo.Predicate.slt_iff_toNat (by omega) (by decide)]
      exact Nat.not_lt_zero _
    rw [eq_zero_of_ne_one hc, select_zero]; omega

/-- The rank at a row is the running sum of the markers there, less one. -/
theorem ranks_apply (mk : IVec T8192 32) (j : T8192.Idx) :
    ranks mk j = IntOp.subi ((Host.reduceWindow IntOp.addi ![8192] ![1] ![8191] ![0] mk
      (broadcastInDim T_ ![] (by decide) (constantI T_ 32 0#32)) (by decide) (by decide) : IVec T8192 32) j) 1#32 := rfl

/-! ## (d) A wrapped index of value at most 63 is inside the table, and the table's entries are below 64 -/

/-- The two ways of writing the rank-one index at a coordinate agree. -/
theorem ofFin_eq_ix1 {m : Nat} (p : Fin m) : (Shape.Idx.ofFin p : (⟨1, ![m]⟩ : Shape).Idx) = ix1 p := by
  funext d; match d with | ⟨0, _⟩ => rfl

/-- A left fold of `and` from one over bits that are all one is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l (fun n hn => h n (List.mem_cons_of_mem _ hn))

open StableHlo.Predicate in
/-- Row `n` of the wrapped index column: the index at `n`, plus 64 when it is negative. -/
theorem wrapped_apply (a : IVec T8192 32) (n : Fin 8192) :
    wrapped a (ixP n) = Scalar.select (IntOp.cmpi .slt (a (ix1 n)) 0#32) (IntOp.addi (a (ix1 n)) 64#32) (a (ix1 n)) := by
  unfold wrapped
  rw [bcast_col1, ofFin_eq_ix1]
  rfl

open StableHlo.Predicate in
/-- The in-range test at row `n` is one when the wrapped index there has value at most 63: the only column entry
    that reduces into row `n` is that row's, and there both signed comparisons (0 ≤ · and · ≤ 63) hold. -/
theorem inrange_one (a : IVec T8192 32) (n : Fin 8192) (ha : (wrapped a (ixP n)).toNat ≤ 63) :
    (Host.reduce (axes := [1]) IntOp.andi
      (andi (cmpi .sge (wrapped a) (broadcastInDim T8192x1 ![] (by decide) (constantI T_ 32 0#32)))
        (cmpi .sle (wrapped a)
          (broadcastInDim T8192x1 ![0, 1] (by decide) (broadcastInDim T1x1 ![1] (by decide) (constantI T1 32 63#32)))))
      (constantI T_ 1 1#1) (by decide) (by decide) : IVec T8192 1) (ix1 n) = 1#1 := by
  rw [Host.reduce_eq_foldl]
  show List.foldl _ 1#1 _ = 1#1
  apply foldl_andi_one
  intro i hi
  rw [List.mem_filter] at hi
  have hd := of_decide_eq_true hi.2
  have hi0 : i = ixP n := by
    funext c
    match c with
    | ⟨0, _⟩ =>
      apply Fin.ext
      have := congrArg (fun f : T8192.Idx => (f 0).val) hd
      exact this
    | ⟨1, _⟩ =>
      apply Fin.ext
      have h1 : (i 1).val < 1 := (i 1).isLt
      show (i 1).val = 0
      omega
  rw [hi0]
  show IntOp.andi (IntOp.cmpi .sge (wrapped a (ixP n)) 0#32) (IntOp.cmpi .sle (wrapped a (ixP n)) 63#32) = 1#1
  rw [(sge_iff_toNat (by omega) (by decide)).2 (Nat.zero_le _), (sle_iff_toNat (by omega) (by decide)).2 ha]
  decide

open StableHlo.Predicate in
/-- The lookup at a row whose wrapped index has value at most 63: the test is one, so the result is the table's
    entry at the index clamped into 0 … 63, and the table holds its own positions. -/
theorem lookup_lt (a : IVec T8192 32) (n : Fin 8192) (ha : (wrapped a (ixP n)).toNat ≤ 63) :
    (lookup a (ix1 n)).toNat < 64 := by
  have hg := gather_take dTake rfl rfl rfl rfl (iotaInDim T64 32 0) (wrapped a) n (by decide)
  rw [ofFin_eq_ix1] at hg
  unfold lookup
  rw [select_apply, inrange_one a n ha, select_one, hg]
  show (BitVec.ofNat 32 (min (wrapped a (ixP n)).toInt.toNat (64 - 1))).toNat < 64
  rw [BitVec.toNat_ofNat]
  exact lt_of_le_of_lt (Nat.mod_le _ _) (by omega)

/-! ## The bound -/

/-- Every segment id is one of 0 … 63, whatever the counts are. -/
theorem segIds_lt (cnt : IVec T64 32) (n : Fin 8192) : (segIds cnt (ix1 n)).toNat < 64 := by
  unfold segIds
  apply lookup_lt
  rw [wrapped_apply, ranks_apply]
  apply wrap_rank_le
  exact (reduceWindow_addi_toNat_le _ _ _ _ _ _ _ _ rfl _).trans (marks_sum_le _)

end Cert.IxLin

end
-- ==== Proof.LibDots.lean ====
/-
  A contraction over ONE axis read as a sum over that axis's coordinate, for the two patterns of dimension numbers
  met here.

  PLAIN: [R, K] times [K, C] gives [R, C]; the left operand contracts its axis 1, the right its axis 0, no batch
  axis.  At the output index (r, c) the operand indices at contraction coordinate k are (r, k) and (k, c).

  BATCHED: [N, K, A] and [N, K, B] give [N, A, B]; axis 0 is the batch axis of both, both contract their axis 1,
  the free axes are 2 and 2.  At the output index (n, a, b) the operand indices at k are (n, k, a) and (n, k, b).

  The extents are variables and the dimension numbers are known only through the six equations on their lists.
-/
import Idealize.ShloMosaic.PureOps.Ideal
import Idealize.ShloMosaic.PureOps.Ideal.Laws
import Idealize.ShloMosaic.Lib.ValueIdx

noncomputable section

open scoped BigOperators

namespace Idealize.ShloMosaic.Dots

open Idealize.ShloMosaic Idealize.ShloMosaic.ValueIdx

/-! ### PLAIN, the record with its six lists written out -/

section Plain
variable {R K C : Nat}
  (w : DotDims.WF (⟨2, ![R, K]⟩ : Shape) (⟨2, ![K, C]⟩ : Shape) (⟨2, ![R, C]⟩ : Shape) [1] [0] [0] [1] [] [])

/-- Left operand index: the row is the output's row, the column is the contraction coordinate. -/
theorem lhsIdx_plain (j : (⟨2, ![R, C]⟩ : Shape).Idx) (c : Fin K) :
    (⟨[1], [0], [0], [1], [], [], w⟩ : DotDims (⟨2, ![R, K]⟩ : Shape) (⟨2, ![K, C]⟩ : Shape) (⟨2, ![R, C]⟩ : Shape)).lhsIdx j
      ((contrEquiv1 _ K rfl rfl).symm c) = ix2 (j 0) c := by
  have hc := contrEquiv1_symm_val
    (⟨[1], [0], [0], [1], [], [], w⟩ : DotDims (⟨2, ![R, K]⟩ : Shape) (⟨2, ![K, C]⟩ : Shape) (⟨2, ![R, C]⟩ : Shape)) K rfl rfl c
  funext ax; apply Fin.ext
  match ax with
  | ⟨0, _⟩ => simp [DotDims.lhsIdx]; rfl
  | ⟨1, _⟩ => simp [DotDims.lhsIdx]; exact hc

/-- Right operand index: the row is the contraction coordinate, the column is the output's column. -/
theorem rhsIdx_plain (j : (⟨2, ![R, C]⟩ : Shape).Idx) (c : Fin K) :
    (⟨[1], [0], [0], [1], [], [], w⟩ : DotDims (⟨2, ![R, K]⟩ : Shape) (⟨2, ![K, C]⟩ : Shape) (⟨2, ![R, C]⟩ : Shape)).rhsIdx j
      ((contrEquiv1 _ K rfl rfl).symm c) = ix2 c (j 1) := by
  have hc := contrEquiv1_symm_val
    (⟨[1], [0], [0], [1], [], [], w⟩ : DotDims (⟨2, ![R, K]⟩ : Shape) (⟨2, ![K, C]⟩ : Shape) (⟨2, ![R, C]⟩ : Shape)) K rfl rfl c
  funext ax; apply Fin.ext
  match ax with
  | ⟨0, _⟩ => simp [DotDims.rhsIdx]; exact hc
  | ⟨1, _⟩ => simp [DotDims.rhsIdx]; rfl

end Plain

/-- PLAIN: the sum over the contraction index is the sum over k of left (r, k) times right (k, c). -/
theorem sum_plain {R K C : Nat} (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : (⟨2, ![R, K]⟩ : Shape).Idx → EReal) (r : (⟨2, ![K, C]⟩ : Shape).Idx → EReal) (j : (⟨2, ![R, C]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, w⟩ := d
  simp only at hlc hrc hln hrn hlb hrb
  subst hlc hrc hln hrn hlb hrb
  rw [← Equiv.sum_comp (contrEquiv1
    (⟨[1], [0], [0], [1], [], [], w⟩ : DotDims (⟨2, ![R, K]⟩ : Shape) (⟨2, ![K, C]⟩ : Shape) (⟨2, ![R, C]⟩ : Shape)) K rfl rfl).symm]
  refine Finset.sum_congr rfl fun c _ => ?_
  exact congrArg₂ (· * ·) (congrArg l (lhsIdx_plain w j c)) (congrArg r (rhsIdx_plain w j c))

/-! ### BATCHED, the record with its six lists written out -/

section Batch
variable {N K A B : Nat}
  (w : DotDims.WF (⟨3, ![N, K, A]⟩ : Shape) (⟨3, ![N, K, B]⟩ : Shape) (⟨3, ![N, A, B]⟩ : Shape) [1] [1] [2] [2] [0] [0])

/-- Left operand index: the batch coordinate is the output's axis 0, the contracted axis carries the contraction
    coordinate, the free axis is the output's axis 1 (the first after the batch axes). -/
theorem lhsIdx_batch (j : (⟨3, ![N, A, B]⟩ : Shape).Idx) (c : Fin K) :
    (⟨[1], [1], [2], [2], [0], [0], w⟩ :
      DotDims (⟨3, ![N, K, A]⟩ : Shape) (⟨3, ![N, K, B]⟩ : Shape) (⟨3, ![N, A, B]⟩ : Shape)).lhsIdx j
      ((contrEquiv1 _ K rfl rfl).symm c) = ix3 (j 0) c (j 1) := by
  have hc := contrEquiv1_symm_val
    (⟨[1], [1], [2], [2], [0], [0], w⟩ :
      DotDims (⟨3, ![N, K, A]⟩ : Shape) (⟨3, ![N, K, B]⟩ : Shape) (⟨3, ![N, A, B]⟩ : Shape)) K rfl rfl c
  funext ax; apply Fin.ext
  match ax with
  | ⟨0, _⟩ => simp [DotDims.lhsIdx]; rfl
  | ⟨1, _⟩ => simp [DotDims.lhsIdx]; exact hc
  | ⟨2, _⟩ => simp [DotDims.lhsIdx]; rfl

/-- Right operand index: the batch coordinate is the output's axis 0, the contracted axis carries the contraction
    coordinate, the free axis is the output's axis 2 (after the batch axis and the left free axis). -/
theorem rhsIdx_batch (j : (⟨3, ![N, A, B]⟩ : Shape).Idx) (c : Fin K) :
    (⟨[1], [1], [2], [2], [0], [0], w⟩ :
      DotDims (⟨3, ![N, K, A]⟩ : Shape) (⟨3, ![N, K, B]⟩ : Shape) (⟨3, ![N, A, B]⟩ : Shape)).rhsIdx j
      ((contrEquiv1 _ K rfl rfl).symm c) = ix3 (j 0) c (j 2) := by
  have hc := contrEquiv1_symm_val
    (⟨[1], [1], [2], [2], [0], [0], w⟩ :
      DotDims (⟨3, ![N, K, A]⟩ : Shape) (⟨3, ![N, K, B]⟩ : Shape) (⟨3, ![N, A, B]⟩ : Shape)) K rfl rfl c
  funext ax; apply Fin.ext
  match ax with
  | ⟨0, _⟩ => simp [DotDims.rhsIdx]; rfl
  | ⟨1, _⟩ => simp [DotDims.rhsIdx]; exact hc
  | ⟨2, _⟩ => simp [DotDims.rhsIdx]; rfl

end Batch

/-- BATCHED: the sum over the contraction index is the sum over k of left (n, k, a) times right (n, k, b). -/
theorem sum_batch {N K A B : Nat}
    (d : DotDims (⟨3, ![N, K, A]⟩ : Shape) (⟨3, ![N, K, B]⟩ : Shape) (⟨3, ![N, A, B]⟩ : Shape))
    (hlc : d.lhsContracting = [1]) (hrc : d.rhsContracting = [1])
    (hln : d.lhsNonContracting = [2]) (hrn : d.rhsNonContracting = [2])
    (hlb : d.lhsBatch = [0]) (hrb : d.rhsBatch = [0])
    (l : (⟨3, ![N, K, A]⟩ : Shape).Idx → EReal) (r : (⟨3, ![N, K, B]⟩ : Shape).Idx → EReal)
    (j : (⟨3, ![N, A, B]⟩ : Shape).Idx) :
    ∑ k : d.contr.Idx, l (d.lhsIdx j k) * r (d.rhsIdx j k) = ∑ k : Fin K, l (ix3 (j 0) k (j 1)) * r (ix3 (j 0) k (j 2)) := by
  obtain ⟨lc, rc, ln, rn, lb, rb, w⟩ := d
  simp only at hlc hrc hln hrn hlb hrb
  subst hlc hrc hln hrn hlb hrb
  rw [← Equiv.sum_comp (contrEquiv1
    (⟨[1], [1], [2], [2], [0], [0], w⟩ :
      DotDims (⟨3, ![N, K, A]⟩ : Shape) (⟨3, ![N, K, B]⟩ : Shape) (⟨3, ![N, A, B]⟩ : Shape)) K rfl rfl).symm]
  refine Finset.sum_congr rfl fun c _ => ?_
  exact congrArg₂ (· * ·) (congrArg l (lhsIdx_batch w j c)) (congrArg r (rhsIdx_batch w j c))

end Idealize.ShloMosaic.Dots

end
-- ==== Proof.Region0.lean ====
/-
  The array region 0 leaves is the specification's array out0.

  THE BODY AT A BLOCK INDEX.  At (p, o, i) of a block the body's value is

      coeff · Σ_m ( Σ_e hot(s[p], e) · B[e, m · 128 + o] ) · x[p, m, i]

  with s the block of segment ids, B the weight block and x the block of features.  The product by the coefficient is
  pointwise.  The batched contraction has the row p as its batch coordinate and sums over the input channel m.  Its
  left operand is the plain product recast from [128, 16384] to [128, 128, 128]: entry (p, m, o) of the recast is
  entry (p, m · 128 + o) of the product, the two having one row-major position.  The plain contraction sums over
  the 64 table rows e, and its left operand at (p, e) is the indicator: the segment id of row p, carried along e,
  compared with the column number e, the comparison bit widened and read as a number.

  FROM BLOCKS TO THE ARRAY.  Point t of the grid holds rows [t · 128, (t + 1) · 128) of the features, of the
  segment-id column and of the result, and the one block of the weights.  So at point t the entries read are
  x[t · 128 + p, m, i], sid[t · 128 + p] and w[e, 0 + (m · 128 + o)].  A sum over e against the indicator of
  a segment id below 64 is the entry at that id (hot_sum), and that id is the specification's weight row (row_eq).
  Hence what point t writes back is block t of out0 x w sid; the 64 blocks tile the 8192 rows (row r lies in
  the block of point r / 128), so the array ends holding out0 x w sid.
-/
import proofs.«107284_j21672404975706_1_alg».proof.Proof.Gen.KernelIdeal.Frame
import proofs.«107284_j21672404975706_1_alg».proof.Proof.Spec
import proofs.«107284_j21672404975706_1_alg».proof.Proof.LibDots
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.SL.Sem
open Idealize.ShloMosaic.ValueIdx Cert.IxLin
open Idealize.ShloMosaic.Pipeline (Dat Cfg Window)

namespace Region0

/-! ## The body at a block index -/

/-- The indicator at (p, e): the segment id of row p against the column number e. The id column is carried along e
    unchanged, the column numbers are the coordinate on axis 1, and the comparison, the widening and the reading as a
    number are entry by entry. -/
theorem ind_apply (s1 : Vec Ideal S128x1 .i32) (p : Fin 128) (e : Fin 64) :
    (truncf (F := Ideal) .bf16 (sitofp .f32 (extui 32 (cmpi .eq
        (broadcastTo S128x64 (shapeCast S128x1 s1 shapeCasts_S128x1_S128x1) broadcasts_S128x1_S128x64)
        (iota .tc S128x64 32 [1] iota_S128x64_d1_w32)) natLt_1_32)) bitsLt_bf16_f32 : FVec Ideal S128x64 .bf16) (ix2 p e)
      = hot (s1 (ix2 p (0 : Fin 1))) e := by
  rw [shapeCast_self]
  have hb : broadcastTo S128x64 s1 broadcasts_S128x1_S128x64 (ix2 p e) = s1 (ix2 p (0 : Fin 1)) :=
    broadcastTo_apply s1 broadcasts_S128x1_S128x64 (ix2 p e) (ix2 p (0 : Fin 1)) (fun a => by
      match a with
      | ⟨0, _⟩ => rfl
      | ⟨1, _⟩ => rfl)
  have hi : iota .tc S128x64 32 [1] iota_S128x64_d1_w32 (ix2 p e) = BitVec.ofNat 32 e.val :=
    iota_single_apply .tc S128x64 32 1 iota_S128x64_d1_w32 (ix2 p e)
  show ((((IntOp.cmpi .eq (broadcastTo S128x64 s1 broadcasts_S128x1_S128x64 (ix2 p e)) (iota .tc S128x64 32 [1] iota_S128x64_d1_w32 (ix2 p e))).setWidth 32 : BitVec 32).toInt : ℝ) : EReal) = _
  rw [hb, hi]
  rfl

/-- The column of the weight block that holds (input channel m, output channel o). -/
def cm (m o : Fin 128) : Fin 16384 := ⟨m.val * 128 + o.val, by have := m.isLt; have := o.isLt; omega⟩

/-- The body's value at (p, o, i): the coefficient times the sum over the input channels m of (the sum over the table
    rows e of the indicator times the weight block's entry (e, m · 128 + o)) times the feature entry (p, m, i). -/
theorem pay_apply (s1 : Vec Ideal S128x1 .i32) (b2 : Vec Ideal S64x16384 .bf16) (x0 : Vec Ideal S128x128x1 .bf16)
    (p : Fin 128) (o : Fin 128) (i : Fin 1) :
    k0_pay1 s1 b2 x0 (ix3 p o i) = Ideal.ofBits .f32 0x3C3504F3#32 *
      ∑ m : Fin 128, (∑ e : Fin 64, hot (s1 (ix2 p (0 : Fin 1))) e * b2 (ix2 e (cm m o))) * x0 (ix3 p m i) := by
  unfold k0_pay1
  rw [mulf_apply, broadcast_apply]
  refine congrArg (fun z => Ideal.ofBits .f32 0x3C3504F3#32 * z) ?_
  rw [shapeCast_self x0, shapeCast_self b2]
  -- the batched contraction: batch coordinate p, sum over the input channel m
  refine (Ideal.matmul_constant_zero_apply (φ₁ := .bf16) (φ₂ := .bf16) _ none _ _ _).trans ?_
  refine (Dots.sum_batch dot_S128x128x128_S128x128x1_S128x128x1_1_1_2_2_0_0 rfl rfl rfl rfl rfl rfl _ _ _).trans ?_
  refine Finset.sum_congr rfl fun m _ => ?_
  show shapeCast S128x128x128 _ shapeCasts_S128x16384_S128x128x128 (ix3 p m o) * x0 (ix3 p m i) = _
  refine congrArg (fun z => z * x0 (ix3 p m i)) ?_
  -- the recast: (p, m, o) and (p, m · 128 + o) have one row-major position
  refine (shapeCast_apply _ shapeCasts_S128x16384_S128x128x128 (ix3 p m o) (ix2 p (cm m o)) ?_).trans ?_
  · rw [Shape.rowMajor_val_two, Shape.rowMajor_val_three]
    show p.val * 16384 + (m.val * 128 + o.val) = (p.val * 128 + m.val) * 128 + o.val
    omega
  rw [truncf_apply]
  -- the plain contraction: sum over the table rows e
  refine (Ideal.matmul_constant_zero_apply (φ₁ := .bf16) (φ₂ := .bf16) _ none _ _ _).trans ?_
  refine (Dots.sum_plain dot_S128x64_S64x16384_S128x16384_1_0_0_1_n_n rfl rfl rfl rfl rfl rfl _ _ _).trans ?_
  refine Finset.sum_congr rfl fun e _ => ?_
  exact congrArg (fun z => z * b2 (ix2 e (cm m o))) (ind_apply s1 p e)

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the feature block, the segment-id block and the result block of point t are the
    t-th along the rows and the only one along the other axes; the weight block is the one block of its array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 64 := (show t.val < grid0.N from t.isLt).trans_eq N_0

/-- Row p of point t's blocks is row t · 128 + p of the arrays. -/
def gr (t : Fin cfg0.N) (p : Fin 128) : Fin 8192 := ⟨t.val * 128 + p.val, by have := t_lt t; have := p.isLt; omega⟩

/-- Where the feature block's entry (p, m, i) sits in the feature array. -/
theorem emb_x (t : Fin cfg0.N) (p : Fin 128) (m : Fin 128) (i : Fin 1) :
    ((cfg0.win 0).blk t).view.emb (ix3 p m i) = ix3 (gr t p) m i := by
  obtain ⟨e0, e1, e2, -⟩ := idx_facts t
  funext a; apply Fin.ext
  match a with
  | ⟨0, _⟩ => show win0_0.index t (0 : Fin 3) * 128 + 1 * p.val = t.val * 128 + p.val; omega
  | ⟨1, _⟩ => show win0_0.index t (1 : Fin 3) * 128 + 1 * m.val = m.val; omega
  | ⟨2, _⟩ => show win0_0.index t (2 : Fin 3) * 1 + 1 * i.val = i.val; omega

/-- Where the segment-id block's entry (p, 0) sits in the segment-id column. -/
theorem emb_s (t : Fin cfg0.N) (p : Fin 128) :
    ((cfg0.win 1).blk t).view.emb (ix2 p (0 : Fin 1)) = ix2 (gr t p) (0 : Fin 1) := by
  obtain ⟨-, -, -, e0, e1, -⟩ := idx_facts t
  funext a; apply Fin.ext
  match a with
  | ⟨0, _⟩ => show win0_1.index t (0 : Fin 2) * 128 + 1 * p.val = t.val * 128 + p.val; omega
  | ⟨1, _⟩ => show win0_1.index t (1 : Fin 2) * 1 + 1 * 0 = 0; omega

/-- The weight block is its whole array. -/
theorem emb_b (t : Fin cfg0.N) (e : Fin 64) (k : Fin 16384) :
    ((cfg0.win 2).blk t).view.emb (ix2 e k) = ix2 e k := by
  obtain ⟨-, -, -, -, -, e0, e1, -⟩ := idx_facts t
  funext a; apply Fin.ext
  match a with
  | ⟨0, _⟩ => show win0_2.index t (0 : Fin 2) * 64 + 1 * e.val = e.val; omega
  | ⟨1, _⟩ => show win0_2.index t (1 : Fin 2) * 16384 + 1 * k.val = k.val; omega

/-- Where the result block's entry (p, o, i) sits in the result array. -/
theorem emb_o (t : Fin cfg0.N) (p : Fin 128) (o : Fin 128) (i : Fin 1) :
    ((cfg0.win 3).blk t).view.emb (ix3 p o i) = ix3 (gr t p) o i := by
  obtain ⟨-, -, -, -, -, -, -, e0, e1, e2⟩ := idx_facts t
  funext a; apply Fin.ext
  match a with
  | ⟨0, _⟩ => show win0_3.index t (0 : Fin 3) * 128 + 1 * p.val = t.val * 128 + p.val; omega
  | ⟨1, _⟩ => show win0_3.index t (1 : Fin 3) * 128 + 1 * o.val = o.val; omega
  | ⟨2, _⟩ => show win0_3.index t (2 : Fin 3) * 1 + 1 * i.val = i.val; omega

/-- What point t writes back is block t of the specification's array. -/
theorem flushed_eq (V : (c : Dev nD) → (b : Ref sig .tc) → Buf (Elt Ideal) ((c : Thread nD τ).loc b)) (c : Dev nD)
    (x : S8192x128x1.Idx → EReal) (w : S64x21504.Idx → EReal) (sid : IVec S8192 32)
    (hs : ∀ n : Fin 8192, (sid (ix1 n)).toNat < 64)
    (hx : (V c main_v21 : S8192x128x1.Idx → EReal) = x)
    (hsid : ∀ n : Fin 8192, (V c main_v18 : S8192x1.Idx → BitVec 32) (ix2 n (0 : Fin 1)) = sid (ix1 n))
    (hB : ∀ (e : Fin 64) (k : Fin 16384), (V c main_v20 : S64x16384.Idx → EReal) (ix2 e k) = w (ix2 e ⟨0 + k.val, by have := k.isLt; omega⟩))
    (t : Fin cfg0.N) :
    (dat0 (F := Ideal) V c).flushed 3 t = ((cfg0.win 3).blk t).view.read (Elt Ideal) (out0 x w sid) := by
  show (cfg0.win 3).cut (grid0.coords t) ((dat0 V c).after 3 t) = _
  rw [after0_3]
  unfold out0_3
  rw [View.canon_unit_zero hz3]
  simp only [View.ld_unit_zero (S := S128x1) hz2, View.ld_unit_zero (S := S64x16384) hz2, View.ld_unit_zero (S := S128x128x1) hz3]
  refine funext fun (j : S128x128x1.Idx) => ?_
  obtain ⟨p, o, i, rfl⟩ : ∃ (p : Fin 128) (o : Fin 128) (i : Fin 1), j = ix3 p o i := ⟨j 0, j 1, j 2, eq_ix3 j⟩
  show k0_pay1 (iblk0 V c 1 t) (iblk0 V c 2 t) (iblk0 V c 0 t) (ix3 p o i) = out0 x w sid (((cfg0.win 3).blk t).view.emb (ix3 p o i))
  rw [emb_o]
  refine (pay_apply _ _ _ p o i).trans ?_
  -- the segment id of row p of the block is that of row t · 128 + p
  have h1 : iblk0 V c 1 t (ix2 p (0 : Fin 1)) = sid (ix1 (gr t p)) := by
    show V c main_v18 (((cfg0.win 1).blk t).view.emb (ix2 p (0 : Fin 1))) = _
    rw [emb_s]; exact hsid _
  rw [h1]
  show _ = Ideal.ofBits .f32 0x3C3504F3#32 * ∑ m : Fin 128, w (ix2 (row sid (gr t p)) (col0 m o)) * x (ix3 (gr t p) m i)
  refine congrArg (fun z => Ideal.ofBits .f32 0x3C3504F3#32 * z) (Finset.sum_congr rfl fun m _ => ?_)
  -- the feature entry
  have h0 : iblk0 V c 0 t (ix3 p m i) = x (ix3 (gr t p) m i) := by
    show V c main_v21 (((cfg0.win 0).blk t).view.emb (ix3 p m i)) = _
    rw [emb_x, hx]
  -- the weight block's column m · 128 + o is the weights' column 0 + (m · 128 + o)
  have h2 : ∀ e : Fin 64, iblk0 V c 2 t (ix2 e (cm m o)) = w (ix2 e (col0 m o)) := fun e => by
    show V c main_v20 (((cfg0.win 2).blk t).view.emb (ix2 e (cm m o))) = _
    rw [emb_b]
    exact (hB e (cm m o)).trans (congrArg (fun k => w (ix2 e k)) (Fin.ext (by simp [cm, col0])))
  rw [h0]
  refine congrArg (fun z => z * x (ix3 (gr t p) m i)) ?_
  refine (Finset.sum_congr rfl fun e _ => congrArg (fun z => hot (sid (ix1 (gr t p))) e * z) (h2 e)).trans ?_
  -- the sum against the indicator selects the weight row of the segment id
  refine (hot_sum (sid (ix1 (gr t p))) (hs _) (fun e => w (ix2 e (col0 m o)))).trans ?_
  rw [row_eq sid (gr t p) (hs _)]

/-- An index of the result array is in point t's block iff each coordinate is in the block's range on its axis. -/
theorem mem_blk (t : Fin cfg0.N) (i : S8192x128x1.Idx) :
    i ∈ ((cfg0.win 3).blk t).view.set ↔ ∀ a : Fin 3, win0_3.index t a * S128x128x1.size a ≤ (i a).val ∧ (i a).val < win0_3.index t a * S128x128x1.size a + S128x128x1.size a := by
  show i ∈ ((View.whole main_v22).slice (win0_3.rect t)).set ↔ _
  rw [View.set_slice_whole, Rect.mem_set_unit]
  exact Iff.rfl

/-- Every index of the result array is in some point's block: row r is in the block of point r / 128. -/
theorem cover (i : S8192x128x1.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hi2 : (i 2).val < 1 := (i 2).isLt
  obtain ⟨t, ht⟩ : ∃ t : Fin cfg0.N, t.val = (i 0).val / 128 := ⟨⟨(i 0).val / 128, by show _ < grid0.N; rw [N_0]; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

end Region0

/-- The array region 0 leaves, for any contents at its entry: when the entry contents of its three operands are
    the features x, the segment ids as a column, and the columns [0, 0 + 16384) of the weights, the result
    array ends holding `out0 x w sid`. -/
theorem region0_val (V : (c : Dev nD) → (b : Ref sig .tc) → Buf (Elt Ideal) ((c : Thread nD τ).loc b)) (c : Dev nD)
    (x : S8192x128x1.Idx → EReal) (w : S64x21504.Idx → EReal) (sid : IVec S8192 32)
    (hs : ∀ n : Fin 8192, (sid (ix1 n)).toNat < 64)
    (hx : (V c main_v21 : S8192x128x1.Idx → EReal) = x)
    (hsid : ∀ n : Fin 8192, (V c main_v18 : S8192x1.Idx → BitVec 32) (ix2 n (0 : Fin 1)) = sid (ix1 n))
    (hB : ∀ (e : Fin 64) (k : Fin 16384), (V c main_v20 : S64x16384.Idx → EReal) (ix2 e k) = w (ix2 e ⟨0 + k.val, by have := k.isLt; omega⟩)) :
    ((dat0 (F := Ideal) V c).arrAt 3 cfg0.N : S8192x128x1.Idx → EReal) = out0 x w sid :=
  (dat0 (F := Ideal) V c).arrAt_eq_of_cover 3 (out0 x w sid) (fun t _ => Region0.flushed_eq V c x w sid hs hx hsid hB t) Region0.cover

end Cert.KernelIdeal.RegionVal

end
-- ==== Proof.Region1.lean ====
/-
  The array region 1 leaves is the specification's array out1.

  THE BODY AT A BLOCK INDEX.  At (p, o, i) of a block the body's value is

      coeff · Σ_m ( Σ_e hot(s[p], e) · B[e, m · 64 + o] ) · x[p, m, i]

  with s the block of segment ids, B the weight block and x the block of features.  The product by the coefficient is
  pointwise.  The batched contraction has the row p as its batch coordinate and sums over the input channel m.  Its
  left operand is the plain product recast from [256, 4096] to [256, 64, 64]: entry (p, m, o) of the recast is
  entry (p, m · 64 + o) of the product, the two having one row-major position.  The plain contraction sums over
  the 64 table rows e, and its left operand at (p, e) is the indicator: the segment id of row p, carried along e,
  compared with the column number e, the comparison bit widened and read as a number.

  FROM BLOCKS TO THE ARRAY.  Point t of the grid holds rows [t · 256, (t + 1) · 256) of the features, of the
  segment-id column and of the result, and the one block of the weights.  So at point t the entries read are
  x[t · 256 + p, m, i], sid[t · 256 + p] and w[e, 16384 + (m · 64 + o)].  A sum over e against the indicator of
  a segment id below 64 is the entry at that id (hot_sum), and that id is the specification's weight row (row_eq).
  Hence what point t writes back is block t of out1 x w sid; the 32 blocks tile the 8192 rows (row r lies in
  the block of point r / 256), so the array ends holding out1 x w sid.
-/
import proofs.«107284_j21672404975706_1_alg».proof.Proof.Gen.KernelIdeal.Frame
import proofs.«107284_j21672404975706_1_alg».proof.Proof.Spec
import proofs.«107284_j21672404975706_1_alg».proof.Proof.LibDots
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.SL.Sem
open Idealize.ShloMosaic.ValueIdx Cert.IxLin
open Idealize.ShloMosaic.Pipeline (Dat Cfg Window)

namespace Region1

/-! ## The body at a block index -/

/-- The indicator at (p, e): the segment id of row p against the column number e. The id column is carried along e
    unchanged, the column numbers are the coordinate on axis 1, and the comparison, the widening and the reading as a
    number are entry by entry. -/
theorem ind_apply (s1 : Vec Ideal S256x1 .i32) (p : Fin 256) (e : Fin 64) :
    (truncf (F := Ideal) .bf16 (sitofp .f32 (extui 32 (cmpi .eq
        (broadcastTo S256x64 (shapeCast S256x1 s1 shapeCasts_S256x1_S256x1) broadcasts_S256x1_S256x64)
        (iota .tc S256x64 32 [1] iota_S256x64_d1_w32)) natLt_1_32)) bitsLt_bf16_f32 : FVec Ideal S256x64 .bf16) (ix2 p e)
      = hot (s1 (ix2 p (0 : Fin 1))) e := by
  rw [shapeCast_self]
  have hb : broadcastTo S256x64 s1 broadcasts_S256x1_S256x64 (ix2 p e) = s1 (ix2 p (0 : Fin 1)) :=
    broadcastTo_apply s1 broadcasts_S256x1_S256x64 (ix2 p e) (ix2 p (0 : Fin 1)) (fun a => by
      match a with
      | ⟨0, _⟩ => rfl
      | ⟨1, _⟩ => rfl)
  have hi : iota .tc S256x64 32 [1] iota_S256x64_d1_w32 (ix2 p e) = BitVec.ofNat 32 e.val :=
    iota_single_apply .tc S256x64 32 1 iota_S256x64_d1_w32 (ix2 p e)
  show ((((IntOp.cmpi .eq (broadcastTo S256x64 s1 broadcasts_S256x1_S256x64 (ix2 p e)) (iota .tc S256x64 32 [1] iota_S256x64_d1_w32 (ix2 p e))).setWidth 32 : BitVec 32).toInt : ℝ) : EReal) = _
  rw [hb, hi]
  rfl

/-- The column of the weight block that holds (input channel m, output channel o). -/
def cm (m o : Fin 64) : Fin 4096 := ⟨m.val * 64 + o.val, by have := m.isLt; have := o.isLt; omega⟩

/-- The body's value at (p, o, i): the coefficient times the sum over the input channels m of (the sum over the table
    rows e of the indicator times the weight block's entry (e, m · 64 + o)) times the feature entry (p, m, i). -/
theorem pay_apply (s1 : Vec Ideal S256x1 .i32) (b2 : Vec Ideal S64x4096 .bf16) (x0 : Vec Ideal S256x64x3 .bf16)
    (p : Fin 256) (o : Fin 64) (i : Fin 3) :
    k1_pay1 s1 b2 x0 (ix3 p o i) = Ideal.ofBits .f32 0x3C800000#32 *
      ∑ m : Fin 64, (∑ e : Fin 64, hot (s1 (ix2 p (0 : Fin 1))) e * b2 (ix2 e (cm m o))) * x0 (ix3 p m i) := by
  unfold k1_pay1
  rw [mulf_apply, broadcast_apply]
  refine congrArg (fun z => Ideal.ofBits .f32 0x3C800000#32 * z) ?_
  rw [shapeCast_self x0, shapeCast_self b2]
  -- the batched contraction: batch coordinate p, sum over the input channel m
  refine (Ideal.matmul_constant_zero_apply (φ₁ := .bf16) (φ₂ := .bf16) _ none _ _ _).trans ?_
  refine (Dots.sum_batch dot_S256x64x64_S256x64x3_S256x64x3_1_1_2_2_0_0 rfl rfl rfl rfl rfl rfl _ _ _).trans ?_
  refine Finset.sum_congr rfl fun m _ => ?_
  show shapeCast S256x64x64 _ shapeCasts_S256x4096_S256x64x64 (ix3 p m o) * x0 (ix3 p m i) = _
  refine congrArg (fun z => z * x0 (ix3 p m i)) ?_
  -- the recast: (p, m, o) and (p, m · 64 + o) have one row-major position
  refine (shapeCast_apply _ shapeCasts_S256x4096_S256x64x64 (ix3 p m o) (ix2 p (cm m o)) ?_).trans ?_
  · rw [Shape.rowMajor_val_two, Shape.rowMajor_val_three]
    show p.val * 4096 + (m.val * 64 + o.val) = (p.val * 64 + m.val) * 64 + o.val
    omega
  rw [truncf_apply]
  -- the plain contraction: sum over the table rows e
  refine (Ideal.matmul_constant_zero_apply (φ₁ := .bf16) (φ₂ := .bf16) _ none _ _ _).trans ?_
  refine (Dots.sum_plain dot_S256x64_S64x4096_S256x4096_1_0_0_1_n_n rfl rfl rfl rfl rfl rfl _ _ _).trans ?_
  refine Finset.sum_congr rfl fun e _ => ?_
  exact congrArg (fun z => z * b2 (ix2 e (cm m o))) (ind_apply s1 p e)

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the feature block, the segment-id block and the result block of point t are the
    t-th along the rows and the only one along the other axes; the weight block is the one block of its array. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

theorem t_lt (t : Fin cfg1.N) : t.val < 32 := (show t.val < grid1.N from t.isLt).trans_eq N_1

/-- Row p of point t's blocks is row t · 256 + p of the arrays. -/
def gr (t : Fin cfg1.N) (p : Fin 256) : Fin 8192 := ⟨t.val * 256 + p.val, by have := t_lt t; have := p.isLt; omega⟩

/-- Where the feature block's entry (p, m, i) sits in the feature array. -/
theorem emb_x (t : Fin cfg1.N) (p : Fin 256) (m : Fin 64) (i : Fin 3) :
    ((cfg1.win 0).blk t).view.emb (ix3 p m i) = ix3 (gr t p) m i := by
  obtain ⟨e0, e1, e2, -⟩ := idx_facts t
  funext a; apply Fin.ext
  match a with
  | ⟨0, _⟩ => show win1_0.index t (0 : Fin 3) * 256 + 1 * p.val = t.val * 256 + p.val; omega
  | ⟨1, _⟩ => show win1_0.index t (1 : Fin 3) * 64 + 1 * m.val = m.val; omega
  | ⟨2, _⟩ => show win1_0.index t (2 : Fin 3) * 3 + 1 * i.val = i.val; omega

/-- Where the segment-id block's entry (p, 0) sits in the segment-id column. -/
theorem emb_s (t : Fin cfg1.N) (p : Fin 256) :
    ((cfg1.win 1).blk t).view.emb (ix2 p (0 : Fin 1)) = ix2 (gr t p) (0 : Fin 1) := by
  obtain ⟨-, -, -, e0, e1, -⟩ := idx_facts t
  funext a; apply Fin.ext
  match a with
  | ⟨0, _⟩ => show win1_1.index t (0 : Fin 2) * 256 + 1 * p.val = t.val * 256 + p.val; omega
  | ⟨1, _⟩ => show win1_1.index t (1 : Fin 2) * 1 + 1 * 0 = 0; omega

/-- The weight block is its whole array. -/
theorem emb_b (t : Fin cfg1.N) (e : Fin 64) (k : Fin 4096) :
    ((cfg1.win 2).blk t).view.emb (ix2 e k) = ix2 e k := by
  obtain ⟨-, -, -, -, -, e0, e1, -⟩ := idx_facts t
  funext a; apply Fin.ext
  match a with
  | ⟨0, _⟩ => show win1_2.index t (0 : Fin 2) * 64 + 1 * e.val = e.val; omega
  | ⟨1, _⟩ => show win1_2.index t (1 : Fin 2) * 4096 + 1 * k.val = k.val; omega

/-- Where the result block's entry (p, o, i) sits in the result array. -/
theorem emb_o (t : Fin cfg1.N) (p : Fin 256) (o : Fin 64) (i : Fin 3) :
    ((cfg1.win 3).blk t).view.emb (ix3 p o i) = ix3 (gr t p) o i := by
  obtain ⟨-, -, -, -, -, -, -, e0, e1, e2⟩ := idx_facts t
  funext a; apply Fin.ext
  match a with
  | ⟨0, _⟩ => show win1_3.index t (0 : Fin 3) * 256 + 1 * p.val = t.val * 256 + p.val; omega
  | ⟨1, _⟩ => show win1_3.index t (1 : Fin 3) * 64 + 1 * o.val = o.val; omega
  | ⟨2, _⟩ => show win1_3.index t (2 : Fin 3) * 3 + 1 * i.val = i.val; omega

/-- What point t writes back is block t of the specification's array. -/
theorem flushed_eq (V : (c : Dev nD) → (b : Ref sig .tc) → Buf (Elt Ideal) ((c : Thread nD τ).loc b)) (c : Dev nD)
    (x : S8192x64x3.Idx → EReal) (w : S64x21504.Idx → EReal) (sid : IVec S8192 32)
    (hs : ∀ n : Fin 8192, (sid (ix1 n)).toNat < 64)
    (hx : (V c main_v25 : S8192x64x3.Idx → EReal) = x)
    (hsid : ∀ n : Fin 8192, (V c main_v18 : S8192x1.Idx → BitVec 32) (ix2 n (0 : Fin 1)) = sid (ix1 n))
    (hB : ∀ (e : Fin 64) (k : Fin 4096), (V c main_v24 : S64x4096.Idx → EReal) (ix2 e k) = w (ix2 e ⟨16384 + k.val, by have := k.isLt; omega⟩))
    (t : Fin cfg1.N) :
    (dat1 (F := Ideal) V c).flushed 3 t = ((cfg1.win 3).blk t).view.read (Elt Ideal) (out1 x w sid) := by
  show (cfg1.win 3).cut (grid1.coords t) ((dat1 V c).after 3 t) = _
  rw [after1_3]
  unfold out1_3
  rw [View.canon_unit_zero hz3]
  simp only [View.ld_unit_zero (S := S256x1) hz2, View.ld_unit_zero (S := S64x4096) hz2, View.ld_unit_zero (S := S256x64x3) hz3]
  refine funext fun (j : S256x64x3.Idx) => ?_
  obtain ⟨p, o, i, rfl⟩ : ∃ (p : Fin 256) (o : Fin 64) (i : Fin 3), j = ix3 p o i := ⟨j 0, j 1, j 2, eq_ix3 j⟩
  show k1_pay1 (iblk1 V c 1 t) (iblk1 V c 2 t) (iblk1 V c 0 t) (ix3 p o i) = out1 x w sid (((cfg1.win 3).blk t).view.emb (ix3 p o i))
  rw [emb_o]
  refine (pay_apply _ _ _ p o i).trans ?_
  -- the segment id of row p of the block is that of row t · 256 + p
  have h1 : iblk1 V c 1 t (ix2 p (0 : Fin 1)) = sid (ix1 (gr t p)) := by
    show V c main_v18 (((cfg1.win 1).blk t).view.emb (ix2 p (0 : Fin 1))) = _
    rw [emb_s]; exact hsid _
  rw [h1]
  show _ = Ideal.ofBits .f32 0x3C800000#32 * ∑ m : Fin 64, w (ix2 (row sid (gr t p)) (col1 m o)) * x (ix3 (gr t p) m i)
  refine congrArg (fun z => Ideal.ofBits .f32 0x3C800000#32 * z) (Finset.sum_congr rfl fun m _ => ?_)
  -- the feature entry
  have h0 : iblk1 V c 0 t (ix3 p m i) = x (ix3 (gr t p) m i) := by
    show V c main_v25 (((cfg1.win 0).blk t).view.emb (ix3 p m i)) = _
    rw [emb_x, hx]
  -- the weight block's column m · 64 + o is the weights' column 16384 + (m · 64 + o)
  have h2 : ∀ e : Fin 64, iblk1 V c 2 t (ix2 e (cm m o)) = w (ix2 e (col1 m o)) := fun e => by
    show V c main_v24 (((cfg1.win 2).blk t).view.emb (ix2 e (cm m o))) = _
    rw [emb_b]
    exact (hB e (cm m o)).trans (congrArg (fun k => w (ix2 e k)) (Fin.ext (by simp [cm, col1])))
  rw [h0]
  refine congrArg (fun z => z * x (ix3 (gr t p) m i)) ?_
  refine (Finset.sum_congr rfl fun e _ => congrArg (fun z => hot (sid (ix1 (gr t p))) e * z) (h2 e)).trans ?_
  -- the sum against the indicator selects the weight row of the segment id
  refine (hot_sum (sid (ix1 (gr t p))) (hs _) (fun e => w (ix2 e (col1 m o)))).trans ?_
  rw [row_eq sid (gr t p) (hs _)]

/-- An index of the result array is in point t's block iff each coordinate is in the block's range on its axis. -/
theorem mem_blk (t : Fin cfg1.N) (i : S8192x64x3.Idx) :
    i ∈ ((cfg1.win 3).blk t).view.set ↔ ∀ a : Fin 3, win1_3.index t a * S256x64x3.size a ≤ (i a).val ∧ (i a).val < win1_3.index t a * S256x64x3.size a + S256x64x3.size a := by
  show i ∈ ((View.whole main_v26).slice (win1_3.rect t)).set ↔ _
  rw [View.set_slice_whole, Rect.mem_set_unit]
  exact Iff.rfl

/-- Every index of the result array is in some point's block: row r is in the block of point r / 256. -/
theorem cover (i : S8192x64x3.Idx) : ∃ t : Fin cfg1.N, (cfg1.win 3).flush t = true ∧ i ∈ ((cfg1.win 3).blk t).view.set := by
  have hi0 : (i 0).val < 8192 := (i 0).isLt
  have hi1 : (i 1).val < 64 := (i 1).isLt
  have hi2 : (i 2).val < 3 := (i 2).isLt
  obtain ⟨t, ht⟩ : ∃ t : Fin cfg1.N, t.val = (i 0).val / 256 := ⟨⟨(i 0).val / 256, by show _ < grid1.N; rw [N_1]; omega⟩, rfl⟩
  obtain ⟨-, -, -, -, -, -, -, e0, e1, e2⟩ := idx_facts t
  refine ⟨t, flush1_3 t, ?_⟩
  rw [mem_blk]
  intro a
  match a with
  | ⟨0, _⟩ => show win1_3.index t (0 : Fin 3) * 256 ≤ (i 0).val ∧ (i 0).val < win1_3.index t (0 : Fin 3) * 256 + 256; omega
  | ⟨1, _⟩ => show win1_3.index t (1 : Fin 3) * 64 ≤ (i 1).val ∧ (i 1).val < win1_3.index t (1 : Fin 3) * 64 + 64; omega
  | ⟨2, _⟩ => show win1_3.index t (2 : Fin 3) * 3 ≤ (i 2).val ∧ (i 2).val < win1_3.index t (2 : Fin 3) * 3 + 3; omega

end Region1

/-- The array region 1 leaves, for any contents at its entry: when the entry contents of its three operands are
    the features x, the segment ids as a column, and the columns [16384, 16384 + 4096) of the weights, the result
    array ends holding `out1 x w sid`. -/
theorem region1_val (V : (c : Dev nD) → (b : Ref sig .tc) → Buf (Elt Ideal) ((c : Thread nD τ).loc b)) (c : Dev nD)
    (x : S8192x64x3.Idx → EReal) (w : S64x21504.Idx → EReal) (sid : IVec S8192 32)
    (hs : ∀ n : Fin 8192, (sid (ix1 n)).toNat < 64)
    (hx : (V c main_v25 : S8192x64x3.Idx → EReal) = x)
    (hsid : ∀ n : Fin 8192, (V c main_v18 : S8192x1.Idx → BitVec 32) (ix2 n (0 : Fin 1)) = sid (ix1 n))
    (hB : ∀ (e : Fin 64) (k : Fin 4096), (V c main_v24 : S64x4096.Idx → EReal) (ix2 e k) = w (ix2 e ⟨16384 + k.val, by have := k.isLt; omega⟩)) :
    ((dat1 (F := Ideal) V c).arrAt 3 cfg1.N : S8192x64x3.Idx → EReal) = out1 x w sid :=
  (dat1 (F := Ideal) V c).arrAt_eq_of_cover 3 (out1 x w sid) (fun t _ => Region1.flushed_eq V c x w sid hs hx hsid hB t) Region1.cover

end Cert.KernelIdeal.RegionVal

end
-- ==== Proof.Region2.lean ====
/-
  The array region 2 leaves is the specification's array out2.

  THE BODY AT A BLOCK INDEX.  At (p, o, i) of a block the body's value is

      coeff · Σ_m ( Σ_e hot(s[p], e) · B[e, m · 32 + o] ) · x[p, m, i]

  with s the block of segment ids, B the weight block and x the block of features.  The product by the coefficient is
  pointwise.  The batched contraction has the row p as its batch coordinate and sums over the input channel m.  Its
  left operand is the plain product recast from [256, 1024] to [256, 32, 32]: entry (p, m, o) of the recast is
  entry (p, m · 32 + o) of the product, the two having one row-major position.  The plain contraction sums over
  the 64 table rows e, and its left operand at (p, e) is the indicator: the segment id of row p, carried along e,
  compared with the column number e, the comparison bit widened and read as a number.

  FROM BLOCKS TO THE ARRAY.  Point t of the grid holds rows [t · 256, (t + 1) · 256) of the features, of the
  segment-id column and of the result, and the one block of the weights.  So at point t the entries read are
  x[t · 256 + p, m, i], sid[t · 256 + p] and w[e, 20480 + (m · 32 + o)].  A sum over e against the indicator of
  a segment id below 64 is the entry at that id (hot_sum), and that id is the specification's weight row (row_eq).
  Hence what point t writes back is block t of out2 x w sid; the 32 blocks tile the 8192 rows (row r lies in
  the block of point r / 256), so the array ends holding out2 x w sid.
-/
import proofs.«107284_j21672404975706_1_alg».proof.Proof.Gen.KernelIdeal.Frame
import proofs.«107284_j21672404975706_1_alg».proof.Proof.Spec
import proofs.«107284_j21672404975706_1_alg».proof.Proof.LibDots
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.SL.Sem
open Idealize.ShloMosaic.ValueIdx Cert.IxLin
open Idealize.ShloMosaic.Pipeline (Dat Cfg Window)

namespace Region2

/-! ## The body at a block index -/

/-- The indicator at (p, e): the segment id of row p against the column number e. The id column is carried along e
    unchanged, the column numbers are the coordinate on axis 1, and the comparison, the widening and the reading as a
    number are entry by entry. -/
theorem ind_apply (s1 : Vec Ideal S256x1 .i32) (p : Fin 256) (e : Fin 64) :
    (truncf (F := Ideal) .bf16 (sitofp .f32 (extui 32 (cmpi .eq
        (broadcastTo S256x64 (shapeCast S256x1 s1 shapeCasts_S256x1_S256x1) broadcasts_S256x1_S256x64)
        (iota .tc S256x64 32 [1] iota_S256x64_d1_w32)) natLt_1_32)) bitsLt_bf16_f32 : FVec Ideal S256x64 .bf16) (ix2 p e)
      = hot (s1 (ix2 p (0 : Fin 1))) e := by
  rw [shapeCast_self]
  have hb : broadcastTo S256x64 s1 broadcasts_S256x1_S256x64 (ix2 p e) = s1 (ix2 p (0 : Fin 1)) :=
    broadcastTo_apply s1 broadcasts_S256x1_S256x64 (ix2 p e) (ix2 p (0 : Fin 1)) (fun a => by
      match a with
      | ⟨0, _⟩ => rfl
      | ⟨1, _⟩ => rfl)
  have hi : iota .tc S256x64 32 [1] iota_S256x64_d1_w32 (ix2 p e) = BitVec.ofNat 32 e.val :=
    iota_single_apply .tc S256x64 32 1 iota_S256x64_d1_w32 (ix2 p e)
  show ((((IntOp.cmpi .eq (broadcastTo S256x64 s1 broadcasts_S256x1_S256x64 (ix2 p e)) (iota .tc S256x64 32 [1] iota_S256x64_d1_w32 (ix2 p e))).setWidth 32 : BitVec 32).toInt : ℝ) : EReal) = _
  rw [hb, hi]
  rfl

/-- The column of the weight block that holds (input channel m, output channel o). -/
def cm (m o : Fin 32) : Fin 1024 := ⟨m.val * 32 + o.val, by have := m.isLt; have := o.isLt; omega⟩

/-- The body's value at (p, o, i): the coefficient times the sum over the input channels m of (the sum over the table
    rows e of the indicator times the weight block's entry (e, m · 32 + o)) times the feature entry (p, m, i). -/
theorem pay_apply (s1 : Vec Ideal S256x1 .i32) (b2 : Vec Ideal S64x1024 .bf16) (x0 : Vec Ideal S256x32x5 .bf16)
    (p : Fin 256) (o : Fin 32) (i : Fin 5) :
    k2_pay1 s1 b2 x0 (ix3 p o i) = Ideal.ofBits .f32 0x3CB504F3#32 *
      ∑ m : Fin 32, (∑ e : Fin 64, hot (s1 (ix2 p (0 : Fin 1))) e * b2 (ix2 e (cm m o))) * x0 (ix3 p m i) := by
  unfold k2_pay1
  rw [mulf_apply, broadcast_apply]
  refine congrArg (fun z => Ideal.ofBits .f32 0x3CB504F3#32 * z) ?_
  rw [shapeCast_self x0, shapeCast_self b2]
  -- the batched contraction: batch coordinate p, sum over the input channel m
  refine (Ideal.matmul_constant_zero_apply (φ₁ := .bf16) (φ₂ := .bf16) _ none _ _ _).trans ?_
  refine (Dots.sum_batch dot_S256x32x32_S256x32x5_S256x32x5_1_1_2_2_0_0 rfl rfl rfl rfl rfl rfl _ _ _).trans ?_
  refine Finset.sum_congr rfl fun m _ => ?_
  show shapeCast S256x32x32 _ shapeCasts_S256x1024_S256x32x32 (ix3 p m o) * x0 (ix3 p m i) = _
  refine congrArg (fun z => z * x0 (ix3 p m i)) ?_
  -- the recast: (p, m, o) and (p, m · 32 + o) have one row-major position
  refine (shapeCast_apply _ shapeCasts_S256x1024_S256x32x32 (ix3 p m o) (ix2 p (cm m o)) ?_).trans ?_
  · rw [Shape.rowMajor_val_two, Shape.rowMajor_val_three]
    show p.val * 1024 + (m.val * 32 + o.val) = (p.val * 32 + m.val) * 32 + o.val
    omega
  rw [truncf_apply]
  -- the plain contraction: sum over the table rows e
  refine (Ideal.matmul_constant_zero_apply (φ₁ := .bf16) (φ₂ := .bf16) _ none _ _ _).trans ?_
  refine (Dots.sum_plain dot_S256x64_S64x1024_S256x1024_1_0_0_1_n_n rfl rfl rfl rfl rfl rfl _ _ _).trans ?_
  refine Finset.sum_congr rfl fun e _ => ?_
  exact congrArg (fun z => z * b2 (ix2 e (cm m o))) (ind_apply s1 p e)

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the feature block, the segment-id block and the result block of point t are the
    t-th along the rows and the only one along the other axes; the weight block is the one block of its array. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

theorem t_lt (t : Fin cfg2.N) : t.val < 32 := (show t.val < grid2.N from t.isLt).trans_eq N_2

/-- Row p of point t's blocks is row t · 256 + p of the arrays. -/
def gr (t : Fin cfg2.N) (p : Fin 256) : Fin 8192 := ⟨t.val * 256 + p.val, by have := t_lt t; have := p.isLt; omega⟩

/-- Where the feature block's entry (p, m, i) sits in the feature array. -/
theorem emb_x (t : Fin cfg2.N) (p : Fin 256) (m : Fin 32) (i : Fin 5) :
    ((cfg2.win 0).blk t).view.emb (ix3 p m i) = ix3 (gr t p) m i := by
  obtain ⟨e0, e1, e2, -⟩ := idx_facts t
  funext a; apply Fin.ext
  match a with
  | ⟨0, _⟩ => show win2_0.index t (0 : Fin 3) * 256 + 1 * p.val = t.val * 256 + p.val; omega
  | ⟨1, _⟩ => show win2_0.index t (1 : Fin 3) * 32 + 1 * m.val = m.val; omega
  | ⟨2, _⟩ => show win2_0.index t (2 : Fin 3) * 5 + 1 * i.val = i.val; omega

/-- Where the segment-id block's entry (p, 0) sits in the segment-id column. -/
theorem emb_s (t : Fin cfg2.N) (p : Fin 256) :
    ((cfg2.win 1).blk t).view.emb (ix2 p (0 : Fin 1)) = ix2 (gr t p) (0 : Fin 1) := by
  obtain ⟨-, -, -, e0, e1, -⟩ := idx_facts t
  funext a; apply Fin.ext
  match a with
  | ⟨0, _⟩ => show win2_1.index t (0 : Fin 2) * 256 + 1 * p.val = t.val * 256 + p.val; omega
  | ⟨1, _⟩ => show win2_1.index t (1 : Fin 2) * 1 + 1 * 0 = 0; omega

/-- The weight block is its whole array. -/
theorem emb_b (t : Fin cfg2.N) (e : Fin 64) (k : Fin 1024) :
    ((cfg2.win 2).blk t).view.emb (ix2 e k) = ix2 e k := by
  obtain ⟨-, -, -, -, -, e0, e1, -⟩ := idx_facts t
  funext a; apply Fin.ext
  match a with
  | ⟨0, _⟩ => show win2_2.index t (0 : Fin 2) * 64 + 1 * e.val = e.val; omega
  | ⟨1, _⟩ => show win2_2.index t (1 : Fin 2) * 1024 + 1 * k.val = k.val; omega

/-- Where the result block's entry (p, o, i) sits in the result array. -/
theorem emb_o (t : Fin cfg2.N) (p : Fin 256) (o : Fin 32) (i : Fin 5) :
    ((cfg2.win 3).blk t).view.emb (ix3 p o i) = ix3 (gr t p) o i := by
  obtain ⟨-, -, -, -, -, -, -, e0, e1, e2⟩ := idx_facts t
  funext a; apply Fin.ext
  match a with
  | ⟨0, _⟩ => show win2_3.index t (0 : Fin 3) * 256 + 1 * p.val = t.val * 256 + p.val; omega
  | ⟨1, _⟩ => show win2_3.index t (1 : Fin 3) * 32 + 1 * o.val = o.val; omega
  | ⟨2, _⟩ => show win2_3.index t (2 : Fin 3) * 5 + 1 * i.val = i.val; omega

/-- What point t writes back is block t of the specification's array. -/
theorem flushed_eq (V : (c : Dev nD) → (b : Ref sig .tc) → Buf (Elt Ideal) ((c : Thread nD τ).loc b)) (c : Dev nD)
    (x : S8192x32x5.Idx → EReal) (w : S64x21504.Idx → EReal) (sid : IVec S8192 32)
    (hs : ∀ n : Fin 8192, (sid (ix1 n)).toNat < 64)
    (hx : (V c main_v29 : S8192x32x5.Idx → EReal) = x)
    (hsid : ∀ n : Fin 8192, (V c main_v18 : S8192x1.Idx → BitVec 32) (ix2 n (0 : Fin 1)) = sid (ix1 n))
    (hB : ∀ (e : Fin 64) (k : Fin 1024), (V c main_v28 : S64x1024.Idx → EReal) (ix2 e k) = w (ix2 e ⟨20480 + k.val, by have := k.isLt; omega⟩))
    (t : Fin cfg2.N) :
    (dat2 (F := Ideal) V c).flushed 3 t = ((cfg2.win 3).blk t).view.read (Elt Ideal) (out2 x w sid) := by
  show (cfg2.win 3).cut (grid2.coords t) ((dat2 V c).after 3 t) = _
  rw [after2_3]
  unfold out2_3
  rw [View.canon_unit_zero hz3]
  simp only [View.ld_unit_zero (S := S256x1) hz2, View.ld_unit_zero (S := S64x1024) hz2, View.ld_unit_zero (S := S256x32x5) hz3]
  refine funext fun (j : S256x32x5.Idx) => ?_
  obtain ⟨p, o, i, rfl⟩ : ∃ (p : Fin 256) (o : Fin 32) (i : Fin 5), j = ix3 p o i := ⟨j 0, j 1, j 2, eq_ix3 j⟩
  show k2_pay1 (iblk2 V c 1 t) (iblk2 V c 2 t) (iblk2 V c 0 t) (ix3 p o i) = out2 x w sid (((cfg2.win 3).blk t).view.emb (ix3 p o i))
  rw [emb_o]
  refine (pay_apply _ _ _ p o i).trans ?_
  -- the segment id of row p of the block is that of row t · 256 + p
  have h1 : iblk2 V c 1 t (ix2 p (0 : Fin 1)) = sid (ix1 (gr t p)) := by
    show V c main_v18 (((cfg2.win 1).blk t).view.emb (ix2 p (0 : Fin 1))) = _
    rw [emb_s]; exact hsid _
  rw [h1]
  show _ = Ideal.ofBits .f32 0x3CB504F3#32 * ∑ m : Fin 32, w (ix2 (row sid (gr t p)) (col2 m o)) * x (ix3 (gr t p) m i)
  refine congrArg (fun z => Ideal.ofBits .f32 0x3CB504F3#32 * z) (Finset.sum_congr rfl fun m _ => ?_)
  -- the feature entry
  have h0 : iblk2 V c 0 t (ix3 p m i) = x (ix3 (gr t p) m i) := by
    show V c main_v29 (((cfg2.win 0).blk t).view.emb (ix3 p m i)) = _
    rw [emb_x, hx]
  -- the weight block's column m · 32 + o is the weights' column 20480 + (m · 32 + o)
  have h2 : ∀ e : Fin 64, iblk2 V c 2 t (ix2 e (cm m o)) = w (ix2 e (col2 m o)) := fun e => by
    show V c main_v28 (((cfg2.win 2).blk t).view.emb (ix2 e (cm m o))) = _
    rw [emb_b]
    exact (hB e (cm m o)).trans (congrArg (fun k => w (ix2 e k)) (Fin.ext (by simp [cm, col2])))
  rw [h0]
  refine congrArg (fun z => z * x (ix3 (gr t p) m i)) ?_
  refine (Finset.sum_congr rfl fun e _ => congrArg (fun z => hot (sid (ix1 (gr t p))) e * z) (h2 e)).trans ?_
  -- the sum against the indicator selects the weight row of the segment id
  refine (hot_sum (sid (ix1 (gr t p))) (hs _) (fun e => w (ix2 e (col2 m o)))).trans ?_
  rw [row_eq sid (gr t p) (hs _)]

/-- An index of the result array is in point t's block iff each coordinate is in the block's range on its axis. -/
theorem mem_blk (t : Fin cfg2.N) (i : S8192x32x5.Idx) :
    i ∈ ((cfg2.win 3).blk t).view.set ↔ ∀ a : Fin 3, win2_3.index t a * S256x32x5.size a ≤ (i a).val ∧ (i a).val < win2_3.index t a * S256x32x5.size a + S256x32x5.size a := by
  show i ∈ ((View.whole main_v30).slice (win2_3.rect t)).set ↔ _
  rw [View.set_slice_whole, Rect.mem_set_unit]
  exact Iff.rfl

/-- Every index of the result array is in some point's block: row r is in the block of point r / 256. -/
theorem cover (i : S8192x32x5.Idx) : ∃ t : Fin cfg2.N, (cfg2.win 3).flush t = true ∧ i ∈ ((cfg2.win 3).blk t).view.set := by
  have hi0 : (i 0).val < 8192 := (i 0).isLt
  have hi1 : (i 1).val < 32 := (i 1).isLt
  have hi2 : (i 2).val < 5 := (i 2).isLt
  obtain ⟨t, ht⟩ : ∃ t : Fin cfg2.N, t.val = (i 0).val / 256 := ⟨⟨(i 0).val / 256, by show _ < grid2.N; rw [N_2]; omega⟩, rfl⟩
  obtain ⟨-, -, -, -, -, -, -, e0, e1, e2⟩ := idx_facts t
  refine ⟨t, flush2_3 t, ?_⟩
  rw [mem_blk]
  intro a
  match a with
  | ⟨0, _⟩ => show win2_3.index t (0 : Fin 3) * 256 ≤ (i 0).val ∧ (i 0).val < win2_3.index t (0 : Fin 3) * 256 + 256; omega
  | ⟨1, _⟩ => show win2_3.index t (1 : Fin 3) * 32 ≤ (i 1).val ∧ (i 1).val < win2_3.index t (1 : Fin 3) * 32 + 32; omega
  | ⟨2, _⟩ => show win2_3.index t (2 : Fin 3) * 5 ≤ (i 2).val ∧ (i 2).val < win2_3.index t (2 : Fin 3) * 5 + 5; omega

end Region2

/-- The array region 2 leaves, for any contents at its entry: when the entry contents of its three operands are
    the features x, the segment ids as a column, and the columns [20480, 20480 + 1024) of the weights, the result
    array ends holding `out2 x w sid`. -/
theorem region2_val (V : (c : Dev nD) → (b : Ref sig .tc) → Buf (Elt Ideal) ((c : Thread nD τ).loc b)) (c : Dev nD)
    (x : S8192x32x5.Idx → EReal) (w : S64x21504.Idx → EReal) (sid : IVec S8192 32)
    (hs : ∀ n : Fin 8192, (sid (ix1 n)).toNat < 64)
    (hx : (V c main_v29 : S8192x32x5.Idx → EReal) = x)
    (hsid : ∀ n : Fin 8192, (V c main_v18 : S8192x1.Idx → BitVec 32) (ix2 n (0 : Fin 1)) = sid (ix1 n))
    (hB : ∀ (e : Fin 64) (k : Fin 1024), (V c main_v28 : S64x1024.Idx → EReal) (ix2 e k) = w (ix2 e ⟨20480 + k.val, by have := k.isLt; omega⟩)) :
    ((dat2 (F := Ideal) V c).arrAt 3 cfg2.N : S8192x32x5.Idx → EReal) = out2 x w sid :=
  (dat2 (F := Ideal) V c).arrAt_eq_of_cover 3 (out2 x w sid) (fun t _ => Region2.flushed_eq V c x w sid hs hx hsid hB t) Region2.cover

end Cert.KernelIdeal.RegionVal

end
-- ==== Proof.KChain.lean ====
/-
  The segment ids as the host program leaves them: the fold of the 52 operations that compute them, read at the
  buffer the lookup writes, is the common function `Cert.IxLin.segIds` of the counts; the argument arrays are not
  written on the way.
-/
import proofs.«107284_j21672404975706_1_alg».proof.Proof.Gen.KernelIdeal.Launch
import proofs.«107284_j21672404975706_1_alg».proof.Proof.Seg
import Idealize.ShloMosaic.Lib.StableHlo.Run

noncomputable section

namespace Cert.KernelIdeal.KChain

open Cert.KernelIdeal Cert.KernelIdeal.Gen Idealize.ShloMosaic Idealize.ShloMosaic.TcCoe Idealize.SL.Sem
open Idealize.ShloMosaic.StableHlo Cert.IxLin

variable (V : Valuation τ sig (Elt Ideal))

/-- The contents after the eight groups of operations that compute the segment ids. -/
abbrev afterChain : Valuation τ sig (Elt Ideal) :=
  after (hostOps0_7 (F := Ideal)) (after hostOps0_6 (after hostOps0_5 (after hostOps0_4 (after hostOps0_3
    (after hostOps0_2 (after hostOps0_1 (after hostOps0 V)))))))

/-! ## What each group writes

The buffers each of the eight groups writes, in order. A buffer outside a group's list holds after the group what it
held before it. -/

abbrev writes0 : List (Ref sig .tc) := [main_v0]
abbrev writes1 : List (Ref sig .tc) := [main_call0_v0, main_call0_v1, main_v1]
abbrev writes2 : List (Ref sig .tc) := [main_c, main_v2, main_c_0, main_v3]
abbrev writes3 : List (Ref sig .tc) := [main_call1_call0_c, main_call1_call0_v0, main_v4]
abbrev writes4 : List (Ref sig .tc) :=
  [main_c_1, main_v5, main_c_2, main_v6, main_v7, main_c_3, main_v8, main_v9, main_v10, main_v11, main_c_4, main_v12,
    main_v13]
abbrev writes5 : List (Ref sig .tc) := [main_call2_call0_c, main_call2_call0_v0, main_v14]
abbrev writes6 : List (Ref sig .tc) := [main_c_5, main_v15, main_v16]
abbrev writes7 : List (Ref sig .tc) :=
  [main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_c_4, main_call3_v14,
    main_v17]

section Keep

variable (W : Valuation τ sig (Elt Ideal)) {r : Ref sig .tc}

/-- Every operation of a group writes one buffer, and that buffer is in the group's list: so a reference outside
    the list keeps its contents across the group. -/
theorem keep0 (h : r ∉ writes0) : after (hostOps0 (F := Ideal)) W (Proc.devRef .tc r) = W (Proc.devRef .tc r) :=
  after_of_writes_sub (W := writes0) _ W (by
    simp only [hostOps0, writes0, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep1 (h : r ∉ writes1) : after (hostOps0_1 (F := Ideal)) W (Proc.devRef .tc r) = W (Proc.devRef .tc r) :=
  after_of_writes_sub (W := writes1) _ W (by
    simp only [hostOps0_1, writes1, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep2 (h : r ∉ writes2) : after (hostOps0_2 (F := Ideal)) W (Proc.devRef .tc r) = W (Proc.devRef .tc r) :=
  after_of_writes_sub (W := writes2) _ W (by
    simp only [hostOps0_2, writes2, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep3 (h : r ∉ writes3) : after (hostOps0_3 (F := Ideal)) W (Proc.devRef .tc r) = W (Proc.devRef .tc r) :=
  after_of_writes_sub (W := writes3) _ W (by
    simp only [hostOps0_3, writes3, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep4 (h : r ∉ writes4) : after (hostOps0_4 (F := Ideal)) W (Proc.devRef .tc r) = W (Proc.devRef .tc r) :=
  after_of_writes_sub (W := writes4) _ W (by
    simp only [hostOps0_4, writes4, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep5 (h : r ∉ writes5) : after (hostOps0_5 (F := Ideal)) W (Proc.devRef .tc r) = W (Proc.devRef .tc r) :=
  after_of_writes_sub (W := writes5) _ W (by
    simp only [hostOps0_5, writes5, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep6 (h : r ∉ writes6) : after (hostOps0_6 (F := Ideal)) W (Proc.devRef .tc r) = W (Proc.devRef .tc r) :=
  after_of_writes_sub (W := writes6) _ W (by
    simp only [hostOps0_6, writes6, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep7 (h : r ∉ writes7) : after (hostOps0_7 (F := Ideal)) W (Proc.devRef .tc r) = W (Proc.devRef .tc r) :=
  after_of_writes_sub (W := writes7) _ W (by
    simp only [hostOps0_7, writes7, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h

end Keep

/-- A buffer none of the eight groups writes holds at the end what it held at the start. -/
theorem chain_of_not_written {r : Ref sig .tc} (h0 : r ∉ writes0) (h1 : r ∉ writes1) (h2 : r ∉ writes2)
    (h3 : r ∉ writes3) (h4 : r ∉ writes4) (h5 : r ∉ writes5) (h6 : r ∉ writes6) (h7 : r ∉ writes7) :
    afterChain V (Proc.devRef .tc r) = V (Proc.devRef .tc r) := by
  unfold afterChain
  rw [keep7 _ h7, keep6 _ h6, keep5 _ h5, keep4 _ h4, keep3 _ h3, keep2 _ h2, keep1 _ h1, keep0 _ h0]

/-! ## What each group computes

Each group's last buffer as a function of the contents before the group: the fold over the group's operations read
at that buffer. The running sums, the scatters, the lookup and the concatenation are carried as whole terms: the
equations are between applications of them and never look inside. -/

section Groups

variable (W : Valuation τ sig (Elt Ideal))

attribute [local irreducible] Host.reduce Host.gather Host.scatter Host.reduceWindow concatenate
set_option maxRecDepth 8192 in
theorem g0 : after (hostOps0 (F := Ideal)) W (main_v0 : DevRef τ sig) = iotaInDim S64 32 0 := by
  simp only [after_cons, after_nil]
  rfl

set_option maxRecDepth 8192 in
theorem g1 : after (hostOps0_1 (F := Ideal)) W (main_v1 : DevRef τ sig)
    = concatenate S64 0 [⟨S1, extractStridedSlice S1 ![63] (W (main_arg4 : DevRef τ sig)) slices_S64_S1_63⟩,
        ⟨S63, extractStridedSlice S63 ![0] (W (main_arg4 : DevRef τ sig)) slices_S64_S63_0⟩] concatenates_S1_S63_S64_d0 := by
  simp only [after_cons, after_nil]
  rfl

set_option maxRecDepth 8192 in
theorem g2 : after (hostOps0_2 (F := Ideal)) W (main_v3 : DevRef τ sig)
    = Host.scatter scatter_S64_S1_S__n_0_0_0 (fun _ b => b) (W (main_v1 : DevRef τ sig))
        (broadcastInDim S1 ![] bcast_S_S1 (constantI S_ 32 0#32)) (constantI S_ 32 0#32) := by
  simp only [after_cons, after_nil]
  rfl

set_option maxRecDepth 8192 in
theorem g3 : after (hostOps0_3 (F := Ideal)) W (main_v4 : DevRef τ sig)
    = Host.reduceWindow IntOp.addi ![64] ![1] ![63] ![0] (W (main_v3 : DevRef τ sig))
        (broadcastInDim S_ ![] bcast_S_S_ (constantI S_ 32 0#32)) reduceWindows_S64_S64_w64s1p63_0 h_S_ := by
  simp only [after_cons, after_nil]
  rfl

set_option maxRecDepth 8192 in
theorem g4 : after (hostOps0_4 (F := Ideal)) W (main_v13 : DevRef τ sig)
    = Host.scatter scatter_S8192_S64x1_S64_n_0_0_1 IntOp.addi
        (broadcastInDim S8192 ![] bcast_S_S8192 (constantI S_ 32 0#32))
        (broadcastInDim S64x1 ![0] bcast_S64_S64x1_0
          (select (cmpi .slt (W (main_v4 : DevRef τ sig)) (broadcastInDim S64 ![] bcast_S_S64 (constantI S_ 32 0#32)))
            (addi (W (main_v4 : DevRef τ sig)) (broadcastInDim S64 ![] bcast_S_S64 (constantI S_ 32 8192#32)))
            (W (main_v4 : DevRef τ sig))))
        (broadcastInDim S64 ![] bcast_S_S64 (constantI S_ 32 1#32)) := by
  simp only [after_cons, after_nil]
  rfl

set_option maxRecDepth 8192 in
theorem g5 : after (hostOps0_5 (F := Ideal)) W (main_v14 : DevRef τ sig)
    = Host.reduceWindow IntOp.addi ![8192] ![1] ![8191] ![0] (W (main_v13 : DevRef τ sig))
        (broadcastInDim S_ ![] bcast_S_S_ (constantI S_ 32 0#32)) reduceWindows_S8192_S8192_w8192s1p8191_0 h_S_ := by
  simp only [after_cons, after_nil]
  rfl

set_option maxRecDepth 8192 in
theorem g6 : after (hostOps0_6 (F := Ideal)) W (main_v16 : DevRef τ sig)
    = subi (W (main_v14 : DevRef τ sig)) (broadcastInDim S8192 ![] bcast_S_S8192 (constantI S_ 32 1#32)) := by
  simp only [after_cons, after_nil]
  rfl

set_option maxRecDepth 8192 in
theorem g7 : after (hostOps0_7 (F := Ideal)) W (main_v17 : DevRef τ sig)
    = select
        (Host.reduce (axes := [1]) IntOp.andi
          (andi
            (cmpi .sge
              (broadcastInDim S8192x1 ![0] bcast_S8192_S8192x1_0
                (select (cmpi .slt (W (main_v16 : DevRef τ sig)) (broadcastInDim S8192 ![] bcast_S_S8192 (constantI S_ 32 0#32)))
                  (addi (W (main_v16 : DevRef τ sig)) (broadcastInDim S8192 ![] bcast_S_S8192 (constantI S_ 32 64#32)))
                  (W (main_v16 : DevRef τ sig))))
              (broadcastInDim S8192x1 ![] bcast_S_S8192x1 (constantI S_ 32 0#32)))
            (cmpi .sle
              (broadcastInDim S8192x1 ![0] bcast_S8192_S8192x1_0
                (select (cmpi .slt (W (main_v16 : DevRef τ sig)) (broadcastInDim S8192 ![] bcast_S_S8192 (constantI S_ 32 0#32)))
                  (addi (W (main_v16 : DevRef τ sig)) (broadcastInDim S8192 ![] bcast_S_S8192 (constantI S_ 32 64#32)))
                  (W (main_v16 : DevRef τ sig))))
              (broadcastInDim S8192x1 ![0, 1] bcast_S1x1_S8192x1_0_1
                (broadcastInDim S1x1 ![1] bcast_S1_S1x1_1 (constantI S1 32 63#32)))))
          (constantI S_ 1 1#1) reducesTo_S8192x1_S8192_d1 h_S_)
        (Host.gather gather_S64_S8192x1_S8192_n_0_n_n_0_1_1 (W (main_v0 : DevRef τ sig))
          (broadcastInDim S8192x1 ![0] bcast_S8192_S8192x1_0
            (select (cmpi .slt (W (main_v16 : DevRef τ sig)) (broadcastInDim S8192 ![] bcast_S_S8192 (constantI S_ 32 0#32)))
              (addi (W (main_v16 : DevRef τ sig)) (broadcastInDim S8192 ![] bcast_S_S8192 (constantI S_ 32 64#32)))
              (W (main_v16 : DevRef τ sig)))))
        (broadcastInDim S8192 ![] bcast_S_S8192 (constantI S_ 32 2147483648#32)) := by
  simp only [after_cons, after_nil]
  rfl

/-! ## The groups composed

The first row of every segment is what groups 1 to 3 leave (the rotation, the overwrite of the first entry, the
running sum); the markers are what group 4 adds to that; the ranks what groups 5 and 6 add (the running sum, less
one). Each equation joins the two sides by the previous one and the naming of the shapes and dimension numbers. -/

theorem starts_eq : after (hostOps0_3 (F := Ideal)) (after hostOps0_2 (after hostOps0_1 W)) (main_v4 : DevRef τ sig)
    = starts (W (main_arg4 : DevRef τ sig)) := by
  rw [g3, g2, g1]
  rfl

theorem marks_eq : after (hostOps0_4 (F := Ideal)) (after hostOps0_3 (after hostOps0_2 (after hostOps0_1 W)))
      (main_v13 : DevRef τ sig)
    = marks (starts (W (main_arg4 : DevRef τ sig))) := by
  rw [g4, starts_eq]
  rfl

theorem ranks_eq : after (hostOps0_6 (F := Ideal)) (after hostOps0_5 (after hostOps0_4 (after hostOps0_3
      (after hostOps0_2 (after hostOps0_1 W))))) (main_v16 : DevRef τ sig)
    = ranks (marks (starts (W (main_arg4 : DevRef τ sig)))) := by
  rw [g6, g5, marks_eq]
  rfl

/-- The table 0 … 63 is written by the first group and by no later one before the lookup reads it. -/
theorem table_eq : after (hostOps0_6 (F := Ideal)) (after hostOps0_5 (after hostOps0_4 (after hostOps0_3
      (after hostOps0_2 (after hostOps0_1 (after hostOps0 W)))))) (main_v0 : DevRef τ sig)
    = iotaInDim S64 32 0 := by
  rw [keep6 (r := main_v0) _ (by decide), keep5 (r := main_v0) _ (by decide), keep4 (r := main_v0) _ (by decide),
    keep3 (r := main_v0) _ (by decide), keep2 (r := main_v0) _ (by decide), keep1 (r := main_v0) _ (by decide), g0]

/-- The buffer the lookup writes holds the segment ids, as the common function of the counts. -/
theorem chain_v17 : afterChain V (main_v17 : DevRef τ sig) = segIds (V (main_arg4 : DevRef τ sig)) := by
  unfold afterChain
  rw [g7, ranks_eq, table_eq, keep0 (r := main_arg4) _ (by decide)]
  rfl

end Groups

/-- None of the 52 operations writes an argument array. -/
theorem chain_arg0 : afterChain V (main_arg0 : DevRef τ sig) = V (main_arg0 : DevRef τ sig) :=
  chain_of_not_written V (by decide) (by decide) (by decide) (by decide) (by decide) (by decide) (by decide) (by decide)
theorem chain_arg1 : afterChain V (main_arg1 : DevRef τ sig) = V (main_arg1 : DevRef τ sig) :=
  chain_of_not_written V (by decide) (by decide) (by decide) (by decide) (by decide) (by decide) (by decide) (by decide)
theorem chain_arg2 : afterChain V (main_arg2 : DevRef τ sig) = V (main_arg2 : DevRef τ sig) :=
  chain_of_not_written V (by decide) (by decide) (by decide) (by decide) (by decide) (by decide) (by decide) (by decide)
theorem chain_arg3 : afterChain V (main_arg3 : DevRef τ sig) = V (main_arg3 : DevRef τ sig) :=
  chain_of_not_written V (by decide) (by decide) (by decide) (by decide) (by decide) (by decide) (by decide) (by decide)
theorem chain_arg4 : afterChain V (main_arg4 : DevRef τ sig) = V (main_arg4 : DevRef τ sig) :=
  chain_of_not_written V (by decide) (by decide) (by decide) (by decide) (by decide) (by decide) (by decide) (by decide)

end Cert.KernelIdeal.KChain

end
-- ==== Proof.KEntry.lean ====
/-
  What the three grid launches find in their operand arrays: the features as launched (the change of float format
  is the identity over the extended reals), the segment ids as a column, and each feature kind's block of columns
  of the weight table.  The host operations before and between the launches are read off the fold; a launch leaves
  its input arrays as it found them, and no later operation writes the segment ids.
-/
import proofs.«107284_j21672404975706_1_alg».proof.Proof.Gen.KernelIdeal.Frame
import proofs.«107284_j21672404975706_1_alg».proof.Proof.Seg
import proofs.«107284_j21672404975706_1_alg».proof.Proof.KChain
import Idealize.ShloMosaic.Lib.ValueIdx
import Idealize.ShloMosaic.Lib.ValueLayout
import Idealize.ShloMosaic.Lib.Pipeline.Value

set_option maxRecDepth 16384

noncomputable section

namespace Cert.KernelIdeal.KEntry

open Cert.KernelIdeal Cert.KernelIdeal.Gen Idealize.ShloMosaic Idealize.ShloMosaic.TcCoe Idealize.SL.Sem
open Idealize.ShloMosaic.ValueIdx Idealize.ShloMosaic.StableHlo Cert.IxLin

variable (m : (ℓ : Loc nD τ sig) → Buf (Elt Ideal) ℓ) (ρ : Dev nD → PrngReg) (c : Dev nD)

/-! ## Two index laws, over variables -/

/-- A vector given a trailing unit axis: the column read at row `i` is the vector at `i` (the two row-major
    positions are `i` and `i * 1 + 0`). -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What each group of host operations leaves, over any contents `V` it starts from -/

section Groups
variable (V : Valuation τ sig (Elt Ideal))

/-- The group before the first launch: the features' change of format is the identity. -/
theorem g8_v21 : (StableHlo.after (hostOps0_8 (F := Ideal)) V (Proc.devRef .tc main_v21) : S8192x128x1.Idx → EReal)
    = V (Proc.devRef .tc main_arg0) := by
  after_results; rfl
/-- … the segment ids become a column … -/
theorem g8_v18 : (StableHlo.after (hostOps0_8 (F := Ideal)) V (Proc.devRef .tc main_v18) : S8192x1.Idx → BitVec 32)
    = shapeCast S8192x1 (V (Proc.devRef .tc main_v17) : S8192.Idx → BitVec 32) shapeCasts_S8192_S8192x1 := by
  after_results; rfl
/-- … and the first block of weight columns is cut out (its change of format the identity). -/
theorem g8_v20 : (StableHlo.after (hostOps0_8 (F := Ideal)) V (Proc.devRef .tc main_v20) : S64x16384.Idx → EReal)
    = extractStridedSlice S64x16384 ![0, 0] (V (Proc.devRef .tc main_arg3) : S64x21504.Idx → EReal)
        slices_S64x21504_S64x16384_0_0 := by
  after_results; rfl
/-- It writes four buffers and no other. -/
theorem g8_keep (r : Ref sig .tc) (h18 : r ≠ main_v18) (h19 : r ≠ main_v19) (h20 : r ≠ main_v20) (h21 : r ≠ main_v21) :
    StableHlo.after (hostOps0_8 (F := Ideal)) V (Proc.devRef .tc r) = V (Proc.devRef .tc r) := by
  refine StableHlo.after_of_forall_not_mem (b := Proc.devRef .tc r) _ _ (List.forall_iff_forall_mem.mp ?_)
  simp only [hostOps0_8, List.Forall, StableHlo.unary_writes, StableHlo.reshape_writes, Finset.mem_singleton]
  exact ⟨StableHlo.devRef_ne_of_ne h18, StableHlo.devRef_ne_of_ne h19, StableHlo.devRef_ne_of_ne h20,
    StableHlo.devRef_ne_of_ne h21⟩

/-- The group before the second launch. -/
theorem g1_v25 : (StableHlo.after (hostOps1 (F := Ideal)) V (Proc.devRef .tc main_v25) : S8192x64x3.Idx → EReal)
    = V (Proc.devRef .tc main_arg1) := by
  after_results; rfl
theorem g1_v24 : (StableHlo.after (hostOps1 (F := Ideal)) V (Proc.devRef .tc main_v24) : S64x4096.Idx → EReal)
    = extractStridedSlice S64x4096 ![0, 16384] (V (Proc.devRef .tc main_arg3) : S64x21504.Idx → EReal)
        slices_S64x21504_S64x4096_0_16384 := by
  after_results; rfl
theorem g1_keep (r : Ref sig .tc) (h23 : r ≠ main_v23) (h24 : r ≠ main_v24) (h25 : r ≠ main_v25) :
    StableHlo.after (hostOps1 (F := Ideal)) V (Proc.devRef .tc r) = V (Proc.devRef .tc r) := by
  refine StableHlo.after_of_forall_not_mem (b := Proc.devRef .tc r) _ _ (List.forall_iff_forall_mem.mp ?_)
  simp only [hostOps1, List.Forall, StableHlo.unary_writes, Finset.mem_singleton]
  exact ⟨StableHlo.devRef_ne_of_ne h23, StableHlo.devRef_ne_of_ne h24, StableHlo.devRef_ne_of_ne h25⟩

/-- The group before the third launch. -/
theorem g2_v29 : (StableHlo.after (hostOps2 (F := Ideal)) V (Proc.devRef .tc main_v29) : S8192x32x5.Idx → EReal)
    = V (Proc.devRef .tc main_arg2) := by
  after_results; rfl
theorem g2_v28 : (StableHlo.after (hostOps2 (F := Ideal)) V (Proc.devRef .tc main_v28) : S64x1024.Idx → EReal)
    = extractStridedSlice S64x1024 ![0, 20480] (V (Proc.devRef .tc main_arg3) : S64x21504.Idx → EReal)
        slices_S64x21504_S64x1024_0_20480 := by
  after_results; rfl
theorem g2_keep (r : Ref sig .tc) (h27 : r ≠ main_v27) (h28 : r ≠ main_v28) (h29 : r ≠ main_v29) :
    StableHlo.after (hostOps2 (F := Ideal)) V (Proc.devRef .tc r) = V (Proc.devRef .tc r) := by
  refine StableHlo.after_of_forall_not_mem (b := Proc.devRef .tc r) _ _ (List.forall_iff_forall_mem.mp ?_)
  simp only [hostOps2, List.Forall, StableHlo.unary_writes, Finset.mem_singleton]
  exact ⟨StableHlo.devRef_ne_of_ne h27, StableHlo.devRef_ne_of_ne h28, StableHlo.devRef_ne_of_ne h29⟩

end Groups

/-! ## The fold, boundary by boundary -/

/-- After the eight groups that compute the segment ids: the arguments as launched, the ids in their buffer. -/
theorem W8_arg0 : W8 (F := Ideal) m ρ c (Proc.devRef .tc main_arg0) = m ((c : Thread nD τ).loc main_arg0) :=
  KChain.chain_arg0 (W0 m ρ c)
theorem W8_arg1 : W8 (F := Ideal) m ρ c (Proc.devRef .tc main_arg1) = m ((c : Thread nD τ).loc main_arg1) :=
  KChain.chain_arg1 (W0 m ρ c)
theorem W8_arg2 : W8 (F := Ideal) m ρ c (Proc.devRef .tc main_arg2) = m ((c : Thread nD τ).loc main_arg2) :=
  KChain.chain_arg2 (W0 m ρ c)
theorem W8_arg3 : W8 (F := Ideal) m ρ c (Proc.devRef .tc main_arg3) = m ((c : Thread nD τ).loc main_arg3) :=
  KChain.chain_arg3 (W0 m ρ c)
theorem W8_v17 : W8 (F := Ideal) m ρ c (Proc.devRef .tc main_v17) = segIds (m ((c : Thread nD τ).loc main_arg4)) :=
  KChain.chain_v17 (W0 m ρ c)

/-- The first launch's entry: the segment-id column and the first weight block, in the launch memory's terms. -/
theorem W9_v18 : (W9 (F := Ideal) m ρ c (Proc.devRef .tc main_v18) : S8192x1.Idx → BitVec 32)
    = shapeCast S8192x1 (segIds (m ((c : Thread nD τ).loc main_arg4))) shapeCasts_S8192_S8192x1 :=
  (g8_v18 (W8 m ρ c)).trans
    (congrArg (fun v : S8192.Idx → BitVec 32 => shapeCast S8192x1 v shapeCasts_S8192_S8192x1) (W8_v17 m ρ c))

/-- The first launch leaves every argument it does not write, and the group before it writes none. -/
theorem W10_arg1 : W10 (F := Ideal) m ρ c (Proc.devRef .tc main_arg1) = m ((c : Thread nD τ).loc main_arg1) :=
  ((W10_of_ne m ρ c main_arg1 (by decide)).trans
    (g8_keep (W8 m ρ c) main_arg1 (by decide) (by decide) (by decide) (by decide))).trans (W8_arg1 m ρ c)
theorem W10_arg2 : W10 (F := Ideal) m ρ c (Proc.devRef .tc main_arg2) = m ((c : Thread nD τ).loc main_arg2) :=
  ((W10_of_ne m ρ c main_arg2 (by decide)).trans
    (g8_keep (W8 m ρ c) main_arg2 (by decide) (by decide) (by decide) (by decide))).trans (W8_arg2 m ρ c)
theorem W10_arg3 : W10 (F := Ideal) m ρ c (Proc.devRef .tc main_arg3) = m ((c : Thread nD τ).loc main_arg3) :=
  ((W10_of_ne m ρ c main_arg3 (by decide)).trans
    (g8_keep (W8 m ρ c) main_arg3 (by decide) (by decide) (by decide) (by decide))).trans (W8_arg3 m ρ c)

/-- The segment-id column is an input window of the first launch: its array is never written back. -/
theorem W10_v18 : W10 (F := Ideal) m ρ c (Proc.devRef .tc main_v18) = W9 m ρ c (Proc.devRef .tc main_v18) :=
  ((W10_arr m ρ c 1).trans ((dat0 (V9 m ρ) c).arrAt_in 1 rfl _)).trans (A_eq0 (V9 m ρ) c 1)

/-- The second launch's entry. -/
theorem W11_v18 : W11 (F := Ideal) m ρ c (Proc.devRef .tc main_v18) = W9 m ρ c (Proc.devRef .tc main_v18) :=
  (g1_keep (W10 m ρ c) main_v18 (by decide) (by decide) (by decide)).trans (W10_v18 m ρ c)

theorem W12_arg2 : W12 (F := Ideal) m ρ c (Proc.devRef .tc main_arg2) = m ((c : Thread nD τ).loc main_arg2) :=
  ((W12_of_ne m ρ c main_arg2 (by decide)).trans
    (g1_keep (W10 m ρ c) main_arg2 (by decide) (by decide) (by decide))).trans (W10_arg2 m ρ c)
theorem W12_arg3 : W12 (F := Ideal) m ρ c (Proc.devRef .tc main_arg3) = m ((c : Thread nD τ).loc main_arg3) :=
  ((W12_of_ne m ρ c main_arg3 (by decide)).trans
    (g1_keep (W10 m ρ c) main_arg3 (by decide) (by decide) (by decide))).trans (W10_arg3 m ρ c)

/-- The segment-id column is an input window of the second launch too. -/
theorem W12_v18 : W12 (F := Ideal) m ρ c (Proc.devRef .tc main_v18) = W11 m ρ c (Proc.devRef .tc main_v18) :=
  ((W12_arr m ρ c 1).trans ((dat1 (V11 m ρ) c).arrAt_in 1 rfl _)).trans (A_eq1 (V11 m ρ) c 1)

theorem W13_v18 : W13 (F := Ideal) m ρ c (Proc.devRef .tc main_v18) = W9 m ρ c (Proc.devRef .tc main_v18) :=
  ((g2_keep (W12 m ρ c) main_v18 (by decide) (by decide) (by decide)).trans (W12_v18 m ρ c)).trans (W11_v18 m ρ c)

/-! ## At the first launch's entry -/

theorem x9 : (V9 (F := Ideal) m ρ c main_v21 : S8192x128x1.Idx → EReal) = m ((c.tc : Thread nD τ).loc main_arg0) :=
  (g8_v21 (W8 m ρ c)).trans (W8_arg0 m ρ c)

theorem sid9 (n : Fin 8192) :
    (V9 (F := Ideal) m ρ c main_v18 : S8192x1.Idx → BitVec 32) (ix2 n (0 : Fin 1)) = segIds (m ((c.tc : Thread nD τ).loc main_arg4)) (ix1 n) :=
  (congrFun (W9_v18 m ρ c) _).trans (shapeCast_a_a1_apply _ _ n 0)

theorem b9 (e : Fin 64) (k : Fin 16384) :
    (V9 (F := Ideal) m ρ c main_v20 : S64x16384.Idx → EReal) (ix2 e k)
      = (m ((c.tc : Thread nD τ).loc main_arg3) : S64x21504.Idx → EReal) (ix2 e ⟨0 + k.val, by have := k.isLt; omega⟩) := by
  have h : (V9 (F := Ideal) m ρ c main_v20 : S64x16384.Idx → EReal)
      = extractStridedSlice S64x16384 ![0, 0] (m ((c : Thread nD τ).loc main_arg3) : S64x21504.Idx → EReal)
          slices_S64x21504_S64x16384_0_0 :=
    (g8_v20 (W8 m ρ c)).trans (congrArg (fun v : S64x21504.Idx → EReal =>
      extractStridedSlice S64x16384 ![0, 0] v slices_S64x21504_S64x16384_0_0) (W8_arg3 m ρ c))
  exact (congrFun h _).trans (slice2_axis1_apply 0 _ _ e k _ rfl)

/-! ## At the second launch's entry -/

theorem x11 : (V11 (F := Ideal) m ρ c main_v25 : S8192x64x3.Idx → EReal) = m ((c.tc : Thread nD τ).loc main_arg1) :=
  (g1_v25 (W10 m ρ c)).trans (W10_arg1 m ρ c)

theorem sid11 (n : Fin 8192) :
    (V11 (F := Ideal) m ρ c main_v18 : S8192x1.Idx → BitVec 32) (ix2 n (0 : Fin 1)) = segIds (m ((c.tc : Thread nD τ).loc main_arg4)) (ix1 n) :=
  (congrFun (W11_v18 m ρ c) _).trans (sid9 m ρ c n)

theorem b11 (e : Fin 64) (k : Fin 4096) :
    (V11 (F := Ideal) m ρ c main_v24 : S64x4096.Idx → EReal) (ix2 e k)
      = (m ((c.tc : Thread nD τ).loc main_arg3) : S64x21504.Idx → EReal) (ix2 e ⟨16384 + k.val, by have := k.isLt; omega⟩) := by
  have h : (V11 (F := Ideal) m ρ c main_v24 : S64x4096.Idx → EReal)
      = extractStridedSlice S64x4096 ![0, 16384] (m ((c : Thread nD τ).loc main_arg3) : S64x21504.Idx → EReal)
          slices_S64x21504_S64x4096_0_16384 :=
    (g1_v24 (W10 m ρ c)).trans (congrArg (fun v : S64x21504.Idx → EReal =>
      extractStridedSlice S64x4096 ![0, 16384] v slices_S64x21504_S64x4096_0_16384) (W10_arg3 m ρ c))
  exact (congrFun h _).trans (slice2_axis1_apply 16384 _ _ e k _ rfl)

/-! ## At the third launch's entry -/

theorem x13 : (V13 (F := Ideal) m ρ c main_v29 : S8192x32x5.Idx → EReal) = m ((c.tc : Thread nD τ).loc main_arg2) :=
  (g2_v29 (W12 m ρ c)).trans (W12_arg2 m ρ c)

theorem sid13 (n : Fin 8192) :
    (V13 (F := Ideal) m ρ c main_v18 : S8192x1.Idx → BitVec 32) (ix2 n (0 : Fin 1)) = segIds (m ((c.tc : Thread nD τ).loc main_arg4)) (ix1 n) :=
  (congrFun (W13_v18 m ρ c) _).trans (sid9 m ρ c n)

theorem b13 (e : Fin 64) (k : Fin 1024) :
    (V13 (F := Ideal) m ρ c main_v28 : S64x1024.Idx → EReal) (ix2 e k)
      = (m ((c.tc : Thread nD τ).loc main_arg3) : S64x21504.Idx → EReal) (ix2 e ⟨20480 + k.val, by have := k.isLt; omega⟩) := by
  have h : (V13 (F := Ideal) m ρ c main_v28 : S64x1024.Idx → EReal)
      = extractStridedSlice S64x1024 ![0, 20480] (m ((c : Thread nD τ).loc main_arg3) : S64x21504.Idx → EReal)
          slices_S64x21504_S64x1024_0_20480 :=
    (g2_v28 (W12 m ρ c)).trans (congrArg (fun v : S64x21504.Idx → EReal =>
      extractStridedSlice S64x1024 ![0, 20480] v slices_S64x21504_S64x1024_0_20480) (W12_arg3 m ρ c))
  exact (congrFun h _).trans (slice2_axis1_apply 20480 _ _ e k _ rfl)

end Cert.KernelIdeal.KEntry

end
-- ==== Proof.KVal.lean ====
/-
  The idealized kernel's run with its three results named.  The launch theorem gives every final state's result
  buffers as the fold of the whole program's buffer contents from the launch memory.  Each result buffer is the
  fourth window array of one grid launch: the fold at that buffer walks back to what that launch's write-backs leave
  (no later host operation writes it, no later launch has it among its window arrays), and what a launch leaves is
  the common function of its operand arrays at entry, which hold the features as launched, the segment ids as a
  column, and the feature kind's block of columns of the weight table.
-/
import proofs.«107284_j21672404975706_1_alg».proof.Proof.Gen.KernelIdeal.Frame
import proofs.«107284_j21672404975706_1_alg».proof.Proof.Spec
import proofs.«107284_j21672404975706_1_alg».proof.Proof.SegRange
import proofs.«107284_j21672404975706_1_alg».proof.Proof.Region0
import proofs.«107284_j21672404975706_1_alg».proof.Proof.Region1
import proofs.«107284_j21672404975706_1_alg».proof.Proof.Region2
import proofs.«107284_j21672404975706_1_alg».proof.Proof.KRun
import proofs.«107284_j21672404975706_1_alg».proof.Proof.KEntry

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Cert.IxLin

section WalkBack

variable {F : FTy → Type} [FloatOps F]
variable (m : (ℓ : Loc nD τ sig) → Buf (Elt F) ℓ) (ρ : Dev nD → PrngReg)

/-! ## The fold walked back from the last boundary to the launch that writes each result

A result buffer is the fourth window array of one launch: at that launch's exit it holds what the launch's
write-backs leave; no later host operation writes it and no later launch has it among its window arrays, so the
last boundary's contents there are still those. -/

/-- The third launch's result array is its fourth window array: the last boundary holds what its write-backs leave. -/
theorem W14_main_v30 (c : Dev nD) :
    W14 m ρ c (Proc.devRef .tc main_v30) = (dat2 (V13 m ρ) c).arrAt 3 cfg2.N :=
  W14_arr m ρ c 3

/-- The second launch's result array: not a window array of the third launch, written by no host operation between
    the two, and the fourth window array of the second launch. -/
theorem W14_main_v26 (c : Dev nD) :
    W14 m ρ c (Proc.devRef .tc main_v26) = (dat1 (V11 m ρ) c).arrAt 3 cfg1.N :=
  calc W14 m ρ c (Proc.devRef .tc main_v26)
    _ = W13 m ρ c (Proc.devRef .tc main_v26) := W14_of_ne m ρ c main_v26 (by decide)
    _ = W12 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V11 m ρ) c).arrAt 3 cfg1.N := W12_arr m ρ c 3

/-- The first launch's result array: not a window array of the two later launches, written by no host operation
    after the first launch, and the fourth window array of the first launch. -/
theorem W14_main_v22 (c : Dev nD) :
    W14 m ρ c (Proc.devRef .tc main_v22) = (dat0 (V9 m ρ) c).arrAt 3 cfg0.N :=
  calc W14 m ρ c (Proc.devRef .tc main_v22)
    _ = W13 m ρ c (Proc.devRef .tc main_v22) := W14_of_ne m ρ c main_v22 (by decide)
    _ = W12 m ρ c (Proc.devRef .tc main_v22) := StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v22) := W12_of_ne m ρ c main_v22 (by decide)
    _ = W10 m ρ c (Proc.devRef .tc main_v22) := StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V9 m ρ) c).arrAt 3 cfg0.N := W10_arr m ρ c 3

end WalkBack

/-! ## Each result at the last boundary is the common function of the launch arrays

The fold walked back to the launch that writes the result, then that launch's value at its entry contents: the
features as launched, the segment ids (each one of 0 … 63) as a column, the launch's block of the weights' columns. -/

section Values

variable (m : (ℓ : Loc nD τ sig) → Buf (Elt Ideal) ℓ) (ρ : Dev nD → PrngReg) (c : Dev nD)

/-- The first result: the first launch's value at the contents it is entered from. -/
theorem W14_out0 :
    W14 (F := Ideal) m ρ c (Proc.devRef .tc main_v22)
      = out0 (m ((c.tc : Thread nD τ).loc main_arg0)) (m ((c.tc : Thread nD τ).loc main_arg3)) (segIds (m ((c.tc : Thread nD τ).loc main_arg4))) :=
  (W14_main_v22 (F := Ideal) m ρ c).trans
    (RegionVal.region0_val (V9 (F := Ideal) m ρ) c _ _ _ (fun n => segIds_lt _ n) (KEntry.x9 m ρ c) (KEntry.sid9 m ρ c) (KEntry.b9 m ρ c))

/-- The second result: the second launch's value at the contents it is entered from. -/
theorem W14_out1 :
    W14 (F := Ideal) m ρ c (Proc.devRef .tc main_v26)
      = out1 (m ((c.tc : Thread nD τ).loc main_arg1)) (m ((c.tc : Thread nD τ).loc main_arg3)) (segIds (m ((c.tc : Thread nD τ).loc main_arg4))) :=
  (W14_main_v26 (F := Ideal) m ρ c).trans
    (RegionVal.region1_val (V11 (F := Ideal) m ρ) c _ _ _ (fun n => segIds_lt _ n) (KEntry.x11 m ρ c) (KEntry.sid11 m ρ c) (KEntry.b11 m ρ c))

/-- The third result: the third launch's value at the contents it is entered from. -/
theorem W14_out2 :
    W14 (F := Ideal) m ρ c (Proc.devRef .tc main_v30)
      = out2 (m ((c.tc : Thread nD τ).loc main_arg2)) (m ((c.tc : Thread nD τ).loc main_arg3)) (segIds (m ((c.tc : Thread nD τ).loc main_arg4))) :=
  (W14_main_v30 (F := Ideal) m ρ c).trans
    (RegionVal.region2_val (V13 (F := Ideal) m ρ) c _ _ _ (fun n => segIds_lt _ n) (KEntry.x13 m ρ c) (KEntry.sid13 m ρ c) (KEntry.b13 m ρ c))

end Values

/-- The idealized kernel's run with its three results named: each is the common function of the launch arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = out0 (m ((c.tc : Thread nD τ).loc main_arg0)) (m ((c.tc : Thread nD τ).loc main_arg3)) (segIds (m ((c.tc : Thread nD τ).loc main_arg4)))
      ∧ r.2.mem ((c.tc : Thread nD τ).loc main_v26) = out1 (m ((c.tc : Thread nD τ).loc main_arg1)) (m ((c.tc : Thread nD τ).loc main_arg3)) (segIds (m ((c.tc : Thread nD τ).loc main_arg4)))
      ∧ r.2.mem ((c.tc : Thread nD τ).loc main_v30) = out2 (m ((c.tc : Thread nD τ).loc main_arg2)) (m ((c.tc : Thread nD τ).loc main_arg3)) (segIds (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun r h c =>
      ⟨(h c).1.trans (W14_out0 m ρ c),
       (h c).2.1.trans (W14_out1 m ρ c),
       (h c).2.2.1.trans (W14_out2 m ρ c),
       (h c).2.2.2⟩)
    (KRun.run_results (F := Ideal) m ρ)

end Cert.KernelIdeal.KVal

end
-- ==== Proof.RStretch.lean ====
/-
  The first part of the reference's host program, as lists of its operations: the 52 operations that compute the
  segment id of every row from the counts (the table 0 … 63; the counts rotated; the overwrite of the first entry;
  the running sum; the wrap and the marker scatter; the second running sum less one; the 22 operations of the
  lookup), grouped as the outlined functions group them.  The lists are named as the kernel program's stretches are,
  so that one statement about them reads for both programs.
-/
import proofs.«107284_j21672404975706_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem

variable {F : FTy → Type} [FloatOps F]

/-- 1 host operation of @main, in order. -/
abbrev hostOps0 : List (HloOp τ sig (Elt F)) :=
  [ StableHlo.nullary main_v0 (iotaInDim S64 32 0) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  StableHlo.nullary_bufs_sub ..
/-- 3 host operations of @_roll_static (main_call0), in order. -/
abbrev hostOps0_1 : List (HloOp τ sig (Elt F)) :=
  [ StableHlo.TRef.unary (.of main_arg4 : StableHlo.TRef sig ⟨S64, .i32⟩) (.of main_call0_v0 : StableHlo.TRef sig ⟨S1, .i32⟩) (extractStridedSlice S1 ![63] · slices_S64_S1_63),
    StableHlo.TRef.unary (.of main_arg4 : StableHlo.TRef sig ⟨S64, .i32⟩) (.of main_call0_v1 : StableHlo.TRef sig ⟨S63, .i32⟩) (extractStridedSlice S63 ![0] · slices_S64_S63_0),
    StableHlo.TRef.binary (.of main_call0_v0 : StableHlo.TRef sig ⟨S1, .i32⟩) (.of main_call0_v1 : StableHlo.TRef sig ⟨S63, .i32⟩) (.of main_v1 : StableHlo.TRef sig ⟨S64, .i32⟩) (fun a b => concatenate S64 0 [⟨S1, a⟩, ⟨S63, b⟩] concatenates_S1_S63_S64_d0) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub ..⟩
/-- 4 host operations of @main, in order. -/
abbrev hostOps0_2 : List (HloOp τ sig (Elt F)) :=
  [ StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.nullary_bufs_sub .., StableHlo.ternary_bufs_sub ..⟩
/-- 3 host operations of @cumsum (main_call1), in order. -/
abbrev hostOps0_3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v3 : StableHlo.TRef sig ⟨S64, .i32⟩) (.of main_call1_call0_v0 : StableHlo.TRef sig ⟨S_, .i32⟩) (.of main_v4 : StableHlo.TRef sig ⟨S64, .i32⟩) (fun x v => Host.reduceWindow IntOp.addi ![64] ![1] ![63] ![0] x v reduceWindows_S64_S64_w64s1p63_0 h_S_) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub ..⟩
/-- 13 host operations of @main, in order. -/
abbrev hostOps0_4 : List (HloOp τ sig (Elt F)) :=
  [ StableHlo.nullary main_c_1 (constantI S_ 32 0#32),
    StableHlo.unary main_c_1 main_v5 (broadcastInDim S8192 ![] bcast_S_S8192 : (⟨S_, .i32⟩ : BufTy).Contents (Elt F) → (⟨S8192, .i32⟩ : BufTy).Contents (Elt F)),
    StableHlo.nullary main_c_2 (constantI S_ 32 0#32),
    StableHlo.unary main_c_2 main_v6 (broadcastInDim S64 ![] bcast_S_S64 : (⟨S_, .i32⟩ : BufTy).Contents (Elt F) → (⟨S64, .i32⟩ : BufTy).Contents (Elt F)),
    StableHlo.binary main_v4 main_v6 main_v7 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 8192#32),
    StableHlo.unary main_c_3 main_v8 (broadcastInDim S64 ![] bcast_S_S64 : (⟨S_, .i32⟩ : BufTy).Contents (Elt F) → (⟨S64, .i32⟩ : BufTy).Contents (Elt F)),
    StableHlo.binary main_v4 main_v8 main_v9 (addi : (⟨S64, .i32⟩ : BufTy).Contents (Elt F) → (⟨S64, .i32⟩ : BufTy).Contents (Elt F) → (⟨S64, .i32⟩ : BufTy).Contents (Elt F)),
    StableHlo.ternary main_v7 main_v9 main_v4 main_v10 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v10 main_v11 (broadcastInDim S64x1 ![0] bcast_S64_S64x1_0 : (⟨S64, .i32⟩ : BufTy).Contents (Elt F) → (⟨S64x1, .i32⟩ : BufTy).Contents (Elt F)),
    StableHlo.nullary main_c_4 (constantI S_ 32 1#32),
    StableHlo.unary main_c_4 main_v12 (broadcastInDim S64 ![] bcast_S_S64 : (⟨S_, .i32⟩ : BufTy).Contents (Elt F) → (⟨S64, .i32⟩ : BufTy).Contents (Elt F)),
    StableHlo.ternary main_v5 main_v11 main_v12 main_v13 ((fun x i u => Host.scatter scatter_S8192_S64x1_S64_n_0_0_1 IntOp.addi x i u) : (⟨S8192, .i32⟩ : BufTy).Contents (Elt F) → (⟨S64x1, .i32⟩ : BufTy).Contents (Elt F) → (⟨S64, .i32⟩ : BufTy).Contents (Elt F) → (⟨S8192, .i32⟩ : BufTy).Contents (Elt F)) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 host operations of @cumsum_1 (main_call2), in order. -/
abbrev hostOps0_5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v13 : StableHlo.TRef sig ⟨S8192, .i32⟩) (.of main_call2_call0_v0 : StableHlo.TRef sig ⟨S_, .i32⟩) (.of main_v14 : StableHlo.TRef sig ⟨S8192, .i32⟩) (fun x v => Host.reduceWindow IntOp.addi ![8192] ![1] ![8191] ![0] x v reduceWindows_S8192_S8192_w8192s1p8191_0 h_S_) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub ..⟩
/-- 3 host operations of @main, in order. -/
abbrev hostOps0_6 : List (HloOp τ sig (Elt F)) :=
  [ StableHlo.nullary main_c_5 (constantI S_ 32 1#32),
    StableHlo.unary main_c_5 main_v15 (broadcastInDim S8192 ![] bcast_S_S8192 : (⟨S_, .i32⟩ : BufTy).Contents (Elt F) → (⟨S8192, .i32⟩ : BufTy).Contents (Elt F)),
    StableHlo.binary main_v14 main_v15 main_v16 (subi : (⟨S8192, .i32⟩ : BufTy).Contents (Elt F) → (⟨S8192, .i32⟩ : BufTy).Contents (Elt F) → (⟨S8192, .i32⟩ : BufTy).Contents (Elt F)) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub ..⟩
/-- 22 host operations of @_take (main_call3), in order. -/
abbrev hostOps0_7 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8192, .i32⟩) (broadcastInDim S8192 ![] bcast_S_S8192),
    StableHlo.TRef.binary (.of main_v16 : StableHlo.TRef sig ⟨S8192, .i32⟩) (.of main_call3_v0 : StableHlo.TRef sig ⟨S8192, .i32⟩) (.of main_call3_v1 : StableHlo.TRef sig ⟨S8192, .i1⟩) (cmpi .slt),
    StableHlo.TRef.nullary (.of main_call3_c_0 : StableHlo.TRef sig ⟨S_, .i32⟩) (constantI S_ 32 64#32),
    StableHlo.TRef.unary (.of main_call3_c_0 : StableHlo.TRef sig ⟨S_, .i32⟩) (.of main_call3_v2 : StableHlo.TRef sig ⟨S8192, .i32⟩) (broadcastInDim S8192 ![] bcast_S_S8192),
    StableHlo.TRef.binary (.of main_v16 : StableHlo.TRef sig ⟨S8192, .i32⟩) (.of main_call3_v2 : StableHlo.TRef sig ⟨S8192, .i32⟩) (.of main_call3_v3 : StableHlo.TRef sig ⟨S8192, .i32⟩) addi,
    StableHlo.TRef.ternary (.of main_call3_v1 : StableHlo.TRef sig ⟨S8192, .i1⟩) (.of main_call3_v3 : StableHlo.TRef sig ⟨S8192, .i32⟩) (.of main_v16 : StableHlo.TRef sig ⟨S8192, .i32⟩) (.of main_call3_v4 : StableHlo.TRef sig ⟨S8192, .i32⟩) select,
    StableHlo.TRef.unary main_call3_call0.v0 (.of main_call3_v5 : StableHlo.TRef sig ⟨S8192x1, .i32⟩) (broadcastInDim S8192x1 ![0] bcast_S8192_S8192x1_0),
    StableHlo.TRef.nullary (.of main_call3_c_1 : StableHlo.TRef sig ⟨S1, .i32⟩) (constantI S1 32 63#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S8192x1, .i32⟩) (broadcastInDim S8192x1 ![] bcast_S_S8192x1),
    StableHlo.TRef.binary (.of main_call3_v5 : StableHlo.TRef sig ⟨S8192x1, .i32⟩) (.of main_call3_v6 : StableHlo.TRef sig ⟨S8192x1, .i32⟩) (.of main_call3_v7 : StableHlo.TRef sig ⟨S8192x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S8192x1, .i32⟩) (broadcastInDim S8192x1 ![0, 1] bcast_S1x1_S8192x1_0_1),
    StableHlo.TRef.binary (.of main_call3_v5 : StableHlo.TRef sig ⟨S8192x1, .i32⟩) (.of main_call3_v9 : StableHlo.TRef sig ⟨S8192x1, .i32⟩) (.of main_call3_v10 : StableHlo.TRef sig ⟨S8192x1, .i1⟩) (cmpi .sle),
    StableHlo.TRef.binary (.of main_call3_v7 : StableHlo.TRef sig ⟨S8192x1, .i1⟩) (.of main_call3_v10 : StableHlo.TRef sig ⟨S8192x1, .i1⟩) (.of main_call3_v11 : StableHlo.TRef sig ⟨S8192x1, .i1⟩) andi,
    StableHlo.TRef.nullary (.of main_call3_c_3 : StableHlo.TRef sig ⟨S_, .i1⟩) (constantI S_ 1 1#1),
    StableHlo.TRef.binary (.of main_call3_v11 : StableHlo.TRef sig ⟨S8192x1, .i1⟩) (.of main_call3_c_3 : StableHlo.TRef sig ⟨S_, .i1⟩) (.of main_call3_v12 : StableHlo.TRef sig ⟨S8192, .i1⟩) (fun x v => Host.reduce IntOp.andi x v reducesTo_S8192x1_S8192_d1 h_S_),
    StableHlo.TRef.binary (.of main_v0 : StableHlo.TRef sig ⟨S64, .i32⟩) (.of main_call3_v5 : StableHlo.TRef sig ⟨S8192x1, .i32⟩) (.of main_call3_v13 : StableHlo.TRef sig ⟨S8192, .i32⟩) (fun x i => Host.gather gather_S64_S8192x1_S8192_n_0_n_n_0_1_1 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S8192, .i32⟩) (broadcastInDim S8192 ![] bcast_S_S8192),
    StableHlo.TRef.ternary (.of main_call3_v12 : StableHlo.TRef sig ⟨S8192, .i1⟩) (.of main_call3_v13 : StableHlo.TRef sig ⟨S8192, .i32⟩) (.of main_call3_v14 : StableHlo.TRef sig ⟨S8192, .i32⟩) (.of main_v17 : StableHlo.TRef sig ⟨S8192, .i32⟩) select ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
end Cert.ReferenceIdeal.RRun

end
-- ==== Proof.RRun.lean ====
/-
  The reference's host program as a list of its operations, and its run: every weakly fair execution terminates
  with every buffer at the operations' fold over the launch contents.  The first 52 operations compute the segment id
  of every row (`RStretch`); the 45 that follow slice each feature kind's weight block out of the weight table, view
  it as 64 square matrices, wrap and broadcast the segment ids, gather each row's matrix, contract it with the row's
  features over the input channel, and scale.
-/
import proofs.«107284_j21672404975706_1_alg».proof.Proof.Gen.ReferenceIdeal
import proofs.«107284_j21672404975706_1_alg».proof.Proof.RStretch
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem
open Idealize.ShloMosaic.StableHlo

variable {F : FTy → Type} [FloatOps F]

/-- The 45 operations after the segment ids, in order. -/
abbrev tailOps : List (HloOp τ sig (Elt F)) :=
  [ StableHlo.unary main_arg3 main_v18 ((extractStridedSlice S64x16384 ![0, 0] · slices_S64x21504_S64x16384_0_0) : (⟨S64x21504, .f32⟩ : BufTy).Contents (Elt F) → (⟨S64x16384, .f32⟩ : BufTy).Contents (Elt F)),
    StableHlo.reshape main_v18 main_v19 rfl shapeCasts_S64x16384_S64x128x128,
    StableHlo.nullary main_c_6 (constantI S_ 32 0#32),
    StableHlo.unary main_c_6 main_v20 (broadcastInDim S8192 ![] bcast_S_S8192 : (⟨S_, .i32⟩ : BufTy).Contents (Elt F) → (⟨S8192, .i32⟩ : BufTy).Contents (Elt F)),
    StableHlo.binary main_v17 main_v20 main_v21 (cmpi .slt : (⟨S8192, .i32⟩ : BufTy).Contents (Elt F) → (⟨S8192, .i32⟩ : BufTy).Contents (Elt F) → (⟨S8192, .i1⟩ : BufTy).Contents (Elt F)),
    StableHlo.nullary main_c_7 (constantI S_ 32 64#32),
    StableHlo.unary main_c_7 main_v22 (broadcastInDim S8192 ![] bcast_S_S8192 : (⟨S_, .i32⟩ : BufTy).Contents (Elt F) → (⟨S8192, .i32⟩ : BufTy).Contents (Elt F)),
    StableHlo.binary main_v17 main_v22 main_v23 (addi : (⟨S8192, .i32⟩ : BufTy).Contents (Elt F) → (⟨S8192, .i32⟩ : BufTy).Contents (Elt F) → (⟨S8192, .i32⟩ : BufTy).Contents (Elt F)),
    StableHlo.ternary main_v21 main_v23 main_v17 main_v24 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v24 main_v25 (broadcastInDim S8192x1 ![0] bcast_S8192_S8192x1_0 : (⟨S8192, .i32⟩ : BufTy).Contents (Elt F) → (⟨S8192x1, .i32⟩ : BufTy).Contents (Elt F)),
    StableHlo.binary main_v19 main_v25 main_v26 ((fun x i => Host.gather gather_S64x128x128_S8192x1_S8192x128x128_12_0_n_n_0_1_1128128 x i) : (⟨S64x128x128, .f32⟩ : BufTy).Contents (Elt F) → (⟨S8192x1, .i32⟩ : BufTy).Contents (Elt F) → (⟨S8192x128x128, .f32⟩ : BufTy).Contents (Elt F)),
    StableHlo.binary main_v26 main_arg0 main_v27 ((fun l r => Host.dotGeneral dot_S8192x128x128_S8192x128x1_S8192x128x1_1_1_2_2_0_0 none l r) : (⟨S8192x128x128, .f32⟩ : BufTy).Contents (Elt F) → (⟨S8192x128x1, .f32⟩ : BufTy).Contents (Elt F) → (⟨S8192x128x1, .f32⟩ : BufTy).Contents (Elt F)),
    StableHlo.nullary main_cst (constant S_ .f32 0x3C3504F3#32),
    StableHlo.unary main_cst main_v28 (broadcastInDim S8192x128x1 ![] bcast_S_S8192x128x1 : (⟨S_, .f32⟩ : BufTy).Contents (Elt F) → (⟨S8192x128x1, .f32⟩ : BufTy).Contents (Elt F)),
    StableHlo.binary main_v28 main_v27 main_v29 (mulf : (⟨S8192x128x1, .f32⟩ : BufTy).Contents (Elt F) → (⟨S8192x128x1, .f32⟩ : BufTy).Contents (Elt F) → (⟨S8192x128x1, .f32⟩ : BufTy).Contents (Elt F)),
    StableHlo.unary main_arg3 main_v30 ((extractStridedSlice S64x4096 ![0, 16384] · slices_S64x21504_S64x4096_0_16384) : (⟨S64x21504, .f32⟩ : BufTy).Contents (Elt F) → (⟨S64x4096, .f32⟩ : BufTy).Contents (Elt F)),
    StableHlo.reshape main_v30 main_v31 rfl shapeCasts_S64x4096_S64x64x64,
    StableHlo.nullary main_c_8 (constantI S_ 32 0#32),
    StableHlo.unary main_c_8 main_v32 (broadcastInDim S8192 ![] bcast_S_S8192 : (⟨S_, .i32⟩ : BufTy).Contents (Elt F) → (⟨S8192, .i32⟩ : BufTy).Contents (Elt F)),
    StableHlo.binary main_v17 main_v32 main_v33 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 64#32),
    StableHlo.unary main_c_9 main_v34 (broadcastInDim S8192 ![] bcast_S_S8192 : (⟨S_, .i32⟩ : BufTy).Contents (Elt F) → (⟨S8192, .i32⟩ : BufTy).Contents (Elt F)),
    StableHlo.binary main_v17 main_v34 main_v35 (addi : (⟨S8192, .i32⟩ : BufTy).Contents (Elt F) → (⟨S8192, .i32⟩ : BufTy).Contents (Elt F) → (⟨S8192, .i32⟩ : BufTy).Contents (Elt F)),
    StableHlo.ternary main_v33 main_v35 main_v17 main_v36 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v36 main_v37 (broadcastInDim S8192x1 ![0] bcast_S8192_S8192x1_0 : (⟨S8192, .i32⟩ : BufTy).Contents (Elt F) → (⟨S8192x1, .i32⟩ : BufTy).Contents (Elt F)),
    StableHlo.binary main_v31 main_v37 main_v38 ((fun x i => Host.gather gather_S64x64x64_S8192x1_S8192x64x64_12_0_n_n_0_1_16464 x i) : (⟨S64x64x64, .f32⟩ : BufTy).Contents (Elt F) → (⟨S8192x1, .i32⟩ : BufTy).Contents (Elt F) → (⟨S8192x64x64, .f32⟩ : BufTy).Contents (Elt F)),
    StableHlo.binary main_v38 main_arg1 main_v39 ((fun l r => Host.dotGeneral dot_S8192x64x64_S8192x64x3_S8192x64x3_1_1_2_2_0_0 none l r) : (⟨S8192x64x64, .f32⟩ : BufTy).Contents (Elt F) → (⟨S8192x64x3, .f32⟩ : BufTy).Contents (Elt F) → (⟨S8192x64x3, .f32⟩ : BufTy).Contents (Elt F)),
    StableHlo.nullary main_cst_10 (constant S_ .f32 0x3C800000#32),
    StableHlo.unary main_cst_10 main_v40 (broadcastInDim S8192x64x3 ![] bcast_S_S8192x64x3 : (⟨S_, .f32⟩ : BufTy).Contents (Elt F) → (⟨S8192x64x3, .f32⟩ : BufTy).Contents (Elt F)),
    StableHlo.binary main_v40 main_v39 main_v41 (mulf : (⟨S8192x64x3, .f32⟩ : BufTy).Contents (Elt F) → (⟨S8192x64x3, .f32⟩ : BufTy).Contents (Elt F) → (⟨S8192x64x3, .f32⟩ : BufTy).Contents (Elt F)),
    StableHlo.unary main_arg3 main_v42 ((extractStridedSlice S64x1024 ![0, 20480] · slices_S64x21504_S64x1024_0_20480) : (⟨S64x21504, .f32⟩ : BufTy).Contents (Elt F) → (⟨S64x1024, .f32⟩ : BufTy).Contents (Elt F)),
    StableHlo.reshape main_v42 main_v43 rfl shapeCasts_S64x1024_S64x32x32,
    StableHlo.nullary main_c_11 (constantI S_ 32 0#32),
    StableHlo.unary main_c_11 main_v44 (broadcastInDim S8192 ![] bcast_S_S8192 : (⟨S_, .i32⟩ : BufTy).Contents (Elt F) → (⟨S8192, .i32⟩ : BufTy).Contents (Elt F)),
    StableHlo.binary main_v17 main_v44 main_v45 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 64#32),
    StableHlo.unary main_c_12 main_v46 (broadcastInDim S8192 ![] bcast_S_S8192 : (⟨S_, .i32⟩ : BufTy).Contents (Elt F) → (⟨S8192, .i32⟩ : BufTy).Contents (Elt F)),
    StableHlo.binary main_v17 main_v46 main_v47 (addi : (⟨S8192, .i32⟩ : BufTy).Contents (Elt F) → (⟨S8192, .i32⟩ : BufTy).Contents (Elt F) → (⟨S8192, .i32⟩ : BufTy).Contents (Elt F)),
    StableHlo.ternary main_v45 main_v47 main_v17 main_v48 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v48 main_v49 (broadcastInDim S8192x1 ![0] bcast_S8192_S8192x1_0 : (⟨S8192, .i32⟩ : BufTy).Contents (Elt F) → (⟨S8192x1, .i32⟩ : BufTy).Contents (Elt F)),
    StableHlo.binary main_v43 main_v49 main_v50 ((fun x i => Host.gather gather_S64x32x32_S8192x1_S8192x32x32_12_0_n_n_0_1_13232 x i) : (⟨S64x32x32, .f32⟩ : BufTy).Contents (Elt F) → (⟨S8192x1, .i32⟩ : BufTy).Contents (Elt F) → (⟨S8192x32x32, .f32⟩ : BufTy).Contents (Elt F)),
    StableHlo.binary main_v50 main_arg2 main_v51 ((fun l r => Host.dotGeneral dot_S8192x32x32_S8192x32x5_S8192x32x5_1_1_2_2_0_0 none l r) : (⟨S8192x32x32, .f32⟩ : BufTy).Contents (Elt F) → (⟨S8192x32x5, .f32⟩ : BufTy).Contents (Elt F) → (⟨S8192x32x5, .f32⟩ : BufTy).Contents (Elt F)),
    StableHlo.nullary main_cst_13 (constant S_ .f32 0x3CB504F3#32),
    StableHlo.unary main_cst_13 main_v52 (broadcastInDim S8192x32x5 ![] bcast_S_S8192x32x5 : (⟨S_, .f32⟩ : BufTy).Contents (Elt F) → (⟨S8192x32x5, .f32⟩ : BufTy).Contents (Elt F)),
    StableHlo.binary main_v52 main_v51 main_v53 (mulf : (⟨S8192x32x5, .f32⟩ : BufTy).Contents (Elt F) → (⟨S8192x32x5, .f32⟩ : BufTy).Contents (Elt F) → (⟨S8192x32x5, .f32⟩ : BufTy).Contents (Elt F)) ]

theorem tailOps_sub : (tailOps : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub ..⟩

/-- @main's 97 operations, in order. -/
abbrev ops : List (HloOp τ sig (Elt F)) :=
  hostOps0 ++ hostOps0_1 ++ hostOps0_2 ++ hostOps0_3 ++ hostOps0_4 ++ hostOps0_5 ++ hostOps0_6 ++ hostOps0_7 ++ tailOps

/-- The fold over a concatenation is the fold over the second list after the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole list is the fold over the last 45 after the folds over the eight groups before. -/
theorem after_ops (V : Valuation τ sig (Elt F)) :
    after ops V = after tailOps (after hostOps0_7 (after hostOps0_6 (after hostOps0_5 (after hostOps0_4 (after hostOps0_3
      (after hostOps0_2 (after hostOps0_1 (after hostOps0 V)))))))) := by
  simp only [ops, after_app]

set_option maxRecDepth 8192 in
set_option maxHeartbeats 4000000 in
/-- @main is that straight line: its two windows in order, the outlined functions' definitions unfolded at their calls
    and the call records at their fields; the list's nine groups run one after the other are their concatenation run as
    one, and both sides are one chain of host steps once sequencing is reassociated. -/
theorem main_eq (c : Dev nD) : main (F := F) c = seq ops := by
  simp only [ops, seq_append, main, main_part0, main_part1, fn_roll_static.body, fn_cumsum.body, fn_cumsum_0.body,
    fn_cumsum_1.body, fn_cumsum_2.body, fn_take.body, fn_where.body, seq, bind_assoc, pure_bind]

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- A property of every member of two lists is one of every member of their concatenation. -/
theorem forall_append {α : Type} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.1 hx with h | h
  · exact h₁ x h
  · exact h₂ x h

/-- Every operation touches TensorCore references only: group by group. -/
theorem ops_sub : (ops : List (HloOp τ sig (Elt F))).Forall fun op => op.bufs ⊆ tcRefs τ sig :=
  forall_append (forall_append (forall_append (forall_append (forall_append (forall_append (forall_append (forall_append
    hostOps0_sub hostOps0_1_sub) hostOps0_2_sub) hostOps0_3_sub) hostOps0_4_sub) hostOps0_5_sub) hostOps0_6_sub)
    hostOps0_7_sub) tailOps_sub

/-! Every operation determines the contents of what it writes (none leaves a buffer arbitrary): by computation,
    operation by operation. -/
theorem hostOps0_fresh : (hostOps0 : List (HloOp τ sig (Elt F))).Forall fun op => op.fresh = ∅ :=
  rfl
theorem hostOps0_1_fresh : (hostOps0_1 : List (HloOp τ sig (Elt F))).Forall fun op => op.fresh = ∅ :=
  ⟨rfl, rfl, rfl⟩
theorem hostOps0_2_fresh : (hostOps0_2 : List (HloOp τ sig (Elt F))).Forall fun op => op.fresh = ∅ :=
  ⟨rfl, rfl, rfl, rfl⟩
theorem hostOps0_3_fresh : (hostOps0_3 : List (HloOp τ sig (Elt F))).Forall fun op => op.fresh = ∅ :=
  ⟨rfl, rfl, rfl⟩
theorem hostOps0_4_fresh : (hostOps0_4 : List (HloOp τ sig (Elt F))).Forall fun op => op.fresh = ∅ :=
  ⟨rfl, rfl, rfl, rfl, rfl, rfl, rfl, rfl, rfl, rfl, rfl, rfl, rfl⟩
theorem hostOps0_5_fresh : (hostOps0_5 : List (HloOp τ sig (Elt F))).Forall fun op => op.fresh = ∅ :=
  ⟨rfl, rfl, rfl⟩
theorem hostOps0_6_fresh : (hostOps0_6 : List (HloOp τ sig (Elt F))).Forall fun op => op.fresh = ∅ :=
  ⟨rfl, rfl, rfl⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem tailOps_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.1 (forall_append (forall_append (forall_append (forall_append (forall_append (forall_append
    (forall_append (forall_append hostOps0_fresh hostOps0_1_fresh) hostOps0_2_fresh) hostOps0_3_fresh) hostOps0_4_fresh)
    hostOps0_5_fresh) hostOps0_6_fresh) hostOps0_7_fresh) tailOps_fresh)

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.RChain.lean ====
/-
  The segment ids as the host program leaves them: the fold of the 52 operations that compute them, read at the
  buffer the lookup writes, is the common function `Cert.IxLin.segIds` of the counts; the argument arrays are not
  written on the way.
-/
import proofs.«107284_j21672404975706_1_alg».proof.Proof.RStretch
import proofs.«107284_j21672404975706_1_alg».proof.Proof.Seg
import Idealize.ShloMosaic.Lib.StableHlo.Run

noncomputable section

namespace Cert.ReferenceIdeal.RChain

open Cert.ReferenceIdeal Cert.ReferenceIdeal.Gen Cert.ReferenceIdeal.RRun Idealize.ShloMosaic Idealize.ShloMosaic.TcCoe Idealize.SL.Sem
open Idealize.ShloMosaic.StableHlo Cert.IxLin

variable (V : Valuation τ sig (Elt Ideal))

/-- The contents after the eight groups of operations that compute the segment ids. -/
abbrev afterChain : Valuation τ sig (Elt Ideal) :=
  after (hostOps0_7 (F := Ideal)) (after hostOps0_6 (after hostOps0_5 (after hostOps0_4 (after hostOps0_3
    (after hostOps0_2 (after hostOps0_1 (after hostOps0 V)))))))

/-! ## What each group writes

The buffers each of the eight groups writes, in order. A buffer outside a group's list holds after the group what it
held before it. -/

abbrev writes0 : List (Ref sig .tc) := [main_v0]
abbrev writes1 : List (Ref sig .tc) := [main_call0_v0, main_call0_v1, main_v1]
abbrev writes2 : List (Ref sig .tc) := [main_c, main_v2, main_c_0, main_v3]
abbrev writes3 : List (Ref sig .tc) := [main_call1_call0_c, main_call1_call0_v0, main_v4]
abbrev writes4 : List (Ref sig .tc) :=
  [main_c_1, main_v5, main_c_2, main_v6, main_v7, main_c_3, main_v8, main_v9, main_v10, main_v11, main_c_4, main_v12,
    main_v13]
abbrev writes5 : List (Ref sig .tc) := [main_call2_call0_c, main_call2_call0_v0, main_v14]
abbrev writes6 : List (Ref sig .tc) := [main_c_5, main_v15, main_v16]
abbrev writes7 : List (Ref sig .tc) :=
  [main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_c_4, main_call3_v14,
    main_v17]

section Keep

variable (W : Valuation τ sig (Elt Ideal)) {r : Ref sig .tc}

/-- Every operation of a group writes one buffer, and that buffer is in the group's list: so a reference outside
    the list keeps its contents across the group. -/
theorem keep0 (h : r ∉ writes0) : after (hostOps0 (F := Ideal)) W (Proc.devRef .tc r) = W (Proc.devRef .tc r) :=
  after_of_writes_sub (W := writes0) _ W (by
    simp only [hostOps0, writes0, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep1 (h : r ∉ writes1) : after (hostOps0_1 (F := Ideal)) W (Proc.devRef .tc r) = W (Proc.devRef .tc r) :=
  after_of_writes_sub (W := writes1) _ W (by
    simp only [hostOps0_1, writes1, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep2 (h : r ∉ writes2) : after (hostOps0_2 (F := Ideal)) W (Proc.devRef .tc r) = W (Proc.devRef .tc r) :=
  after_of_writes_sub (W := writes2) _ W (by
    simp only [hostOps0_2, writes2, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep3 (h : r ∉ writes3) : after (hostOps0_3 (F := Ideal)) W (Proc.devRef .tc r) = W (Proc.devRef .tc r) :=
  after_of_writes_sub (W := writes3) _ W (by
    simp only [hostOps0_3, writes3, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep4 (h : r ∉ writes4) : after (hostOps0_4 (F := Ideal)) W (Proc.devRef .tc r) = W (Proc.devRef .tc r) :=
  after_of_writes_sub (W := writes4) _ W (by
    simp only [hostOps0_4, writes4, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep5 (h : r ∉ writes5) : after (hostOps0_5 (F := Ideal)) W (Proc.devRef .tc r) = W (Proc.devRef .tc r) :=
  after_of_writes_sub (W := writes5) _ W (by
    simp only [hostOps0_5, writes5, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep6 (h : r ∉ writes6) : after (hostOps0_6 (F := Ideal)) W (Proc.devRef .tc r) = W (Proc.devRef .tc r) :=
  after_of_writes_sub (W := writes6) _ W (by
    simp only [hostOps0_6, writes6, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h
theorem keep7 (h : r ∉ writes7) : after (hostOps0_7 (F := Ideal)) W (Proc.devRef .tc r) = W (Proc.devRef .tc r) :=
  after_of_writes_sub (W := writes7) _ W (by
    simp only [hostOps0_7, writes7, List.Forall, nullary_writes, unary_writes, binary_writes, ternary_writes,
      List.map_cons, List.map_nil, List.toFinset_cons, List.toFinset_nil, Finset.singleton_subset_iff,
      Finset.mem_insert, Finset.mem_singleton, true_or, or_true, and_self, insert_empty_eq]) h

end Keep

/-- A buffer none of the eight groups writes holds at the end what it held at the start. -/
theorem chain_of_not_written {r : Ref sig .tc} (h0 : r ∉ writes0) (h1 : r ∉ writes1) (h2 : r ∉ writes2)
    (h3 : r ∉ writes3) (h4 : r ∉ writes4) (h5 : r ∉ writes5) (h6 : r ∉ writes6) (h7 : r ∉ writes7) :
    afterChain V (Proc.devRef .tc r) = V (Proc.devRef .tc r) := by
  unfold afterChain
  rw [keep7 _ h7, keep6 _ h6, keep5 _ h5, keep4 _ h4, keep3 _ h3, keep2 _ h2, keep1 _ h1, keep0 _ h0]

/-! ## What each group computes

Each group's last buffer as a function of the contents before the group: the fold over the group's operations read
at that buffer. The running sums, the scatters, the lookup and the concatenation are carried as whole terms: the
equations are between applications of them and never look inside. -/

section Groups

variable (W : Valuation τ sig (Elt Ideal))

attribute [local irreducible] Host.reduce Host.gather Host.scatter Host.reduceWindow concatenate
set_option maxRecDepth 8192 in
theorem g0 : after (hostOps0 (F := Ideal)) W (main_v0 : DevRef τ sig) = iotaInDim S64 32 0 := by
  simp only [after_cons, after_nil]
  rfl

set_option maxRecDepth 8192 in
theorem g1 : after (hostOps0_1 (F := Ideal)) W (main_v1 : DevRef τ sig)
    = concatenate S64 0 [⟨S1, extractStridedSlice S1 ![63] (W (main_arg4 : DevRef τ sig)) slices_S64_S1_63⟩,
        ⟨S63, extractStridedSlice S63 ![0] (W (main_arg4 : DevRef τ sig)) slices_S64_S63_0⟩] concatenates_S1_S63_S64_d0 := by
  simp only [after_cons, after_nil]
  rfl

set_option maxRecDepth 8192 in
theorem g2 : after (hostOps0_2 (F := Ideal)) W (main_v3 : DevRef τ sig)
    = Host.scatter scatter_S64_S1_S__n_0_0_0 (fun _ b => b) (W (main_v1 : DevRef τ sig))
        (broadcastInDim S1 ![] bcast_S_S1 (constantI S_ 32 0#32)) (constantI S_ 32 0#32) := by
  simp only [after_cons, after_nil]
  rfl

set_option maxRecDepth 8192 in
theorem g3 : after (hostOps0_3 (F := Ideal)) W (main_v4 : DevRef τ sig)
    = Host.reduceWindow IntOp.addi ![64] ![1] ![63] ![0] (W (main_v3 : DevRef τ sig))
        (broadcastInDim S_ ![] bcast_S_S_ (constantI S_ 32 0#32)) reduceWindows_S64_S64_w64s1p63_0 h_S_ := by
  simp only [after_cons, after_nil]
  rfl

set_option maxRecDepth 8192 in
theorem g4 : after (hostOps0_4 (F := Ideal)) W (main_v13 : DevRef τ sig)
    = Host.scatter scatter_S8192_S64x1_S64_n_0_0_1 IntOp.addi
        (broadcastInDim S8192 ![] bcast_S_S8192 (constantI S_ 32 0#32))
        (broadcastInDim S64x1 ![0] bcast_S64_S64x1_0
          (select (cmpi .slt (W (main_v4 : DevRef τ sig)) (broadcastInDim S64 ![] bcast_S_S64 (constantI S_ 32 0#32)))
            (addi (W (main_v4 : DevRef τ sig)) (broadcastInDim S64 ![] bcast_S_S64 (constantI S_ 32 8192#32)))
            (W (main_v4 : DevRef τ sig))))
        (broadcastInDim S64 ![] bcast_S_S64 (constantI S_ 32 1#32)) := by
  simp only [after_cons, after_nil]
  rfl

set_option maxRecDepth 8192 in
theorem g5 : after (hostOps0_5 (F := Ideal)) W (main_v14 : DevRef τ sig)
    = Host.reduceWindow IntOp.addi ![8192] ![1] ![8191] ![0] (W (main_v13 : DevRef τ sig))
        (broadcastInDim S_ ![] bcast_S_S_ (constantI S_ 32 0#32)) reduceWindows_S8192_S8192_w8192s1p8191_0 h_S_ := by
  simp only [after_cons, after_nil]
  rfl

set_option maxRecDepth 8192 in
theorem g6 : after (hostOps0_6 (F := Ideal)) W (main_v16 : DevRef τ sig)
    = subi (W (main_v14 : DevRef τ sig)) (broadcastInDim S8192 ![] bcast_S_S8192 (constantI S_ 32 1#32)) := by
  simp only [after_cons, after_nil]
  rfl

set_option maxRecDepth 8192 in
theorem g7 : after (hostOps0_7 (F := Ideal)) W (main_v17 : DevRef τ sig)
    = select
        (Host.reduce (axes := [1]) IntOp.andi
          (andi
            (cmpi .sge
              (broadcastInDim S8192x1 ![0] bcast_S8192_S8192x1_0
                (select (cmpi .slt (W (main_v16 : DevRef τ sig)) (broadcastInDim S8192 ![] bcast_S_S8192 (constantI S_ 32 0#32)))
                  (addi (W (main_v16 : DevRef τ sig)) (broadcastInDim S8192 ![] bcast_S_S8192 (constantI S_ 32 64#32)))
                  (W (main_v16 : DevRef τ sig))))
              (broadcastInDim S8192x1 ![] bcast_S_S8192x1 (constantI S_ 32 0#32)))
            (cmpi .sle
              (broadcastInDim S8192x1 ![0] bcast_S8192_S8192x1_0
                (select (cmpi .slt (W (main_v16 : DevRef τ sig)) (broadcastInDim S8192 ![] bcast_S_S8192 (constantI S_ 32 0#32)))
                  (addi (W (main_v16 : DevRef τ sig)) (broadcastInDim S8192 ![] bcast_S_S8192 (constantI S_ 32 64#32)))
                  (W (main_v16 : DevRef τ sig))))
              (broadcastInDim S8192x1 ![0, 1] bcast_S1x1_S8192x1_0_1
                (broadcastInDim S1x1 ![1] bcast_S1_S1x1_1 (constantI S1 32 63#32)))))
          (constantI S_ 1 1#1) reducesTo_S8192x1_S8192_d1 h_S_)
        (Host.gather gather_S64_S8192x1_S8192_n_0_n_n_0_1_1 (W (main_v0 : DevRef τ sig))
          (broadcastInDim S8192x1 ![0] bcast_S8192_S8192x1_0
            (select (cmpi .slt (W (main_v16 : DevRef τ sig)) (broadcastInDim S8192 ![] bcast_S_S8192 (constantI S_ 32 0#32)))
              (addi (W (main_v16 : DevRef τ sig)) (broadcastInDim S8192 ![] bcast_S_S8192 (constantI S_ 32 64#32)))
              (W (main_v16 : DevRef τ sig)))))
        (broadcastInDim S8192 ![] bcast_S_S8192 (constantI S_ 32 2147483648#32)) := by
  simp only [after_cons, after_nil]
  rfl

/-! ## The groups composed

The first row of every segment is what groups 1 to 3 leave (the rotation, the overwrite of the first entry, the
running sum); the markers are what group 4 adds to that; the ranks what groups 5 and 6 add (the running sum, less
one). Each equation joins the two sides by the previous one and the naming of the shapes and dimension numbers. -/

theorem starts_eq : after (hostOps0_3 (F := Ideal)) (after hostOps0_2 (after hostOps0_1 W)) (main_v4 : DevRef τ sig)
    = starts (W (main_arg4 : DevRef τ sig)) := by
  rw [g3, g2, g1]
  rfl

theorem marks_eq : after (hostOps0_4 (F := Ideal)) (after hostOps0_3 (after hostOps0_2 (after hostOps0_1 W)))
      (main_v13 : DevRef τ sig)
    = marks (starts (W (main_arg4 : DevRef τ sig))) := by
  rw [g4, starts_eq]
  rfl

theorem ranks_eq : after (hostOps0_6 (F := Ideal)) (after hostOps0_5 (after hostOps0_4 (after hostOps0_3
      (after hostOps0_2 (after hostOps0_1 W))))) (main_v16 : DevRef τ sig)
    = ranks (marks (starts (W (main_arg4 : DevRef τ sig)))) := by
  rw [g6, g5, marks_eq]
  rfl

/-- The table 0 … 63 is written by the first group and by no later one before the lookup reads it. -/
theorem table_eq : after (hostOps0_6 (F := Ideal)) (after hostOps0_5 (after hostOps0_4 (after hostOps0_3
      (after hostOps0_2 (after hostOps0_1 (after hostOps0 W)))))) (main_v0 : DevRef τ sig)
    = iotaInDim S64 32 0 := by
  rw [keep6 (r := main_v0) _ (by decide), keep5 (r := main_v0) _ (by decide), keep4 (r := main_v0) _ (by decide),
    keep3 (r := main_v0) _ (by decide), keep2 (r := main_v0) _ (by decide), keep1 (r := main_v0) _ (by decide), g0]

/-- The buffer the lookup writes holds the segment ids, as the common function of the counts. -/
theorem chain_v17 : afterChain V (main_v17 : DevRef τ sig) = segIds (V (main_arg4 : DevRef τ sig)) := by
  unfold afterChain
  rw [g7, ranks_eq, table_eq, keep0 (r := main_arg4) _ (by decide)]
  rfl

end Groups

/-- None of the 52 operations writes an argument array. -/
theorem chain_arg0 : afterChain V (main_arg0 : DevRef τ sig) = V (main_arg0 : DevRef τ sig) :=
  chain_of_not_written V (by decide) (by decide) (by decide) (by decide) (by decide) (by decide) (by decide) (by decide)
theorem chain_arg1 : afterChain V (main_arg1 : DevRef τ sig) = V (main_arg1 : DevRef τ sig) :=
  chain_of_not_written V (by decide) (by decide) (by decide) (by decide) (by decide) (by decide) (by decide) (by decide)
theorem chain_arg2 : afterChain V (main_arg2 : DevRef τ sig) = V (main_arg2 : DevRef τ sig) :=
  chain_of_not_written V (by decide) (by decide) (by decide) (by decide) (by decide) (by decide) (by decide) (by decide)
theorem chain_arg3 : afterChain V (main_arg3 : DevRef τ sig) = V (main_arg3 : DevRef τ sig) :=
  chain_of_not_written V (by decide) (by decide) (by decide) (by decide) (by decide) (by decide) (by decide) (by decide)
theorem chain_arg4 : afterChain V (main_arg4 : DevRef τ sig) = V (main_arg4 : DevRef τ sig) :=
  chain_of_not_written V (by decide) (by decide) (by decide) (by decide) (by decide) (by decide) (by decide) (by decide)

end Cert.ReferenceIdeal.RChain

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibColumns.lean ====
/-
  TWO HOST OPERATIONS THAT MOVE WHOLE COLUMNS of a rank-2 array, read at an index: the gather that picks columns
  (what x[:, idx] lowers to) and the overwriting scatter that puts columns back (what x.at[:, idx].set(u) lowers to).

  Both have scatter or start indices of shape [K, 1] with the index vector on axis 1: entry k carries one column
  number idx[k, 0]. The extents R, C, K and the index width w are variables; the dimension numbers are known only
  through equations on their lists.

  GATHER: operand [R, C], result [R, K], offset axes [0], collapsed slice axes [1], start index map [1], slice sizes
  [R, 1], no batching axes. The result at (r, k) is the operand at row r and column idx[k, 0], read signed and clamped
  into [0, C - 1].

  SCATTER (overwriting): operand [R, C], updates [R, K], update window axes [0], inserted window axes [1], scatter axes
  to operand axes [1]. When distinct k carry distinct column numbers, the result at (r, c) is the update at (r, k) for
  the k whose column number is c, and the operand at (r, c) when no k has column number c. The scatter is a left fold
  over all update elements; at a fixed target only the updates that land there matter, and they all carry one value.
-/
import proofs.«107284_j21672404975706_1_alg».proof.Proof.LibScatterSum

noncomputable section

namespace Idealize.ShloMosaic.Columns

open Idealize.ShloMosaic Idealize.ShloMosaic.ValueIdx

variable {α : Type} {R C K w : Nat}

/-! ## The gather: the start-indices index of a result index -/

/-- With start indices [N, 1], the index vector on axis 1 and one result batch axis a, the result index j reads its
    start index at [n, 0], n its coordinate on a. -/
theorem gather_siIdx_one {s t : Shape} {N : Nat} (d : GatherDims s (⟨2, ![N, 1]⟩ : Shape) t) (hiv : d.indexVectorDim = 1)
    (a : Fin t.rank) (ha : d.batchDims = [a]) (j : t.Idx) (c : Fin d.startIndexMap.length) (n : Fin N)
    (hn : (j a).val = n.val) : d.siIdx j c = ix2 n (0 : Fin 1) := by
  funext b
  refine Fin.ext ?_
  match b with
  | ⟨0, hb⟩ =>
    show (d.siIdx j c ⟨0, hb⟩).val = n.val
    unfold GatherDims.siIdx
    rw [dif_neg (by rw [hiv]; exact Nat.zero_ne_one)]
    unfold GatherDims.siCoord
    rw [← hn]
    exact congrArg (fun e => (j e).val) (ScatterSum.getElem_of_eq_singleton ha _ _)
  | ⟨1, hb⟩ =>
    have h1 : (d.siIdx j c ⟨1, hb⟩).val < 1 := (d.siIdx j c ⟨1, hb⟩).isLt
    show (d.siIdx j c ⟨1, hb⟩).val = 0
    omega

/-- THE COLUMN GATHER READ AT (r, k): the operand at row r and the clamped column number of entry k. -/
theorem gather_cols_apply (hC : 0 < C) (d : GatherDims (⟨2, ![R, C]⟩ : Shape) (⟨2, ![K, 1]⟩ : Shape) (⟨2, ![R, K]⟩ : Shape))
    (hod : d.offsetDims = [0]) (hcs : d.collapsedSliceDims = [1]) (hob : d.operandBatchingDims = [])
    (hsm : d.startIndexMap = [1]) (hiv : d.indexVectorDim = 1) (hss : d.sliceSizes 1 = 1)
    (x : (⟨2, ![R, C]⟩ : Shape).Idx → α) (idx : IVec (⟨2, ![K, 1]⟩ : Shape) w) (r : Fin R) (k : Fin K) :
    Host.gather d x idx (ix2 r k)
      = x (ix2 r ⟨min (idx (ix2 k (0 : Fin 1))).toInt.toNat (C - 1), by omega⟩) := by
  have h10 : ¬ (1 : Fin 2) = 0 := fun h => absurd (congrArg Fin.val h) Nat.one_ne_zero
  have h01 : ¬ (0 : Fin 2) = 1 := fun h => absurd (congrArg Fin.val h) Nat.zero_ne_one
  have hbd : d.batchDims = [1] := by
    show Shape.kept _ d.offsetDims = [1]
    rw [hod]; rfl
  have hnb : ∀ a : Fin 2, a ∉ d.operandBatchingDims := by
    intro a; rw [hob]; exact List.not_mem_nil
  have h0k : (0 : Fin 2) ∈ d.sKept := by
    rw [GatherDims.mem_sKept, hcs]
    exact ⟨fun h => h01 (List.mem_singleton.1 h), hnb 0⟩
  have h1k : (1 : Fin 2) ∉ d.sKept := by
    rw [GatherDims.mem_sKept, hcs]
    exact fun h => h.1 (List.mem_singleton.2 rfl)
  have h0m : (0 : Fin 2) ∉ d.startIndexMap := by
    rw [hsm]; exact fun h => h01 (List.mem_singleton.1 h)
  have h1m : (1 : Fin 2) ∈ d.startIndexMap := by
    rw [hsm]; exact List.mem_singleton.2 rfl
  unfold Host.gather
  congr 1
  funext a
  refine Fin.ext ?_
  match a with
  | ⟨0, _⟩ =>
    show d.start (ix2 r k) idx 0 + d.batchCoord (ix2 r k) 0 + d.offCoord (ix2 r k) 0 = r.val
    rw [GatherDims.batchCoord_eq_zero _ _ _ (hnb 0)]
    have hs : d.start (ix2 r k) idx 0 = 0 := by
      unfold GatherDims.start
      rw [dif_neg h0m]
    have ho : d.offCoord (ix2 r k) 0 = r.val := by
      unfold GatherDims.offCoord
      rw [dif_pos h0k]
      exact congrArg (fun e => ((ix2 r k : (⟨2, ![R, K]⟩ : Shape).Idx) e).val)
        (ScatterSum.getElem_of_eq_singleton hod _ _)
    rw [hs, ho]
    omega
  | ⟨1, _⟩ =>
    show d.start (ix2 r k) idx 1 + d.batchCoord (ix2 r k) 1 + d.offCoord (ix2 r k) 1
      = min (idx (ix2 k (0 : Fin 1))).toInt.toNat (C - 1)
    rw [GatherDims.batchCoord_eq_zero _ _ _ (hnb 1), GatherDims.offCoord_eq_zero _ _ _ h1k]
    show d.start (ix2 r k) idx 1 = _
    unfold GatherDims.start
    rw [dif_pos h1m, gather_siIdx_one d hiv 1 hbd (ix2 r k) _ k rfl, hss]
    rfl

/-! ## The overwriting scatter as a fold, read at one target -/

section Fold
variable {s si u : Shape} (d : ScatterDims s si u) (f : α → α → α) (idx : IVec si w) (upd : u.Idx → α)

/-- Updates that do not land at the target leave it as it was. -/
theorem foldl_apply_of_not_landing (l : List (Fin u.numel)) (r0 : s.Idx → α) (t : s.Idx)
    (h : ∀ n ∈ l, d.resultIdx? (u.rowMajor.symm n) idx ≠ some t) :
    l.foldl (fun r n =>
        match d.resultIdx? (u.rowMajor.symm n) idx with
        | some i => fun i' => if i' = i then f (r i) (upd (u.rowMajor.symm n)) else r i'
        | none => r) r0 t = r0 t := by
  induction l generalizing r0 with
  | nil => rfl
  | cons n l ih =>
    rw [List.foldl_cons]
    refine (ih _ fun m hm => h m (List.mem_cons_of_mem _ hm)).trans ?_
    have hn := h n List.mem_cons_self
    generalize d.resultIdx? (u.rowMajor.symm n) idx = o at hn
    cases o with
    | none => rfl
    | some i =>
      show (if t = i then _ else r0 t) = r0 t
      rw [if_neg fun e => hn (by rw [e])]

/-- When some update lands at the target and every update that lands there carries the value v, an overwriting fold
    leaves v there. -/
theorem foldl_apply_of_landing (hf : ∀ a b, f a b = b) (l : List (Fin u.numel)) (r0 : s.Idx → α) (t : s.Idx) (v : α)
    (hex : ∃ n ∈ l, d.resultIdx? (u.rowMajor.symm n) idx = some t)
    (hv : ∀ n ∈ l, d.resultIdx? (u.rowMajor.symm n) idx = some t → upd (u.rowMajor.symm n) = v) :
    l.foldl (fun r n =>
        match d.resultIdx? (u.rowMajor.symm n) idx with
        | some i => fun i' => if i' = i then f (r i) (upd (u.rowMajor.symm n)) else r i'
        | none => r) r0 t = v := by
  induction l generalizing r0 with
  | nil =>
    obtain ⟨n, hn, _⟩ := hex
    exact absurd hn List.not_mem_nil
  | cons n l ih =>
    rw [List.foldl_cons]
    by_cases hlater : ∃ m ∈ l, d.resultIdx? (u.rowMajor.symm m) idx = some t
    · exact ih _ hlater fun m hm => hv m (List.mem_cons_of_mem _ hm)
    · refine (foldl_apply_of_not_landing d f idx upd l _ t fun m hm e => hlater ⟨m, hm, e⟩).trans ?_
      have hn : d.resultIdx? (u.rowMajor.symm n) idx = some t := by
        obtain ⟨m, hm, e⟩ := hex
        rcases List.mem_cons.1 hm with rfl | hm'
        · exact e
        · exact absurd ⟨m, hm', e⟩ hlater
      have hvn := hv n List.mem_cons_self hn
      generalize d.resultIdx? (u.rowMajor.symm n) idx = o at hn
      cases o with
      | none => exact absurd hn (by simp)
      | some i =>
        obtain rfl : i = t := Option.some.inj hn
        show (if i = i then f (r0 i) (upd (u.rowMajor.symm n)) else r0 i) = v
        rw [if_pos rfl, hf, hvn]

end Fold

/-! ## The column pattern: where an update element lands -/

/-- Update element (r', k) lands at (r, c) exactly when entry k's column number is c and the rows agree. -/
theorem resultIdx_cols (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (idx : IVec (⟨2, ![K, 1]⟩ : Shape) w) (r' : Fin R) (k : Fin K) (r : Fin R)
    (c : Fin C) :
    d.resultIdx? (ix2 r' k) idx = some (ix2 r c) ↔ ((idx (ix2 k (0 : Fin 1))).toInt = (c.val : Int) ∧ r' = r) := by
  have h10 : ¬ (1 : Fin 2) = 0 := fun h => absurd (congrArg Fin.val h) Nat.one_ne_zero
  have h01 : ¬ (0 : Fin 2) = 1 := fun h => absurd (congrArg Fin.val h) Nat.zero_ne_one
  have huS : d.uScatter = [1] := by
    show Shape.kept _ d.updateWindowDims = [1]
    rw [huw]; rfl
  have h1mem : (1 : Fin 2) ∈ d.scatterDimsToOperandDims := by rw [hsd]; exact List.mem_singleton.2 rfl
  have h0nmem : (0 : Fin 2) ∉ d.scatterDimsToOperandDims := by
    rw [hsd]; exact fun h => h01 (List.mem_singleton.1 h)
  have h1k : (1 : Fin 2) ∉ d.sKept := by
    show _ ∉ Shape.kept _ d.insertedWindowDims
    rw [hiw, ScatterSum.mem_kept]; exact fun h => h (List.mem_singleton.2 rfl)
  have h0k : (0 : Fin 2) ∈ d.sKept := by
    show _ ∈ Shape.kept _ d.insertedWindowDims
    rw [hiw, ScatterSum.mem_kept]; exact fun h => h01 (List.mem_singleton.1 h)
  have hs1 : d.start (ix2 r' k) idx 1 = (idx (ix2 k (0 : Fin 1))).toInt := by
    rw [ScatterSum.start_of_mem d _ _ _ h1mem, ScatterSum.siIdx_one d hiv 1 huS (ix2 r' k) _ k rfl]
  have hs0 : d.start (ix2 r' k) idx 0 = 0 := ScatterSum.start_of_not_mem d _ _ _ h0nmem
  have hw1 : d.window (ix2 r' k) 1 = 0 := ScatterSum.window_of_not_mem d _ _ h1k
  have hw0 : d.window (ix2 r' k) 0 = r'.val := ScatterSum.window_of_singleton d _ _ h0k 0 huw
  rw [ScatterSum.resultIdx?_eq_some_iff]
  constructor
  · intro h
    have a0 : d.start (ix2 r' k) idx 0 + (d.window (ix2 r' k) 0 : Int) = (r.val : Int) := h 0
    have a1 : d.start (ix2 r' k) idx 1 + (d.window (ix2 r' k) 1 : Int) = (c.val : Int) := h 1
    rw [hs0, hw0] at a0
    rw [hs1, hw1] at a1
    refine ⟨by omega, Fin.ext (by omega)⟩
  · rintro ⟨h1, rfl⟩ a
    match a with
    | ⟨0, _⟩ =>
      show d.start (ix2 r' k) idx 0 + (d.window (ix2 r' k) 0 : Int) = (r'.val : Int)
      rw [hs0, hw0]; omega
    | ⟨1, _⟩ =>
      show d.start (ix2 r' k) idx 1 + (d.window (ix2 r' k) 1 : Int) = (c.val : Int)
      rw [hs1, hw1, h1]; omega

/-- THE OVERWRITING COLUMN SCATTER READ AT (r, c), at a column some entry k names: the update at (r, k). -/
theorem scatter_set_cols_apply_of_eq (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (x : (⟨2, ![R, C]⟩ : Shape).Idx → α) (idx : IVec (⟨2, ![K, 1]⟩ : Shape) w)
    (upd : (⟨2, ![R, K]⟩ : Shape).Idx → α)
    (hinj : ∀ k k' : Fin K, (idx (ix2 k (0 : Fin 1))).toInt = (idx (ix2 k' (0 : Fin 1))).toInt → k = k')
    (r : Fin R) (c : Fin C) (k : Fin K) (hk : (idx (ix2 k (0 : Fin 1))).toInt = (c.val : Int)) :
    Host.scatter d (fun _ b => b) x idx upd (ix2 r c) = upd (ix2 r k) := by
  unfold Host.scatter
  refine foldl_apply_of_landing d (fun _ b => b) idx upd (fun _ _ => rfl) _ x (ix2 r c) _ ?_ ?_
  · refine ⟨(⟨2, ![R, K]⟩ : Shape).rowMajor (ix2 r k), List.mem_finRange _, ?_⟩
    rw [Equiv.symm_apply_apply]
    exact (resultIdx_cols d huw hiw hsd hiv idx r k r c).2 ⟨hk, rfl⟩
  · intro n _ hn
    obtain ⟨r', k', e⟩ : ∃ r' k', (⟨2, ![R, K]⟩ : Shape).rowMajor.symm n = ix2 r' k' := ⟨_, _, eq_ix2 _⟩
    rw [e] at hn ⊢
    obtain ⟨hc, rfl⟩ := (resultIdx_cols d huw hiw hsd hiv idx r' k' r c).1 hn
    obtain rfl : k' = k := hinj k' k (hc.trans hk.symm)
    rfl

/-- THE OVERWRITING COLUMN SCATTER READ AT (r, c), at a column no entry names: the operand there. -/
theorem scatter_set_cols_apply_of_ne (d : ScatterDims (⟨2, ![R, C]⟩ : Shape) (⟨2, ![K, 1]⟩ : Shape) (⟨2, ![R, K]⟩ : Shape))
    (huw : d.updateWindowDims = [0]) (hiw : d.insertedWindowDims = [1]) (hsd : d.scatterDimsToOperandDims = [1])
    (hiv : d.indexVectorDim = 1) (x : (⟨2, ![R, C]⟩ : Shape).Idx → α) (idx : IVec (⟨2, ![K, 1]⟩ : Shape) w)
    (upd : (⟨2, ![R, K]⟩ : Shape).Idx → α) (r : Fin R) (c : Fin C)
    (hk : ∀ k : Fin K, (idx (ix2 k (0 : Fin 1))).toInt ≠ (c.val : Int)) :
    Host.scatter d (fun _ b => b) x idx upd (ix2 r c) = x (ix2 r c) := by
  unfold Host.scatter
  refine foldl_apply_of_not_landing d (fun _ b => b) idx upd _ x (ix2 r c) ?_
  intro n _ hn
  obtain ⟨r', k', e⟩ : ∃ r' k', (⟨2, ![R, K]⟩ : Shape).rowMajor.symm n = ix2 r' k' := ⟨_, _, eq_ix2 _⟩
  rw [e] at hn
  exact hk k' ((resultIdx_cols d huw hiw hsd hiv idx r' k' r c).1 hn).1

end Idealize.ShloMosaic.Columns

end
-- ==== Proof.LibRowGather.lean ====
/-
  THE HOST GATHER THAT PICKS WHOLE MATRICES out of a stack of them, read at an index (what t[idx] lowers to for a
  rank-3 table t and a vector of indices).

  Operand [E, A, B], start indices [N, 1] with the index vector on axis 1, result [N, A, B]; offset axes [1, 2],
  collapsed slice axes [0], start index map [0], slice sizes [1, A, B], no batching axes.  Entry n carries one
  matrix number idx[n, 0]; the result at (n, a, b) is the operand at (idx[n, 0], a, b), the matrix number read
  signed and clamped into [0, E - 1].

  The extents and the index width are variables; the dimension numbers are known only through equations on their
  lists.
-/
import proofs.«107284_j21672404975706_1_alg».proof.Proof.LibColumns

noncomputable section

namespace Idealize.ShloMosaic.RowGather

open Idealize.ShloMosaic Idealize.ShloMosaic.ValueIdx

variable {α : Type} {E A B N w : Nat}

/-- Equal lists have equal entries at equal positions. -/
theorem getElem_of_eq {β : Type*} {l l' : List β} (h : l = l') {k k' : Nat} (hk : k = k') (hlt : k < l.length)
    (hlt' : k' < l'.length) : l[k] = l'[k'] := by
  subst h; subst hk; rfl

/-- THE MATRIX GATHER READ AT (n, a, b): the operand at the clamped matrix number of entry n, and (a, b). -/
theorem gather_rows_apply (hE : 0 < E)
    (d : GatherDims (⟨3, ![E, A, B]⟩ : Shape) (⟨2, ![N, 1]⟩ : Shape) (⟨3, ![N, A, B]⟩ : Shape))
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![E, A, B]⟩ : Shape).Idx → α) (idx : IVec (⟨2, ![N, 1]⟩ : Shape) w) (n : Fin N) (a : Fin A) (b : Fin B) :
    Host.gather d x idx (ix3 n a b)
      = x (ix3 ⟨min (idx (ix2 n (0 : Fin 1))).toInt.toNat (E - 1), by omega⟩ a b) := by
  have h10 : ¬ (1 : Fin 3) = 0 := by decide
  have h20 : ¬ (2 : Fin 3) = 0 := by decide
  -- the one result batch axis is axis 0; the operand's kept axes are 1 and 2
  have hbd : d.batchDims = [0] := by
    show Shape.kept _ d.offsetDims = [0]
    rw [hod]; rfl
  have hsk : d.sKept = [1, 2] := by
    show Shape.kept _ (d.collapsedSliceDims ++ d.operandBatchingDims) = [1, 2]
    rw [hcs, hob]; rfl
  have hnb : ∀ c : Fin 3, c ∉ d.operandBatchingDims := by
    intro c; rw [hob]; exact List.not_mem_nil
  have h0k : (0 : Fin 3) ∉ d.sKept := by
    rw [GatherDims.mem_sKept, hcs]
    exact fun h => h.1 (List.mem_singleton.2 rfl)
  have h1k : (1 : Fin 3) ∈ d.sKept := by
    rw [GatherDims.mem_sKept, hcs]
    exact ⟨fun h => h10 (List.mem_singleton.1 h), hnb 1⟩
  have h2k : (2 : Fin 3) ∈ d.sKept := by
    rw [GatherDims.mem_sKept, hcs]
    exact ⟨fun h => h20 (List.mem_singleton.1 h), hnb 2⟩
  have h0m : (0 : Fin 3) ∈ d.startIndexMap := by
    rw [hsm]; exact List.mem_singleton.2 rfl
  have h1m : (1 : Fin 3) ∉ d.startIndexMap := by
    rw [hsm]; exact fun h => h10 (List.mem_singleton.1 h)
  have h2m : (2 : Fin 3) ∉ d.startIndexMap := by
    rw [hsm]; exact fun h => h20 (List.mem_singleton.1 h)
  have hi1 : d.sKept.idxOf (1 : Fin 3) = 0 := by rw [hsk]; rfl
  have hi2 : d.sKept.idxOf (2 : Fin 3) = 1 := by rw [hsk]; rfl
  unfold Host.gather
  congr 1
  funext ax
  refine Fin.ext ?_
  match ax with
  | ⟨0, _⟩ =>
    show d.start (ix3 n a b) idx 0 + d.batchCoord (ix3 n a b) 0 + d.offCoord (ix3 n a b) 0
      = min (idx (ix2 n (0 : Fin 1))).toInt.toNat (E - 1)
    rw [GatherDims.batchCoord_eq_zero _ _ _ (hnb 0), GatherDims.offCoord_eq_zero _ _ _ h0k]
    show d.start (ix3 n a b) idx 0 = _
    unfold GatherDims.start
    rw [dif_pos h0m, Columns.gather_siIdx_one d hiv 0 hbd (ix3 n a b) _ n rfl, hss]
    rfl
  | ⟨1, _⟩ =>
    show d.start (ix3 n a b) idx 1 + d.batchCoord (ix3 n a b) 1 + d.offCoord (ix3 n a b) 1 = a.val
    rw [GatherDims.batchCoord_eq_zero _ _ _ (hnb 1)]
    have hs : d.start (ix3 n a b) idx 1 = 0 := by
      unfold GatherDims.start
      rw [dif_neg h1m]
    have ho : d.offCoord (ix3 n a b) 1 = a.val := by
      unfold GatherDims.offCoord
      rw [dif_pos h1k]
      exact congrArg (fun e => ((ix3 n a b : (⟨3, ![N, A, B]⟩ : Shape).Idx) e).val)
        (getElem_of_eq hod hi1 _ (Nat.zero_lt_succ 1))
    rw [hs, ho]
    omega
  | ⟨2, _⟩ =>
    show d.start (ix3 n a b) idx 2 + d.batchCoord (ix3 n a b) 2 + d.offCoord (ix3 n a b) 2 = b.val
    rw [GatherDims.batchCoord_eq_zero _ _ _ (hnb 2)]
    have hs : d.start (ix3 n a b) idx 2 = 0 := by
      unfold GatherDims.start
      rw [dif_neg h2m]
    have ho : d.offCoord (ix3 n a b) 2 = b.val := by
      unfold GatherDims.offCoord
      rw [dif_pos h2k]
      exact congrArg (fun e => ((ix3 n a b : (⟨3, ![N, A, B]⟩ : Shape).Idx) e).val)
        (getElem_of_eq hod hi2 _ (Nat.lt_succ_self 1))
    rw [hs, ho]
    omega

end Idealize.ShloMosaic.RowGather

end
-- ==== Proof.RVal.lean ====
/-
  The idealized reference's three results as the common functions of the launch arrays.

  After the segment ids are in place the reference runs 45 more operations, fifteen per feature kind: it slices the
  kind's block of columns out of the weight table, views it as 64 square matrices, wraps the segment ids by 64 where
  negative and turns them into a column, gathers each row's matrix, contracts it with the row's features over the
  input channel, and scales by the kind's coefficient.

  Read at an index (n, o, i): the scale is a splat; the contraction with batch axis n is the sum over the input
  channel m of gathered (n, m, o) times x (n, m, i); the gathered matrix of row n is the matrix numbered by the
  segment id of n (an id below 64 is not negative, so the wrap leaves it, and the clamp into [0, 63] leaves it);
  matrix e at (m, o) is, by the row-major view and the slice's offset, the weight table at row e, column
  offset + m · mul + o.  That is the common function of Spec, term by term.
-/
import proofs.«107284_j21672404975706_1_alg».proof.Proof.Gen.ReferenceIdeal
import proofs.«107284_j21672404975706_1_alg».proof.Proof.Spec
import proofs.«107284_j21672404975706_1_alg».proof.Proof.SegRange
import proofs.«107284_j21672404975706_1_alg».proof.Proof.RRun
import proofs.«107284_j21672404975706_1_alg».proof.Proof.RChain
import proofs.«107284_j21672404975706_1_alg».proof.Proof.LibDots
import proofs.«107284_j21672404975706_1_alg».proof.Proof.LibRowGather
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem
open Idealize.ShloMosaic.ValueIdx Idealize.ShloMosaic.StableHlo Cert.IxLin Cert.ReferenceIdeal.RRun

open scoped BigOperators

/-! ## The wrapped segment ids as a column -/

/-- The segment ids wrapped by 64 where negative, viewed as a column: what each of the three gathers reads its matrix numbers from. -/
def idCol (sid : IVec S8192 32) : IVec S8192x1 32 :=
  broadcastInDim S8192x1 ![0] bcast_S8192_S8192x1_0
    (select (cmpi .slt sid (broadcastInDim S8192 ![] bcast_S_S8192 (constantI S_ 32 0#32)))
      (addi sid (broadcastInDim S8192 ![] bcast_S_S8192 (constantI S_ 32 64#32))) sid)

/-- A segment id below 64 is not negative as a signed word, so the wrap leaves it: the column at row n is the id of row n. -/
theorem idCol_apply (sid : IVec S8192 32) (n : Fin 8192) (h : (sid (ix1 n)).toNat < 64) :
    idCol sid (ix2 n (0 : Fin 1)) = sid (ix1 n) := by
  unfold idCol
  rw [broadcastInDim_apply (![0] : Fin 1 → Fin 2) bcast_S8192_S8192x1_0 _ (ix2 n (0 : Fin 1)) (ix1 n)
    (fun a => match a with | ⟨0, _⟩ => rfl)]
  show Scalar.select (IntOp.cmpi .slt (sid (ix1 n)) 0#32) (IntOp.addi (sid (ix1 n)) 64#32) (sid (ix1 n)) = sid (ix1 n)
  have h0 : IntOp.cmpi .slt (sid (ix1 n)) 0#32 = 0#1 :=
    eq_zero_of_ne_one fun h1 => by
      have h2 := (Predicate.slt_iff_toNat (a := sid (ix1 n)) (b := 0#32) (by omega) (by decide)).mp h1
      simp at h2
  rw [h0, select_zero]

/-- The signed reading of the column at row n, clamped into [0, 63], is the weight row of row n. -/
theorem idCol_row (sid : IVec S8192 32) (n : Fin 8192) (h : (sid (ix1 n)).toNat < 64)
    (hlt : min (idCol sid (ix2 n (0 : Fin 1))).toInt.toNat (64 - 1) < 64) :
    (⟨min (idCol sid (ix2 n (0 : Fin 1))).toInt.toNat (64 - 1), hlt⟩ : Fin 64) = row sid n := by
  apply Fin.ext
  show min (idCol sid (ix2 n (0 : Fin 1))).toInt.toNat (64 - 1) = (sid (ix1 n)).toNat % 64
  rw [idCol_apply sid n h, Predicate.toInt_eq_toNat_of_lt (by omega), Int.toNat_natCast]
  omega

/-! ## Feature kind 0: 128 channels, one component -/

/-- The weight table's columns [0, 16384) viewed as 64 matrices of 128 × 128. -/
def mat0 (w : FVec Ideal S64x21504 .f32) : FVec Ideal S64x128x128 .f32 :=
  shapeCast S64x128x128 (extractStridedSlice S64x16384 ![0, 0] w slices_S64x21504_S64x16384_0_0) shapeCasts_S64x16384_S64x128x128

/-- Matrix e at (m, o) is the table at row e, column m · 128 + o: the view keeps the row-major position and the slice starts at
    column 0. -/
theorem mat0_apply (w : FVec Ideal S64x21504 .f32) (e : Fin 64) (m o : Fin 128) :
    mat0 w (ix3 e m o) = w (ix2 e (col0 m o)) := by
  unfold mat0
  have hm := m.isLt
  have ho := o.isLt
  rw [shapeCast_apply _ shapeCasts_S64x16384_S64x128x128 (ix3 e m o) (ix2 e (⟨m.val * 128 + o.val, by omega⟩ : Fin 16384))
    (by rw [Shape.rowMajor_val_two, Shape.rowMajor_val_three]
        show e.val * 16384 + (m.val * 128 + o.val) = (e.val * 128 + m.val) * 128 + o.val
        omega)]
  exact extractStridedSlice_apply _ w slices_S64x21504_S64x16384_0_0 _ (ix2 e (col0 m o))
    (fun a => match a with
      | ⟨0, _⟩ => by show e.val = 0 + e.val; omega
      | ⟨1, _⟩ => by show m.val * 128 + o.val = 0 + (m.val * 128 + o.val); omega)

/-- The reference's first result as a function of the features, the weight table and the segment ids. -/
def val0 (x : FVec Ideal S8192x128x1 .f32) (w : FVec Ideal S64x21504 .f32) (sid : IVec S8192 32) : FVec Ideal S8192x128x1 .f32 :=
  mulf (broadcastInDim S8192x128x1 ![] bcast_S_S8192x128x1 (constant S_ .f32 0x3C3504F3#32))
    (Host.dotGeneral dot_S8192x128x128_S8192x128x1_S8192x128x1_1_1_2_2_0_0 none
      (Host.gather gather_S64x128x128_S8192x1_S8192x128x128_12_0_n_n_0_1_1128128 (mat0 w) (idCol sid)) x)

/-- Index by index it is the common function: the gathered matrix of row n is the block of the weight row of n's segment, and the
    contraction runs over the input channel. -/
theorem val0_eq (x : FVec Ideal S8192x128x1 .f32) (w : FVec Ideal S64x21504 .f32) (sid : IVec S8192 32)
    (hs : ∀ n : Fin 8192, (sid (ix1 n)).toNat < 64) : val0 x w sid = out0 x w sid := by
  funext j
  obtain ⟨n, o, i, rfl⟩ : ∃ (n : Fin 8192) (o : Fin 128) (i : Fin 1), j = ix3 n o i := ⟨_, _, _, eq_ix3 j⟩
  unfold val0 out0
  rw [mulf_apply]
  simp only [Host.dotGeneral]
  rw [Ideal.dotGeneral_apply, Dots.sum_batch _ rfl rfl rfl rfl rfl rfl]
  refine congrArg₂ (· * ·) rfl (Finset.sum_congr rfl fun m _ => ?_)
  show Host.gather gather_S64x128x128_S8192x1_S8192x128x128_12_0_n_n_0_1_1128128 (mat0 w) (idCol sid) (ix3 n m o) * x (ix3 n m i)
    = w (ix2 (row sid n) (col0 m o)) * x (ix3 n m i)
  rw [RowGather.gather_rows_apply (by decide) _ rfl rfl rfl rfl rfl rfl rfl, mat0_apply, idCol_row sid n (hs n)]

/-- The fold of the last 45 operations reads, at the first result's buffer, that function of the contents before them. -/
theorem tail_v29 (W : Valuation τ sig (Elt Ideal)) :
    after (tailOps (F := Ideal)) W (main_v29 : DevRef τ sig)
      = val0 (W (main_arg0 : DevRef τ sig)) (W (main_arg3 : DevRef τ sig)) (W (main_v17 : DevRef τ sig)) := by
  after_results_simp
  rfl

/-! ## Feature kind 1: 64 channels, three components -/

/-- The weight table's columns [16384, 20480) viewed as 64 matrices of 64 × 64. -/
def mat1 (w : FVec Ideal S64x21504 .f32) : FVec Ideal S64x64x64 .f32 :=
  shapeCast S64x64x64 (extractStridedSlice S64x4096 ![0, 16384] w slices_S64x21504_S64x4096_0_16384) shapeCasts_S64x4096_S64x64x64

/-- Matrix e at (m, o) is the table at row e, column 16384 + m · 64 + o: the view keeps the row-major position and the slice starts at
    column 16384. -/
theorem mat1_apply (w : FVec Ideal S64x21504 .f32) (e : Fin 64) (m o : Fin 64) :
    mat1 w (ix3 e m o) = w (ix2 e (col1 m o)) := by
  unfold mat1
  have hm := m.isLt
  have ho := o.isLt
  rw [shapeCast_apply _ shapeCasts_S64x4096_S64x64x64 (ix3 e m o) (ix2 e (⟨m.val * 64 + o.val, by omega⟩ : Fin 4096))
    (by rw [Shape.rowMajor_val_two, Shape.rowMajor_val_three]
        show e.val * 4096 + (m.val * 64 + o.val) = (e.val * 64 + m.val) * 64 + o.val
        omega)]
  exact extractStridedSlice_apply _ w slices_S64x21504_S64x4096_0_16384 _ (ix2 e (col1 m o))
    (fun a => match a with
      | ⟨0, _⟩ => by show e.val = 0 + e.val; omega
      | ⟨1, _⟩ => by show 16384 + (m.val * 64 + o.val) = 16384 + (m.val * 64 + o.val); omega)

/-- The reference's second result as a function of the features, the weight table and the segment ids. -/
def val1 (x : FVec Ideal S8192x64x3 .f32) (w : FVec Ideal S64x21504 .f32) (sid : IVec S8192 32) : FVec Ideal S8192x64x3 .f32 :=
  mulf (broadcastInDim S8192x64x3 ![] bcast_S_S8192x64x3 (constant S_ .f32 0x3C800000#32))
    (Host.dotGeneral dot_S8192x64x64_S8192x64x3_S8192x64x3_1_1_2_2_0_0 none
      (Host.gather gather_S64x64x64_S8192x1_S8192x64x64_12_0_n_n_0_1_16464 (mat1 w) (idCol sid)) x)

/-- Index by index it is the common function: the gathered matrix of row n is the block of the weight row of n's segment, and the
    contraction runs over the input channel. -/
theorem val1_eq (x : FVec Ideal S8192x64x3 .f32) (w : FVec Ideal S64x21504 .f32) (sid : IVec S8192 32)
    (hs : ∀ n : Fin 8192, (sid (ix1 n)).toNat < 64) : val1 x w sid = out1 x w sid := by
  funext j
  obtain ⟨n, o, i, rfl⟩ : ∃ (n : Fin 8192) (o : Fin 64) (i : Fin 3), j = ix3 n o i := ⟨_, _, _, eq_ix3 j⟩
  unfold val1 out1
  rw [mulf_apply]
  simp only [Host.dotGeneral]
  rw [Ideal.dotGeneral_apply, Dots.sum_batch _ rfl rfl rfl rfl rfl rfl]
  refine congrArg₂ (· * ·) rfl (Finset.sum_congr rfl fun m _ => ?_)
  show Host.gather gather_S64x64x64_S8192x1_S8192x64x64_12_0_n_n_0_1_16464 (mat1 w) (idCol sid) (ix3 n m o) * x (ix3 n m i)
    = w (ix2 (row sid n) (col1 m o)) * x (ix3 n m i)
  rw [RowGather.gather_rows_apply (by decide) _ rfl rfl rfl rfl rfl rfl rfl, mat1_apply, idCol_row sid n (hs n)]

/-- The fold of the last 45 operations reads, at the second result's buffer, that function of the contents before them. -/
theorem tail_v41 (W : Valuation τ sig (Elt Ideal)) :
    after (tailOps (F := Ideal)) W (main_v41 : DevRef τ sig)
      = val1 (W (main_arg1 : DevRef τ sig)) (W (main_arg3 : DevRef τ sig)) (W (main_v17 : DevRef τ sig)) := by
  after_results_simp
  rfl

/-! ## Feature kind 2: 32 channels, five components -/

/-- The weight table's columns [20480, 21504) viewed as 64 matrices of 32 × 32. -/
def mat2 (w : FVec Ideal S64x21504 .f32) : FVec Ideal S64x32x32 .f32 :=
  shapeCast S64x32x32 (extractStridedSlice S64x1024 ![0, 20480] w slices_S64x21504_S64x1024_0_20480) shapeCasts_S64x1024_S64x32x32

/-- Matrix e at (m, o) is the table at row e, column 20480 + m · 32 + o: the view keeps the row-major position and the slice starts at
    column 20480. -/
theorem mat2_apply (w : FVec Ideal S64x21504 .f32) (e : Fin 64) (m o : Fin 32) :
    mat2 w (ix3 e m o) = w (ix2 e (col2 m o)) := by
  unfold mat2
  have hm := m.isLt
  have ho := o.isLt
  rw [shapeCast_apply _ shapeCasts_S64x1024_S64x32x32 (ix3 e m o) (ix2 e (⟨m.val * 32 + o.val, by omega⟩ : Fin 1024))
    (by rw [Shape.rowMajor_val_two, Shape.rowMajor_val_three]
        show e.val * 1024 + (m.val * 32 + o.val) = (e.val * 32 + m.val) * 32 + o.val
        omega)]
  exact extractStridedSlice_apply _ w slices_S64x21504_S64x1024_0_20480 _ (ix2 e (col2 m o))
    (fun a => match a with
      | ⟨0, _⟩ => by show e.val = 0 + e.val; omega
      | ⟨1, _⟩ => by show 20480 + (m.val * 32 + o.val) = 20480 + (m.val * 32 + o.val); omega)

/-- The reference's third result as a function of the features, the weight table and the segment ids. -/
def val2 (x : FVec Ideal S8192x32x5 .f32) (w : FVec Ideal S64x21504 .f32) (sid : IVec S8192 32) : FVec Ideal S8192x32x5 .f32 :=
  mulf (broadcastInDim S8192x32x5 ![] bcast_S_S8192x32x5 (constant S_ .f32 0x3CB504F3#32))
    (Host.dotGeneral dot_S8192x32x32_S8192x32x5_S8192x32x5_1_1_2_2_0_0 none
      (Host.gather gather_S64x32x32_S8192x1_S8192x32x32_12_0_n_n_0_1_13232 (mat2 w) (idCol sid)) x)

/-- Index by index it is the common function: the gathered matrix of row n is the block of the weight row of n's segment, and the
    contraction runs over the input channel. -/
theorem val2_eq (x : FVec Ideal S8192x32x5 .f32) (w : FVec Ideal S64x21504 .f32) (sid : IVec S8192 32)
    (hs : ∀ n : Fin 8192, (sid (ix1 n)).toNat < 64) : val2 x w sid = out2 x w sid := by
  funext j
  obtain ⟨n, o, i, rfl⟩ : ∃ (n : Fin 8192) (o : Fin 32) (i : Fin 5), j = ix3 n o i := ⟨_, _, _, eq_ix3 j⟩
  unfold val2 out2
  rw [mulf_apply]
  simp only [Host.dotGeneral]
  rw [Ideal.dotGeneral_apply, Dots.sum_batch _ rfl rfl rfl rfl rfl rfl]
  refine congrArg₂ (· * ·) rfl (Finset.sum_congr rfl fun m _ => ?_)
  show Host.gather gather_S64x32x32_S8192x1_S8192x32x32_12_0_n_n_0_1_13232 (mat2 w) (idCol sid) (ix3 n m o) * x (ix3 n m i)
    = w (ix2 (row sid n) (col2 m o)) * x (ix3 n m i)
  rw [RowGather.gather_rows_apply (by decide) _ rfl rfl rfl rfl rfl rfl rfl, mat2_apply, idCol_row sid n (hs n)]

/-- The fold of the last 45 operations reads, at the third result's buffer, that function of the contents before them. -/
theorem tail_v53 (W : Valuation τ sig (Elt Ideal)) :
    after (tailOps (F := Ideal)) W (main_v53 : DevRef τ sig)
      = val2 (W (main_arg2 : DevRef τ sig)) (W (main_arg3 : DevRef τ sig)) (W (main_v17 : DevRef τ sig)) := by
  after_results_simp
  rfl

/-! ## The argument arrays -/

/-- None of the last 45 operations writes an argument array. -/
theorem tail_arg0 (W : Valuation τ sig (Elt Ideal)) :
    after (tailOps (F := Ideal)) W (main_arg0 : DevRef τ sig) = W (main_arg0 : DevRef τ sig) := by
  after_results_simp
theorem tail_arg1 (W : Valuation τ sig (Elt Ideal)) :
    after (tailOps (F := Ideal)) W (main_arg1 : DevRef τ sig) = W (main_arg1 : DevRef τ sig) := by
  after_results_simp
theorem tail_arg2 (W : Valuation τ sig (Elt Ideal)) :
    after (tailOps (F := Ideal)) W (main_arg2 : DevRef τ sig) = W (main_arg2 : DevRef τ sig) := by
  after_results_simp
theorem tail_arg3 (W : Valuation τ sig (Elt Ideal)) :
    after (tailOps (F := Ideal)) W (main_arg3 : DevRef τ sig) = W (main_arg3 : DevRef τ sig) := by
  after_results_simp
theorem tail_arg4 (W : Valuation τ sig (Elt Ideal)) :
    after (tailOps (F := Ideal)) W (main_arg4 : DevRef τ sig) = W (main_arg4 : DevRef τ sig) := by
  after_results_simp

/-! ## The run -/

/-- The idealized reference's run with its three results named: each is the common function of the launch arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = out0 (m ((c.tc : Thread nD τ).loc main_arg0)) (m ((c.tc : Thread nD τ).loc main_arg3)) (segIds (m ((c.tc : Thread nD τ).loc main_arg4)))
      ∧ r.2.mem ((c.tc : Thread nD τ).loc main_v41) = out1 (m ((c.tc : Thread nD τ).loc main_arg1)) (m ((c.tc : Thread nD τ).loc main_arg3)) (segIds (m ((c.tc : Thread nD τ).loc main_arg4)))
      ∧ r.2.mem ((c.tc : Thread nD τ).loc main_v53) = out2 (m ((c.tc : Thread nD τ).loc main_arg2)) (m ((c.tc : Thread nD τ).loc main_arg3)) (segIds (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (RRun.run_main (F := Ideal) m ρ)
  have e : after (ops (F := Ideal)) (launchContents m c) = after tailOps (RChain.afterChain (launchContents m c)) :=
    RRun.after_ops _
  refine ⟨(h c main_v29).trans ?_, (h c main_v41).trans ?_, (h c main_v53).trans ?_, (h c main_arg0).trans ?_,
    (h c main_arg1).trans ?_, (h c main_arg2).trans ?_, (h c main_arg3).trans ?_, (h c main_arg4).trans ?_⟩
  · rw [e, tail_v29, RChain.chain_arg0, RChain.chain_arg3, RChain.chain_v17]
    exact val0_eq _ _ _ fun n => segIds_lt _ n
  · rw [e, tail_v41, RChain.chain_arg1, RChain.chain_arg3, RChain.chain_v17]
    exact val1_eq _ _ _ fun n => segIds_lt _ n
  · rw [e, tail_v53, RChain.chain_arg2, RChain.chain_arg3, RChain.chain_v17]
    exact val2_eq _ _ _ fun n => segIds_lt _ n
  · rw [e, tail_arg0, RChain.chain_arg0]
  · rw [e, tail_arg1, RChain.chain_arg1]
  · rw [e, tail_arg2, RChain.chain_arg2]
  · rw [e, tail_arg3, RChain.chain_arg3]
  · rw [e, tail_arg4, RChain.chain_arg4]

end Cert.ReferenceIdeal.RVal

end
-- ==== Proof.lean ====
/-
  The five claims about the indexed (segmented) linear map on three kinds of features.

  Every row n of the input belongs to one of 64 contiguous segments, and segment g mixes the channels of its rows
  by the g-th row of the weight table: for each feature kind

      y[n, o, i] = coeff · Σ_m w[segment(n), offset + m · mul + o] · x[n, m, i].

  The kernel program computes this in three grid launches, one per feature kind, each selecting the weight row by a
  product with an indicator of the segment id; the reference gathers the weight row and contracts.  Over the
  extended reals both are the function above (`Cert.IxLin.out0`, `out1`, `out2`) of the launch arrays, because
  every segment id the host computes lies in 0 … 63 (`Cert.IxLin.segIds_lt`) and a sum against an indicator is the
  indicated entry.  The kernel's and the idealized kernel's frames are the generated ones; the reference's frame is
  its run with the results forgotten; the idealization rewrote nothing, so the fourth claim is trivial.
-/
import proofs.«107284_j21672404975706_1_alg».proof.Defs
import proofs.«107284_j21672404975706_1_alg».proof.Proof.Gen.Kernel
import proofs.«107284_j21672404975706_1_alg».proof.Proof.Gen.Kernel.Frame
import proofs.«107284_j21672404975706_1_alg».proof.Proof.Gen.KernelIdeal
import proofs.«107284_j21672404975706_1_alg».proof.Proof.Gen.KernelIdeal.Frame
import proofs.«107284_j21672404975706_1_alg».proof.Proof.Gen.ReferenceIdeal
import proofs.«107284_j21672404975706_1_alg».proof.Proof.Gen.Pre_finite_inputs
import proofs.«107284_j21672404975706_1_alg».proof.Proof.Spec
import proofs.«107284_j21672404975706_1_alg».proof.Proof.KVal
import proofs.«107284_j21672404975706_1_alg».proof.Proof.RVal

noncomputable section

namespace Cert.Proof

open Idealize.ShloMosaic Idealize.SL.Sem Cert.IxLin

theorem frame_k : Cert.frame_Kernel := fun m ρ _ => Cert.Kernel.Gen.frame m ρ

theorem frame_ki : Cert.frame_KernelIdeal := fun m ρ _ => Cert.KernelIdeal.Gen.frame m ρ

/-- The reference's run, its three results forgotten. -/
theorem frame_ri : Cert.frame_ReferenceIdeal := fun m ρ _ =>
  (θ_run Cert.ReferenceIdeal.defs _ _).mono (fun _ h c => (h c).2.2.2) (Cert.ReferenceIdeal.RVal.run m ρ)

/-- Both runs end at the same three functions of the launch arrays, and the launch arrays agree. -/
theorem algebraic : Cert.algebraic_KernelIdeal_ReferenceIdeal := by
  intro m ρ m' ρ' _ hagree
  refine ⟨fun c => out0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (segIds (m ((c.tc : Thread Cert.KernelIdeal.nD Cert.KernelIdeal.τ).loc Cert.KernelIdeal.main_arg4))),
    fun c => out1 (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (segIds (m ((c.tc : Thread Cert.KernelIdeal.nD Cert.KernelIdeal.τ).loc Cert.KernelIdeal.main_arg4))),
    fun c => out2 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (segIds (m ((c.tc : Thread Cert.KernelIdeal.nD Cert.KernelIdeal.τ).loc Cert.KernelIdeal.main_arg4))),
    Cert.KernelIdeal.KVal.run m ρ, ?_⟩
  refine (θ_run Cert.ReferenceIdeal.defs _ _).mono (fun r h c => ?_) (Cert.ReferenceIdeal.RVal.run m' ρ')
  obtain ⟨a0, a1, a2, a3, a4⟩ := hagree c
  obtain ⟨h0, h1, h2, k0, k1, k2, k3, k4⟩ := h c
  refine ⟨h0.trans ?_, h1.trans ?_, h2.trans ?_, k0, k1, k2, k3, k4⟩
  · rw [a0, a3, a4]
  · rw [a1, a3, a4]
  · rw [a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
